-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x3 : Shape := ⟨3, ![4, 4096, 3]⟩
abbrev S_ : Shape := ⟨0, ![]⟩

class Facts : Prop where
  bcast_S_S4x4096x3 : S_.BroadcastsInDim S4x4096x3 (![] : Fin 0 → Fin S4x4096x3.rank)
  reducesTo_S4x4096x3_S_d0_1_2 : S4x4096x3.ReducesTo [0, 1, 2] S_
  h_S_ : 0 < S_.numel

variable [Facts]

def fn {F : FTy → Type} [FloatOps F] (main_arg0 : FVec F S4x4096x3 .f32) (main_arg1 : FVec F S4x4096x3 .f32) : IVec S_ 1 :=
  let main_v0 : FVec F S4x4096x3 .f32 := Host.absf main_arg0
  let main_cst : FVec F S_ .f32 := constant S_ .f32 0x7F800000#32
  let main_v1 : FVec F S4x4096x3 .f32 := broadcastInDim S4x4096x3 ![] bcast_S_S4x4096x3 main_cst
  let main_v2 : IVec S4x4096x3 1 := cmpf .olt main_v0 main_v1
  let main_c : IVec S_ 1 := constantI S_ 1 1#1
  let main_v3 : IVec S_ 1 := (fun x v => Host.reduce IntOp.andi x v reducesTo_S4x4096x3_S_d0_1_2 h_S_) main_v2 main_c
  let main_v4 : FVec F S4x4096x3 .f32 := Host.absf main_arg1
  let main_cst_0 : FVec F S_ .f32 := constant S_ .f32 0x7F800000#32
  let main_v5 : FVec F S4x4096x3 .f32 := broadcastInDim S4x4096x3 ![] bcast_S_S4x4096x3 main_cst_0
  let main_v6 : IVec S4x4096x3 1 := cmpf .olt main_v4 main_v5
  let main_c_1 : IVec S_ 1 := constantI S_ 1 1#1
  let main_v7 : IVec S_ 1 := (fun x v => Host.reduce IntOp.andi x v reducesTo_S4x4096x3_S_d0_1_2 h_S_) main_v6 main_c_1
  let main_v8 : IVec S_ 1 := andi main_v3 main_v7
  main_v8
-- ==== Kernel.lean ====
abbrev S4x4096x3 : Shape := ⟨3, ![4, 4096, 3]⟩
abbrev S_ : Shape := ⟨0, ![]⟩
abbrev S4x4096 : Shape := ⟨2, ![4, 4096]⟩
abbrev S4x4096x1 : Shape := ⟨3, ![4, 4096, 1]⟩
abbrev S4x3x4096 : Shape := ⟨3, ![4, 3, 4096]⟩
abbrev S4x1x4096 : Shape := ⟨3, ![4, 1, 4096]⟩
abbrev S4x1x1 : Shape := ⟨3, ![4, 1, 1]⟩
abbrev S1x2048x3 : Shape := ⟨3, ![1, 2048, 3]⟩
abbrev S1x2048x1 : Shape := ⟨3, ![1, 2048, 1]⟩
abbrev S1x3x4096 : Shape := ⟨3, ![1, 3, 4096]⟩
abbrev S1x1x4096 : Shape := ⟨3, ![1, 1, 4096]⟩
abbrev S1x1x1 : Shape := ⟨3, ![1, 1, 1]⟩
abbrev S1x4096 : Shape := ⟨2, ![1, 4096]⟩
abbrev S2048x3 : Shape := ⟨2, ![2048, 3]⟩
abbrev S2048x1 : Shape := ⟨2, ![2048, 1]⟩
abbrev S3x4096 : Shape := ⟨2, ![3, 4096]⟩
abbrev S2048 : Shape := ⟨1, ![2048]⟩
abbrev S4096 : Shape := ⟨1, ![4096]⟩
abbrev S2048x4096 : Shape := ⟨2, ![2048, 4096]⟩
abbrev S1 : Shape := ⟨1, ![1]⟩
abbrev S1x1 : Shape := ⟨2, ![1, 1]⟩

abbrev nBuf : Space → Nat
  | .hbm => 25
  | .vmem => 13
  | .smem => 0
  | _ => 0

abbrev bufTy : (tb : Table) → Fin (tcTables nBuf tb) → BufTy
  | .hbm, ⟨0, _⟩ => ⟨S4x4096x3, .f32⟩
  | .hbm, ⟨1, _⟩ => ⟨S4x4096x3, .f32⟩
  | .hbm, ⟨2, _⟩ => ⟨S_, .f32⟩
  | .hbm, ⟨3, _⟩ => ⟨S4x4096x3, .f32⟩
  | .hbm, ⟨4, _⟩ => ⟨S4x4096x3, .f32⟩
  | .hbm, ⟨5, _⟩ => ⟨S4x4096x3, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S4x3x4096, .f32⟩
  | .hbm, ⟨10, _⟩ => ⟨S4x4096x3, .f32⟩
  | .hbm, ⟨11, _⟩ => ⟨S_, .f32⟩
  | .hbm, ⟨12, _⟩ => ⟨S4x4096, .f32⟩
  | .hbm, ⟨13, _⟩ => ⟨S4x1x4096, .f32⟩
  | .hbm, ⟨14, _⟩ => ⟨S4x1x1, .f32⟩
  | .hbm, ⟨15, _⟩ => ⟨S4x1x1, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .local _ .vmem, ⟨0, _⟩ => ⟨S1x2048x3, .f32⟩
  | .local _ .vmem, ⟨1, _⟩ => ⟨S1x2048x3, .f32⟩
  | .local _ .vmem, ⟨2, _⟩ => ⟨S1x2048x1, .f32⟩
  | .local _ .vmem, ⟨3, _⟩ => ⟨S1x2048x1, .f32⟩
  | .local _ .vmem, ⟨4, _⟩ => ⟨S1x3x4096, .f32⟩
  | .local _ .vmem, ⟨5, _⟩ => ⟨S1x3x4096, .f32⟩
  | .local _ .vmem, ⟨6, _⟩ => ⟨S1x1x4096, .f32⟩
  | .local _ .vmem, ⟨7, _⟩ => ⟨S1x1x4096, .f32⟩
  | .local _ .vmem, ⟨8, _⟩ => ⟨S1x1x1, .f32⟩
  | .local _ .vmem, ⟨9, _⟩ => ⟨S1x1x1, .f32⟩
  | .local _ .vmem, ⟨10, _⟩ => ⟨S1x1x1, .f32⟩
  | .local _ .vmem, ⟨11, _⟩ => ⟨S1x1x1, .f32⟩
  | .local _ .vmem, ⟨12, _⟩ => ⟨S1x4096, .f32⟩
  | _, _ => ⟨S4x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_cst_0 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_cst_1 : Ref sig .tc := ⟨.hbm, 11, rfl⟩
abbrev main_call0_v7 : Ref sig .tc := ⟨.hbm, 12, rfl⟩
abbrev main_call0_v8 : Ref sig .tc := ⟨.hbm, 13, rfl⟩
abbrev main_call0_v9_0 : Ref sig .tc := ⟨.hbm, 14, rfl⟩
abbrev main_call0_v9_1 : Ref sig .tc := ⟨.hbm, 15, rfl⟩
abbrev main_call0_cst_2 : Ref sig .tc := ⟨.hbm, 16, rfl⟩
abbrev main_call0_v10 : Ref sig .tc := ⟨.hbm, 17, rfl⟩
abbrev main_call0_cst_3 : Ref sig .tc := ⟨.hbm, 18, rfl⟩
abbrev main_call0_v11 : Ref sig .tc := ⟨.hbm, 19, rfl⟩
abbrev main_call0_cst_4 : Ref sig .tc := ⟨.hbm, 20, rfl⟩
abbrev main_call0_v12 : Ref sig .tc := ⟨.hbm, 21, rfl⟩
abbrev main_call0_cst_5 : Ref sig .tc := ⟨.hbm, 22, rfl⟩
abbrev main_call0_v13 : Ref sig .tc := ⟨.hbm, 23, rfl⟩
abbrev main_v0 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 2], ![false, false]⟩

def k0_cond1 (i : grid0.Coords) : BitVec 1 :=
  let arg1 : BitVec 32 := BitVec.ofNat 32 (i 1).val
  let c0_i32 : BitVec 32 := 0#32
  let v51 : BitVec 1 := Scalar.cmpi .eq arg1 c0_i32
  let v52 : BitVec 32 := Scalar.extui v51
  let c0_i32_13 : BitVec 32 := 0#32
  let v53 : BitVec 1 := Scalar.cmpi .ne v52 c0_i32_13
  v53

def k0_cond2 (i : grid0.Coords) : BitVec 1 :=
  let arg1 : BitVec 32 := BitVec.ofNat 32 (i 1).val
  let c0_i32_14 : BitVec 32 := 0#32
  let v54 : BitVec 1 := Scalar.cmpi .sgt arg1 c0_i32_14
  let v55 : BitVec 32 := Scalar.extui v54
  let c0_i32_15 : BitVec 32 := 0#32
  let v56 : BitVec 1 := Scalar.cmpi .ne v55 c0_i32_15
  v56

def k0_cond3 (i : grid0.Coords) : BitVec 1 :=
  let arg1 : BitVec 32 := BitVec.ofNat 32 (i 1).val
  let c1_i32 : BitVec 32 := 1#32
  let v57 : BitVec 1 := Scalar.cmpi .eq arg1 c1_i32
  let v58 : BitVec 32 := Scalar.extui v57
  let c0_i32_16 : BitVec 32 := 0#32
  let v59 : BitVec 1 := Scalar.cmpi .ne v58 c0_i32_16
  v59

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x3x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  bcast_S_S4x4096x3 : S_.BroadcastsInDim S4x4096x3 (![] : Fin 0 → Fin S4x4096x3.rank)
  reducesTo_S4x4096x3_S4x4096_d2 : S4x4096x3.ReducesTo [2] S4x4096
  h_S_ : 0 < S_.numel
  bcast_S4x4096_S4x4096x1_0_1 : S4x4096.BroadcastsInDim S4x4096x1 (![0, 1] : Fin 2 → Fin S4x4096x1.rank)
  transposes_S4x4096x3_S4x3x4096_0_2_1 : S4x4096x3.Transposes [0, 2, 1] S4x3x4096
  bcast_S4x4096_S4x1x4096_0_2 : S4x4096.BroadcastsInDim S4x1x4096 (![0, 2] : Fin 2 → Fin S4x1x4096.rank)
  reducesTo_S4x1x1_S_d0_1_2 : S4x1x1.ReducesTo [0, 1, 2] S_
  inb_S1x2048x3_S1x2048x3_0_0_0 : ∀ a, (![0, 0, 0] : Fin 3 → Nat) a + S1x2048x3.size a ≤ S1x2048x3.size a
  h_S1x2048x3 : 0 < S1x2048x3.numel
  shapeCasts_S1x2048x3_S2048x3 : S1x2048x3.ShapeCasts S2048x3
  inb_S1x2048x1_S1x2048x1_0_0_0 : ∀ a, (![0, 0, 0] : Fin 3 → Nat) a + S1x2048x1.size a ≤ S1x2048x1.size a
  h_S1x2048x1 : 0 < S1x2048x1.numel
  shapeCasts_S1x2048x1_S2048x1 : S1x2048x1.ShapeCasts S2048x1
  inb_S1x3x4096_S1x3x4096_0_0_0 : ∀ a, (![0, 0, 0] : Fin 3 → Nat) a + S1x3x4096.size a ≤ S1x3x4096.size a
  h_S1x3x4096 : 0 < S1x3x4096.numel
  shapeCasts_S1x3x4096_S3x4096 : S1x3x4096.ShapeCasts S3x4096
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S1x4096 : S1x1x4096.ShapeCasts S1x4096
  slices_S2048x3_o0_0_S2048x1 : S2048x3.Slices ![0, 0] S2048x1
  shapeCasts_S2048x1_S2048 : S2048x1.ShapeCasts S2048
  shapeCasts_S2048_S2048x1 : S2048.ShapeCasts S2048x1
  slices_S3x4096_o0_0_S1x4096 : S3x4096.Slices ![0, 0] S1x4096
  shapeCasts_S1x4096_S4096 : S1x4096.ShapeCasts S4096
  shapeCasts_S4096_S1x4096 : S4096.ShapeCasts S1x4096
  broadcasts_S2048x1_S2048x4096 : S2048x1.Broadcasts S2048x4096
  broadcasts_S1x4096_S2048x4096 : S1x4096.Broadcasts S2048x4096
  slices_S2048x3_o0_1_S2048x1 : S2048x3.Slices ![0, 1] S2048x1
  slices_S3x4096_o1_0_S1x4096 : S3x4096.Slices ![1, 0] S1x4096
  slices_S2048x3_o0_2_S2048x1 : S2048x3.Slices ![0, 2] S2048x1
  slices_S3x4096_o2_0_S1x4096 : S3x4096.Slices ![2, 0] S1x4096
  reduces_S2048x4096_S2048 : S2048x4096.Reduces [1] S2048
  shapeCasts_S2048x1_S1x2048x1 : S2048x1.ShapeCasts S1x2048x1
  reduces_S1x2048x1_S1 : S1x2048x1.Reduces [1, 2] S1
  shapeCasts_S1_S1x1x1 : S1.ShapeCasts S1x1x1
  inpos_S1x1x1_p0_0_0 : ∀ a, (![0, 0, 0] : Fin 3 → Nat) a < S1x1x1.size a
  reduces_S2048x4096_S4096 : S2048x4096.Reduces [0] S4096
  shapeCasts_S1x1_S1x1x1 : S1x1.ShapeCasts S1x1x1
  inb_S1x1x1_S1x1x1_0_0_0 : ∀ a, (![0, 0, 0] : Fin 3 → Nat) a + S1x1x1.size a ≤ S1x1x1.size a
  h_S1x1x1 : 0 < S1x1x1.numel
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  shapeCasts_S1x1x1_S1x1x1 : S1x1x1.ShapeCasts S1x1x1
  shapeCasts_S1x4096_S1x1x4096 : S1x4096.ShapeCasts S1x1x4096
  reduces_S1x1x4096_S1 : S1x1x4096.Reduces [1, 2] S1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x3.size a ≤ S4x4096x3.size a
  hwx0_0 : ∀ i : grid0.Coords, EltTy.bits .f32 = 32 ∨ (Rect.block (s := S4x4096x3) S1x2048x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x1.size a ≤ S4x4096x1.size a
  hwx0_1 : ∀ i : grid0.Coords, EltTy.bits .f32 = 32 ∨ (Rect.block (s := S4x4096x1) S1x2048x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x3x4096.size a ≤ S4x3x4096.size a
  hwx0_2 : ∀ i : grid0.Coords, EltTy.bits .f32 = 32 ∨ (Rect.block (s := S4x3x4096) S1x3x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x4096.size a ≤ S4x1x4096.size a
  hwx0_3 : ∀ i : grid0.Coords, EltTy.bits .f32 = 32 ∨ (Rect.block (s := S4x1x4096) S1x1x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1.size a ≤ S4x1x1.size a
  hwx0_4 : ∀ i : grid0.Coords, EltTy.bits .f32 = 32 ∨ (Rect.block (s := S4x1x1) S1x1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x1.size a ≤ S4x1x1.size a
  hwx0_5 : ∀ i : grid0.Coords, EltTy.bits .f32 = 32 ∨ (Rect.block (s := S4x1x1) S1x1x1.size (cc0_transform_5 i) (hinb0_5 i)).WholeWords (EltTy.packing .f32)

variable [Facts₀]

abbrev win0_0 : Pipeline.Window sig grid0 :=
  Pipeline.Window.ofSpec (Memref.whole main_call0_v1) S1x2048x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v4) S1x2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v5) S1x3x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v8) S1x1x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v9_0) S1x1x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_call0_v9_1) S1x1x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond1 i == 1#1) && !(k0_cond2 i == 1#1) | 5 => fun i => !(k0_cond3 i == 1#1) | ⟨_ + 6, h⟩ => absurd h (Nat.not_lt.2 (Nat.le_add_left _ _))

class Facts : Prop extends Facts₀ where

variable [Facts]
-- ==== ReferenceIdeal.lean ====
abbrev S4x4096x3 : Shape := ⟨3, ![4, 4096, 3]⟩
abbrev S4x4096x1x3 : Shape := ⟨4, ![4, 4096, 1, 3]⟩
abbrev S4x1x4096x3 : Shape := ⟨4, ![4, 1, 4096, 3]⟩
abbrev S4x4096x4096x3 : Shape := ⟨4, ![4, 4096, 4096, 3]⟩
abbrev S_ : Shape := ⟨0, ![]⟩
abbrev S4x4096x4096 : Shape := ⟨3, ![4, 4096, 4096]⟩
abbrev S4x4096 : Shape := ⟨2, ![4, 4096]⟩

abbrev nBuf : Space → Nat
  | .hbm => 23
  | .vmem => 0
  | .smem => 0
  | _ => 0

abbrev bufTy : (tb : Table) → Fin (tcTables nBuf tb) → BufTy
  | .hbm, ⟨0, _⟩ => ⟨S4x4096x3, .f32⟩
  | .hbm, ⟨1, _⟩ => ⟨S4x4096x3, .f32⟩
  | .hbm, ⟨2, _⟩ => ⟨S4x4096x1x3, .f32⟩
  | .hbm, ⟨3, _⟩ => ⟨S4x1x4096x3, .f32⟩
  | .hbm, ⟨4, _⟩ => ⟨S4x4096x4096x3, .f32⟩
  | .hbm, ⟨5, _⟩ => ⟨S4x4096x4096x3, .f32⟩
  | .hbm, ⟨6, _⟩ => ⟨S4x4096x4096x3, .f32⟩
  | .hbm, ⟨7, _⟩ => ⟨S4x4096x4096x3, .f32⟩
  | .hbm, ⟨8, _⟩ => ⟨S_, .f32⟩
  | .hbm, ⟨9, _⟩ => ⟨S4x4096x4096, .f32⟩
  | .hbm, ⟨10, _⟩ => ⟨S_, .f32⟩
  | .hbm, ⟨11, _⟩ => ⟨S4x4096, .f32⟩
  | .hbm, ⟨12, _⟩ => ⟨S_, .f32⟩
  | .hbm, ⟨13, _⟩ => ⟨S4x4096, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | _, _ => ⟨S4x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_cst_4 : Ref sig .tc := ⟨.hbm, 18, rfl⟩
abbrev main_v11 : Ref sig .tc := ⟨.hbm, 19, rfl⟩
abbrev main_cst_5 : Ref sig .tc := ⟨.hbm, 20, rfl⟩
abbrev main_v12 : Ref sig .tc := ⟨.hbm, 21, rfl⟩
abbrev main_v13 : Ref sig .tc := ⟨.hbm, 22, rfl⟩

abbrev nD : Nat := 1
abbrev τ : Topo := Topo.v7x

variable {F : FTy → Type} [FloatOps F]

class Facts₀ : Prop where
  bcast_S4x4096x3_S4x4096x1x3_0_1_3 : S4x4096x3.BroadcastsInDim S4x4096x1x3 (![0, 1, 3] : Fin 3 → Fin S4x4096x1x3.rank)
  bcast_S4x4096x3_S4x1x4096x3_0_2_3 : S4x4096x3.BroadcastsInDim S4x1x4096x3 (![0, 2, 3] : Fin 3 → Fin S4x1x4096x3.rank)
  bcast_S4x4096x1x3_S4x4096x4096x3_0_1_2_3 : S4x4096x1x3.BroadcastsInDim S4x4096x4096x3 (![0, 1, 2, 3] : Fin 4 → Fin S4x4096x4096x3.rank)
  bcast_S4x1x4096x3_S4x4096x4096x3_0_1_2_3 : S4x1x4096x3.BroadcastsInDim S4x4096x4096x3 (![0, 1, 2, 3] : Fin 4 → Fin S4x4096x4096x3.rank)
  reducesTo_S4x4096x4096x3_S4x4096x4096_d3 : S4x4096x4096x3.ReducesTo [3] S4x4096x4096
  h_S_ : 0 < S_.numel
  reducesTo_S4x4096x4096_S4x4096_d2 : S4x4096x4096.ReducesTo [2] S4x4096
  reducesTo_S4x4096x4096_S4x4096_d1 : S4x4096x4096.ReducesTo [1] S4x4096
  reducesTo_S4x4096_S_d0_1 : S4x4096.ReducesTo [0, 1] S_

variable [Facts₀]

class Facts : Prop extends Facts₀ where

variable [Facts]
-- ==== Proof.BodyBits.Shared.lean ====
/-
  What the two runs of the Chamfer block kernel share.

  The grid is 4 × 2: point t = 2·b + i handles batch entry b and the i-th half (2048 points) of the first cloud.
  The body has three conditionals on i alone: "i = 0" (start the batch entry: store the half's sum of row
  minima into the first output's buffer and the half's column minima into the scratch), "i > 0" (add to the
  first output's buffer, take the minimum into the scratch) and "i = 1" (close the batch entry: store the sum
  over the columns of scratch + |y|² into the second output's buffer). So the points fall into two kinds:
  even t (i = 0) and odd t (i = 1).
-/
import proofs.«120560_g4922032521243_cont_8to1_c_580_11_alg».proof.Proof.Gen.Kernel.Frame
import proofs.«120560_g4922032521243_cont_8to1_c_580_11_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three conditions, decided over the grid -/

/-- "i = 0": the point starts its batch entry. -/
abbrev starts (i : grid0.Coords) : Prop := k0_cond1 i = 1#1
theorem starts_iff : ∀ t : Fin cfg0.N, starts (grid0.coords t) ↔ t.val % 2 = 0 :=
  (by decide +kernel : ∀ t : Fin grid0.N, starts (grid0.coords t) ↔ t.val % 2 = 0)

/-- "i > 0": the point continues its batch entry. -/
abbrev continues (i : grid0.Coords) : Prop := k0_cond2 i = 1#1
theorem continues_iff : ∀ t : Fin cfg0.N, continues (grid0.coords t) ↔ t.val % 2 = 1 :=
  (by decide +kernel : ∀ t : Fin grid0.N, continues (grid0.coords t) ↔ t.val % 2 = 1)

/-- "i = 1": the point closes its batch entry. -/
abbrev closes (i : grid0.Coords) : Prop := k0_cond3 i = 1#1
theorem closes_iff : ∀ t : Fin cfg0.N, closes (grid0.coords t) ↔ t.val % 2 = 1 :=
  (by decide +kernel : ∀ t : Fin grid0.N, closes (grid0.coords t) ↔ t.val % 2 = 1)

/-! ## Where the body stores into a window -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
/-- The first output is stored into at every point: one of "i = 0", "i > 0" holds. -/
theorem live4 : ∀ t : Fin cfg0.N, cfg0.idle 4 (grid0.coords t) = false := by decide +kernel
/-- The second output is stored into exactly at the closing points. -/
theorem idle5_iff : ∀ t : Fin cfg0.N, cfg0.idle 5 (grid0.coords t) = true ↔ t.val % 2 = 0 :=
  (by decide +kernel : ∀ t : Fin grid0.N, cfg0.idle 5 (grid0.coords t) = true ↔ t.val % 2 = 0)

/-! ## The staging buffers at a point, and the scratch -/

abbrev buf0 (t : Fin cfg0.N) : Memref sig .tc .vmem S1x2048x3 .f32 := win0_0.stage (cfg0.slots t 0)
abbrev whole0 (t : Fin cfg0.N) : (buf0 t).IsWhole := hstage0_0 ((cfg0.slots t 0).cast nbuf0_0)
abbrev buf1 (t : Fin cfg0.N) : Memref sig .tc .vmem S1x2048x1 .f32 := win0_1.stage (cfg0.slots t 1)
abbrev whole1 (t : Fin cfg0.N) : (buf1 t).IsWhole := hstage0_1 ((cfg0.slots t 1).cast nbuf0_1)
abbrev buf2 (t : Fin cfg0.N) : Memref sig .tc .vmem S1x3x4096 .f32 := win0_2.stage (cfg0.slots t 2)
abbrev whole2 (t : Fin cfg0.N) : (buf2 t).IsWhole := hstage0_2 ((cfg0.slots t 2).cast nbuf0_2)
abbrev buf3 (t : Fin cfg0.N) : Memref sig .tc .vmem S1x1x4096 .f32 := win0_3.stage (cfg0.slots t 3)
abbrev whole3 (t : Fin cfg0.N) : (buf3 t).IsWhole := hstage0_3 ((cfg0.slots t 3).cast nbuf0_3)
abbrev buf4 (t : Fin cfg0.N) : Memref sig .tc .vmem S1x1x1 .f32 := win0_4.stage (cfg0.slots t 4)
abbrev whole4 (t : Fin cfg0.N) : (buf4 t).IsWhole := hstage0_4 ((cfg0.slots t 4).cast nbuf0_4)
abbrev buf5 (t : Fin cfg0.N) : Memref sig .tc .vmem S1x1x1 .f32 := win0_5.stage (cfg0.slots t 5)
abbrev whole5 (t : Fin cfg0.N) : (buf5 t).IsWhole := hstage0_5 ((cfg0.slots t 5).cast nbuf0_5)
/-- The scratch row of running column minima: a whole buffer of the kernel's own. -/
abbrev scratch : Memref sig .tc .vmem S1x4096 .f32 := Memref.whole cc0_scratch0

/-- Views through which the contents of the outputs' buffers and of the scratch are stated. -/
abbrev viewO1 : View sig .tc .vmem S1x1x1 .f32 := (Memref.whole cc0_stg4_0 : Memref sig .tc .vmem S1x1x1 .f32).view
abbrev viewO2 : View sig .tc .vmem S1x1x1 .f32 := (Memref.whole cc0_stg5_0 : Memref sig .tc .vmem S1x1x1 .f32).view
abbrev viewS : View sig .tc .vmem S1x4096 .f32 := scratch.view

/-- What the region may use besides its windows: the scratch at some contents and the generator register. -/
theorem rest_eq (c : Dev nD) :
    (Pipeline.ΦA spec0 c : sProp 𝕄)
      = iprop(iprop((∃ d, owns (c : Thread nD τ) scratch fullShare d)) ∗ (∃ r, prngReg c r)) := by
  unfold Pipeline.ΦA; rw [scopedRest0_eq]; simp only [scratch, owns_whole]; try rfl

end Cert.Kernel.Body

end
-- ==== Proof.BodyBits.RunStart.lean ====
/-
  The body at a point that STARTS a batch entry (i = 0), run once on any whole staging buffers.
  It reads the four input blocks, stores the half's sum of row minima into the first output's buffer and the
  half's column minima into the scratch, and leaves the second output's buffer as it found it.
-/
import proofs.«120560_g4922032521243_cont_8to1_c_580_11_alg».proof.Proof.BodyBits.Shared

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the first output's buffer and in the scratch at a starting point,
    with the proof that the body runs: from the input buffers at their contents, the first output's buffer and
    the scratch at anything, the second output's buffer at any contents `xi5`, to the continuation holding the
    inputs as they were, the pieces written, and the second output's buffer still at `xi5`. The pieces are the
    witness the symbolic run finds. -/
noncomputable def runStart (c : Dev nD) (i : grid0.Coords) (arg2 : Memref sig .tc .vmem S1x2048x3 .f32) (harg2 : arg2.IsWhole) (arg3 : Memref sig .tc .vmem S1x2048x1 .f32) (harg3 : arg3.IsWhole) (arg4 : Memref sig .tc .vmem S1x3x4096 .f32) (harg4 : arg4.IsWhole) (arg5 : Memref sig .tc .vmem S1x1x4096 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x4096 .f32) (harg8 : arg8.IsWhole) (hc0 : starts i) (hc1 : ¬continues i) (hc2 : ¬closes i)
    (x0 : Vec F S1x2048x3 .f32) (x1 : Vec F S1x2048x1 .f32) (x2 : Vec F S1x3x4096 .f32) (x3 : Vec F S1x1x4096 .f32) :
    Σ' (L4 : List (View.Piece (Elt F) S1x1x1 .f32)), { LS : List (View.Piece (Elt F) S1x4096 .f32) //
      ∀ (xi5 : Vec F S1x1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xi5 ∗ (∃ f, arg8.view.loc (c : Thread nD τ) ↦[arg8.view.set]{fullShare} arg8.view.writes (Elt F) f LS)) -∗ K ⟨⟩))
          ⊢ wp frame (wpE (defs₀ (F := F)) Variants.none c none) E (cc0__chamfer_block_kernel i arg2 harg2 arg3 harg3 arg4 harg4 arg5 harg5 arg6 harg6 arg7 harg7 arg8 harg8) K } := by
  refine ⟨?_, ?_, fun xi5 E K => ?run⟩
  case run =>
    simp only [cc0__chamfer_block_kernel_eq_skeleton]; unfold cc0__chamfer_block_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%ds, %fs, -, HS⟩, Hk⟩
    obtain rfl := harg2.eq_unread hf0; obtain rfl := harg3.eq_unread hf1; obtain rfl := harg4.eq_unread hf2; obtain rfl := harg5.eq_unread hf3
    obtain rfl := harg7.eq_unread hf5
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    isplitl [H5]
    · iexists _; isplitr; · ipureintro; exact harg7.read_unread _
      iexact H5
    iexists _; iexact HS

end Cert.Kernel.Body

end
-- ==== Proof.BodyBits.RunClose.lean ====
/-
  The body at a point that CONTINUES and CLOSES a batch entry (i = 1), run once on any whole staging buffers.
  It reads the four input blocks, the first output's buffer (the running sum) and the scratch (the running
  column minima); it stores the updated sum, the updated minima, and into the second output's buffer the sum
  over the columns of (minimum + |y|²).
-/
import proofs.«120560_g4922032521243_cont_8to1_c_580_11_alg».proof.Proof.BodyBits.RunStart

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the two outputs' buffers and in the scratch at a closing point, with
    the proof that the body runs: from the input buffers at their contents, the first output's buffer at the
    running sum `xo4`, the scratch at the running minima `xs`, the second output's buffer at anything, to the
    continuation holding the inputs as they were and the pieces written. -/
noncomputable def runClose (c : Dev nD) (i : grid0.Coords) (arg2 : Memref sig .tc .vmem S1x2048x3 .f32) (harg2 : arg2.IsWhole) (arg3 : Memref sig .tc .vmem S1x2048x1 .f32) (harg3 : arg3.IsWhole) (arg4 : Memref sig .tc .vmem S1x3x4096 .f32) (harg4 : arg4.IsWhole) (arg5 : Memref sig .tc .vmem S1x1x4096 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x4096 .f32) (harg8 : arg8.IsWhole) (hc0 : ¬starts i) (hc1 : continues i) (hc2 : closes i)
    (x0 : Vec F S1x2048x3 .f32) (x1 : Vec F S1x2048x1 .f32) (x2 : Vec F S1x3x4096 .f32) (x3 : Vec F S1x1x4096 .f32) (xo4 : Vec F S1x1x1 .f32) (xs : Vec F S1x4096 .f32) :
    Σ' (L4 : List (View.Piece (Elt F) S1x1x1 .f32)) (L5 : List (View.Piece (Elt F) S1x1x1 .f32)), { LS : List (View.Piece (Elt F) S1x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo4 ∗ (∃ d, owns (c : Thread nD τ) arg7 fullShare d) ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS)) -∗ K ⟨⟩))
          ⊢ wp frame (wpE (defs₀ (F := F)) Variants.none c none) E (cc0__chamfer_block_kernel i arg2 harg2 arg3 harg3 arg4 harg4 arg5 harg5 arg6 harg6 arg7 harg7 arg8 harg8) K } := by
  refine ⟨?_, ?_, ?_, fun E K => ?run⟩
  case run =>
    simp only [cc0__chamfer_block_kernel_eq_skeleton]; unfold cc0__chamfer_block_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg2.eq_unread hf0; obtain rfl := harg3.eq_unread hf1; obtain rfl := harg4.eq_unread hf2; obtain rfl := harg5.eq_unread hf3
    obtain rfl := harg6.eq_unread hf4; obtain rfl := harg8.eq_unread hfs
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    isplitl [H5]
    · iexists _; iexact H5
    iexists _; iexact HS

end Cert.Kernel.Body

end
-- ==== Proof.BodyBits.Frame.lean ====
/-
  The frame of the Chamfer block kernel's program, with the outputs' contents named.

  Per kind of point the body's stores cover the buffers they touch, so what a buffer holds afterwards is the
  stored pieces read back. Point by point (t = 2·b + i): after a starting point the first output's buffer holds
  that half's sum of row minima and the scratch that half's column minima; after a closing point the first
  output's buffer holds the sum of what the starting point left and the second half's sum, the scratch the
  minimum of the two halves' column minima, and the second output's buffer the sum over the columns of
  (minimum + |y|²). The first output's buffer is not written back between the two points of a batch entry, so the
  closing point finds what the starting point left.
-/
import proofs.«120560_g4922032521243_cont_8to1_c_580_11_alg».proof.Proof.BodyBits.RunClose

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- An even position is not an odd one. -/
theorem not_one_of_even {n : ℕ} (h : n % 2 = 0) (h' : n % 2 = 1) : False := by omega
theorem one_of_not_even {n : ℕ} (h : ¬ n % 2 = 0) : n % 2 = 1 := by omega

/-! ## The stores cover the buffers -/

theorem coverStart4 (c : Dev nD) (i : grid0.Coords) (arg2 : Memref sig .tc .vmem S1x2048x3 .f32) (harg2 : arg2.IsWhole) (arg3 : Memref sig .tc .vmem S1x2048x1 .f32) (harg3 : arg3.IsWhole) (arg4 : Memref sig .tc .vmem S1x3x4096 .f32) (harg4 : arg4.IsWhole) (arg5 : Memref sig .tc .vmem S1x1x4096 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x4096 .f32) (harg8 : arg8.IsWhole) (hc0 : starts i) (hc1 : ¬continues i) (hc2 : ¬closes i)
    (x0 : Vec F S1x2048x3 .f32) (x1 : Vec F S1x2048x1 .f32) (x2 : Vec F S1x3x4096 .f32) (x3 : Vec F S1x1x4096 .f32) (y : S1x1x1.Idx) : ∃ pc ∈ (runStart c i arg2 harg2 arg3 harg3 arg4 harg4 arg5 harg5 arg6 harg6 arg7 harg7 arg8 harg8 hc0 hc1 hc2 x0 x1 x2 x3).1, y ∈ pc.1.set :=
  View.cover_of_tiledL (runStart c i arg2 harg2 arg3 harg3 arg4 harg4 arg5 harg5 arg6 harg6 arg7 harg7 arg8 harg8 hc0 hc1 hc2 x0 x1 x2 x3).1 S1x1x1.size (by sl_kernel_rfl) y

theorem coverStartS (c : Dev nD) (i : grid0.Coords) (arg2 : Memref sig .tc .vmem S1x2048x3 .f32) (harg2 : arg2.IsWhole) (arg3 : Memref sig .tc .vmem S1x2048x1 .f32) (harg3 : arg3.IsWhole) (arg4 : Memref sig .tc .vmem S1x3x4096 .f32) (harg4 : arg4.IsWhole) (arg5 : Memref sig .tc .vmem S1x1x4096 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x4096 .f32) (harg8 : arg8.IsWhole) (hc0 : starts i) (hc1 : ¬continues i) (hc2 : ¬closes i)
    (x0 : Vec F S1x2048x3 .f32) (x1 : Vec F S1x2048x1 .f32) (x2 : Vec F S1x3x4096 .f32) (x3 : Vec F S1x1x4096 .f32) (y : S1x4096.Idx) : ∃ pc ∈ (runStart c i arg2 harg2 arg3 harg3 arg4 harg4 arg5 harg5 arg6 harg6 arg7 harg7 arg8 harg8 hc0 hc1 hc2 x0 x1 x2 x3).2.1, y ∈ pc.1.set :=
  View.cover_of_tiledL (runStart c i arg2 harg2 arg3 harg3 arg4 harg4 arg5 harg5 arg6 harg6 arg7 harg7 arg8 harg8 hc0 hc1 hc2 x0 x1 x2 x3).2.1 S1x4096.size (by sl_kernel_rfl) y

/-- What a starting point leaves in the first output's buffer. -/
def startO1 (c : Dev nD) (i : grid0.Coords) (arg2 : Memref sig .tc .vmem S1x2048x3 .f32) (harg2 : arg2.IsWhole) (arg3 : Memref sig .tc .vmem S1x2048x1 .f32) (harg3 : arg3.IsWhole) (arg4 : Memref sig .tc .vmem S1x3x4096 .f32) (harg4 : arg4.IsWhole) (arg5 : Memref sig .tc .vmem S1x1x4096 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x4096 .f32) (harg8 : arg8.IsWhole) (hc0 : starts i) (hc1 : ¬continues i) (hc2 : ¬closes i)
    (x0 : Vec F S1x2048x3 .f32) (x1 : Vec F S1x2048x1 .f32) (x2 : Vec F S1x3x4096 .f32) (x3 : Vec F S1x1x4096 .f32) : Vec F S1x1x1 .f32 :=
  viewO1.read (Elt F) (viewO1.writes (Elt F) viewO1.junk (runStart c i arg2 harg2 arg3 harg3 arg4 harg4 arg5 harg5 arg6 harg6 arg7 harg7 arg8 harg8 hc0 hc1 hc2 x0 x1 x2 x3).1)

/-- What a starting point leaves in the scratch. -/
def startS (c : Dev nD) (i : grid0.Coords) (arg2 : Memref sig .tc .vmem S1x2048x3 .f32) (harg2 : arg2.IsWhole) (arg3 : Memref sig .tc .vmem S1x2048x1 .f32) (harg3 : arg3.IsWhole) (arg4 : Memref sig .tc .vmem S1x3x4096 .f32) (harg4 : arg4.IsWhole) (arg5 : Memref sig .tc .vmem S1x1x4096 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x4096 .f32) (harg8 : arg8.IsWhole) (hc0 : starts i) (hc1 : ¬continues i) (hc2 : ¬closes i)
    (x0 : Vec F S1x2048x3 .f32) (x1 : Vec F S1x2048x1 .f32) (x2 : Vec F S1x3x4096 .f32) (x3 : Vec F S1x1x4096 .f32) : Vec F S1x4096 .f32 :=
  viewS.read (Elt F) (viewS.writes (Elt F) viewS.junk (runStart c i arg2 harg2 arg3 harg3 arg4 harg4 arg5 harg5 arg6 harg6 arg7 harg7 arg8 harg8 hc0 hc1 hc2 x0 x1 x2 x3).2.1)

theorem coverClose4 (c : Dev nD) (i : grid0.Coords) (arg2 : Memref sig .tc .vmem S1x2048x3 .f32) (harg2 : arg2.IsWhole) (arg3 : Memref sig .tc .vmem S1x2048x1 .f32) (harg3 : arg3.IsWhole) (arg4 : Memref sig .tc .vmem S1x3x4096 .f32) (harg4 : arg4.IsWhole) (arg5 : Memref sig .tc .vmem S1x1x4096 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x4096 .f32) (harg8 : arg8.IsWhole) (hc0 : ¬starts i) (hc1 : continues i) (hc2 : closes i)
    (x0 : Vec F S1x2048x3 .f32) (x1 : Vec F S1x2048x1 .f32) (x2 : Vec F S1x3x4096 .f32) (x3 : Vec F S1x1x4096 .f32) (xo4 : Vec F S1x1x1 .f32) (xs : Vec F S1x4096 .f32) (y : S1x1x1.Idx) : ∃ pc ∈ (runClose c i arg2 harg2 arg3 harg3 arg4 harg4 arg5 harg5 arg6 harg6 arg7 harg7 arg8 harg8 hc0 hc1 hc2 x0 x1 x2 x3 xo4 xs).1, y ∈ pc.1.set :=
  View.cover_of_tiledL (runClose c i arg2 harg2 arg3 harg3 arg4 harg4 arg5 harg5 arg6 harg6 arg7 harg7 arg8 harg8 hc0 hc1 hc2 x0 x1 x2 x3 xo4 xs).1 S1x1x1.size (by sl_kernel_rfl) y

theorem coverClose5 (c : Dev nD) (i : grid0.Coords) (arg2 : Memref sig .tc .vmem S1x2048x3 .f32) (harg2 : arg2.IsWhole) (arg3 : Memref sig .tc .vmem S1x2048x1 .f32) (harg3 : arg3.IsWhole) (arg4 : Memref sig .tc .vmem S1x3x4096 .f32) (harg4 : arg4.IsWhole) (arg5 : Memref sig .tc .vmem S1x1x4096 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x4096 .f32) (harg8 : arg8.IsWhole) (hc0 : ¬starts i) (hc1 : continues i) (hc2 : closes i)
    (x0 : Vec F S1x2048x3 .f32) (x1 : Vec F S1x2048x1 .f32) (x2 : Vec F S1x3x4096 .f32) (x3 : Vec F S1x1x4096 .f32) (xo4 : Vec F S1x1x1 .f32) (xs : Vec F S1x4096 .f32) (y : S1x1x1.Idx) : ∃ pc ∈ (runClose c i arg2 harg2 arg3 harg3 arg4 harg4 arg5 harg5 arg6 harg6 arg7 harg7 arg8 harg8 hc0 hc1 hc2 x0 x1 x2 x3 xo4 xs).2.1, y ∈ pc.1.set :=
  View.cover_of_tiledL (runClose c i arg2 harg2 arg3 harg3 arg4 harg4 arg5 harg5 arg6 harg6 arg7 harg7 arg8 harg8 hc0 hc1 hc2 x0 x1 x2 x3 xo4 xs).2.1 S1x1x1.size (by sl_kernel_rfl) y

theorem coverCloseS (c : Dev nD) (i : grid0.Coords) (arg2 : Memref sig .tc .vmem S1x2048x3 .f32) (harg2 : arg2.IsWhole) (arg3 : Memref sig .tc .vmem S1x2048x1 .f32) (harg3 : arg3.IsWhole) (arg4 : Memref sig .tc .vmem S1x3x4096 .f32) (harg4 : arg4.IsWhole) (arg5 : Memref sig .tc .vmem S1x1x4096 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x4096 .f32) (harg8 : arg8.IsWhole) (hc0 : ¬starts i) (hc1 : continues i) (hc2 : closes i)
    (x0 : Vec F S1x2048x3 .f32) (x1 : Vec F S1x2048x1 .f32) (x2 : Vec F S1x3x4096 .f32) (x3 : Vec F S1x1x4096 .f32) (xo4 : Vec F S1x1x1 .f32) (xs : Vec F S1x4096 .f32) (y : S1x4096.Idx) : ∃ pc ∈ (runClose c i arg2 harg2 arg3 harg3 arg4 harg4 arg5 harg5 arg6 harg6 arg7 harg7 arg8 harg8 hc0 hc1 hc2 x0 x1 x2 x3 xo4 xs).2.2.1, y ∈ pc.1.set :=
  View.cover_of_tiledL (runClose c i arg2 harg2 arg3 harg3 arg4 harg4 arg5 harg5 arg6 harg6 arg7 harg7 arg8 harg8 hc0 hc1 hc2 x0 x1 x2 x3 xo4 xs).2.2.1 S1x4096.size (by sl_kernel_rfl) y

/-- What a closing point leaves in the first output's buffer, over the running sum `xo4` and minima `xs`. -/
def closeO1 (c : Dev nD) (i : grid0.Coords) (arg2 : Memref sig .tc .vmem S1x2048x3 .f32) (harg2 : arg2.IsWhole) (arg3 : Memref sig .tc .vmem S1x2048x1 .f32) (harg3 : arg3.IsWhole) (arg4 : Memref sig .tc .vmem S1x3x4096 .f32) (harg4 : arg4.IsWhole) (arg5 : Memref sig .tc .vmem S1x1x4096 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x4096 .f32) (harg8 : arg8.IsWhole) (hc0 : ¬starts i) (hc1 : continues i) (hc2 : closes i)
    (x0 : Vec F S1x2048x3 .f32) (x1 : Vec F S1x2048x1 .f32) (x2 : Vec F S1x3x4096 .f32) (x3 : Vec F S1x1x4096 .f32) (xo4 : Vec F S1x1x1 .f32) (xs : Vec F S1x4096 .f32) : Vec F S1x1x1 .f32 :=
  viewO1.read (Elt F) (viewO1.writes (Elt F) viewO1.junk (runClose c i arg2 harg2 arg3 harg3 arg4 harg4 arg5 harg5 arg6 harg6 arg7 harg7 arg8 harg8 hc0 hc1 hc2 x0 x1 x2 x3 xo4 xs).1)

/-- What a closing point leaves in the second output's buffer. -/
def closeO2 (c : Dev nD) (i : grid0.Coords) (arg2 : Memref sig .tc .vmem S1x2048x3 .f32) (harg2 : arg2.IsWhole) (arg3 : Memref sig .tc .vmem S1x2048x1 .f32) (harg3 : arg3.IsWhole) (arg4 : Memref sig .tc .vmem S1x3x4096 .f32) (harg4 : arg4.IsWhole) (arg5 : Memref sig .tc .vmem S1x1x4096 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x4096 .f32) (harg8 : arg8.IsWhole) (hc0 : ¬starts i) (hc1 : continues i) (hc2 : closes i)
    (x0 : Vec F S1x2048x3 .f32) (x1 : Vec F S1x2048x1 .f32) (x2 : Vec F S1x3x4096 .f32) (x3 : Vec F S1x1x4096 .f32) (xo4 : Vec F S1x1x1 .f32) (xs : Vec F S1x4096 .f32) : Vec F S1x1x1 .f32 :=
  viewO2.read (Elt F) (viewO2.writes (Elt F) viewO2.junk (runClose c i arg2 harg2 arg3 harg3 arg4 harg4 arg5 harg5 arg6 harg6 arg7 harg7 arg8 harg8 hc0 hc1 hc2 x0 x1 x2 x3 xo4 xs).2.1)

/-- What a closing point leaves in the scratch. -/
def closeS (c : Dev nD) (i : grid0.Coords) (arg2 : Memref sig .tc .vmem S1x2048x3 .f32) (harg2 : arg2.IsWhole) (arg3 : Memref sig .tc .vmem S1x2048x1 .f32) (harg3 : arg3.IsWhole) (arg4 : Memref sig .tc .vmem S1x3x4096 .f32) (harg4 : arg4.IsWhole) (arg5 : Memref sig .tc .vmem S1x1x4096 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x4096 .f32) (harg8 : arg8.IsWhole) (hc0 : ¬starts i) (hc1 : continues i) (hc2 : closes i)
    (x0 : Vec F S1x2048x3 .f32) (x1 : Vec F S1x2048x1 .f32) (x2 : Vec F S1x3x4096 .f32) (x3 : Vec F S1x1x4096 .f32) (xo4 : Vec F S1x1x1 .f32) (xs : Vec F S1x4096 .f32) : Vec F S1x4096 .f32 :=
  viewS.read (Elt F) (viewS.writes (Elt F) viewS.junk (runClose c i arg2 harg2 arg3 harg3 arg4 harg4 arg5 harg5 arg6 harg6 arg7 harg7 arg8 harg8 hc0 hc1 hc2 x0 x1 x2 x3 xo4 xs).2.2.1)

/-! ## The same at a grid point, on the point's buffers and input blocks -/

def startO1At (c : Dev nD) (t : Fin cfg0.N) (h : t.val % 2 = 0) : Vec F S1x1x1 .f32 :=
  startO1 c (grid0.coords t) (buf0 t) (whole0 t) (buf1 t) (whole1 t) (buf2 t) (whole2 t) (buf3 t) (whole3 t) (buf4 t) (whole4 t) (buf5 t) (whole5 t) scratch (Memref.isWhole_whole _) ((starts_iff t).mpr h) (fun h' => not_one_of_even h ((continues_iff t).mp h')) (fun h' => not_one_of_even h ((closes_iff t).mp h')) (iblk m c 0 t) (iblk m c 1 t) (iblk m c 2 t) (iblk m c 3 t)

def startSAt (c : Dev nD) (t : Fin cfg0.N) (h : t.val % 2 = 0) : Vec F S1x4096 .f32 :=
  startS c (grid0.coords t) (buf0 t) (whole0 t) (buf1 t) (whole1 t) (buf2 t) (whole2 t) (buf3 t) (whole3 t) (buf4 t) (whole4 t) (buf5 t) (whole5 t) scratch (Memref.isWhole_whole _) ((starts_iff t).mpr h) (fun h' => not_one_of_even h ((continues_iff t).mp h')) (fun h' => not_one_of_even h ((closes_iff t).mp h')) (iblk m c 0 t) (iblk m c 1 t) (iblk m c 2 t) (iblk m c 3 t)

def closeO1At (c : Dev nD) (t : Fin cfg0.N) (h : ¬t.val % 2 = 0) (xo4 : Vec F S1x1x1 .f32) (xs : Vec F S1x4096 .f32) : Vec F S1x1x1 .f32 :=
  closeO1 c (grid0.coords t) (buf0 t) (whole0 t) (buf1 t) (whole1 t) (buf2 t) (whole2 t) (buf3 t) (whole3 t) (buf4 t) (whole4 t) (buf5 t) (whole5 t) scratch (Memref.isWhole_whole _) (fun h' => h ((starts_iff t).mp h')) ((continues_iff t).mpr (one_of_not_even h)) ((closes_iff t).mpr (one_of_not_even h)) (iblk m c 0 t) (iblk m c 1 t) (iblk m c 2 t) (iblk m c 3 t) xo4 xs

def closeO2At (c : Dev nD) (t : Fin cfg0.N) (h : ¬t.val % 2 = 0) (xo4 : Vec F S1x1x1 .f32) (xs : Vec F S1x4096 .f32) : Vec F S1x1x1 .f32 :=
  closeO2 c (grid0.coords t) (buf0 t) (whole0 t) (buf1 t) (whole1 t) (buf2 t) (whole2 t) (buf3 t) (whole3 t) (buf4 t) (whole4 t) (buf5 t) (whole5 t) scratch (Memref.isWhole_whole _) (fun h' => h ((starts_iff t).mp h')) ((continues_iff t).mpr (one_of_not_even h)) ((closes_iff t).mpr (one_of_not_even h)) (iblk m c 0 t) (iblk m c 1 t) (iblk m c 2 t) (iblk m c 3 t) xo4 xs

def closeSAt (c : Dev nD) (t : Fin cfg0.N) (h : ¬t.val % 2 = 0) (xo4 : Vec F S1x1x1 .f32) (xs : Vec F S1x4096 .f32) : Vec F S1x4096 .f32 :=
  closeS c (grid0.coords t) (buf0 t) (whole0 t) (buf1 t) (whole1 t) (buf2 t) (whole2 t) (buf3 t) (whole3 t) (buf4 t) (whole4 t) (buf5 t) (whole5 t) scratch (Memref.isWhole_whole _) (fun h' => h ((starts_iff t).mp h')) ((continues_iff t).mpr (one_of_not_even h)) ((closes_iff t).mpr (one_of_not_even h)) (iblk m c 0 t) (iblk m c 1 t) (iblk m c 2 t) (iblk m c 3 t) xo4 xs

/-! ## What the buffers hold after each point -/

/-- After the body at position `n`: the first output's buffer, the second output's buffer, the scratch. At a starting
    point the second output's buffer is not touched and nothing is said of it (a placeholder stands there). -/
def heldAt (c : Dev nD) : (n : ℕ) → n < cfg0.N → Vec F S1x1x1 .f32 × Vec F S1x1x1 .f32 × Vec F S1x4096 .f32
  | 0, hn => (startO1At m c ⟨0, hn⟩ (Nat.zero_mod _), viewO2.read (Elt F) viewO2.junk, startSAt m c ⟨0, hn⟩ (Nat.zero_mod _))
  | n + 1, hn =>
    if h : (n + 1) % 2 = 0 then
      (startO1At m c ⟨n + 1, hn⟩ h, viewO2.read (Elt F) viewO2.junk, startSAt m c ⟨n + 1, hn⟩ h)
    else
      (closeO1At m c ⟨n + 1, hn⟩ h (heldAt c n (Nat.lt_of_succ_lt hn)).1 (heldAt c n (Nat.lt_of_succ_lt hn)).2.2,
       closeO2At m c ⟨n + 1, hn⟩ h (heldAt c n (Nat.lt_of_succ_lt hn)).1 (heldAt c n (Nat.lt_of_succ_lt hn)).2.2,
       closeSAt m c ⟨n + 1, hn⟩ h (heldAt c n (Nat.lt_of_succ_lt hn)).1 (heldAt c n (Nat.lt_of_succ_lt hn)).2.2)

theorem heldAt_start (c : Dev nD) (t : Fin cfg0.N) (h : t.val % 2 = 0) :
    heldAt m c t.val t.isLt = (startO1At m c t h, viewO2.read (Elt F) viewO2.junk, startSAt m c t h) := by
  obtain ⟨n, hn⟩ := t
  cases n with
  | zero => exact rfl
  | succ n => exact (dif_pos h).trans rfl

theorem heldAt_close (c : Dev nD) (t : Fin cfg0.N) (h : ¬t.val % 2 = 0) :
    heldAt m c t.val t.isLt =
      (closeO1At m c t h (heldAt m c (t.val - 1) (Nat.lt_of_le_of_lt (Nat.sub_le _ _) t.isLt)).1 (heldAt m c (t.val - 1) (Nat.lt_of_le_of_lt (Nat.sub_le _ _) t.isLt)).2.2,
       closeO2At m c t h (heldAt m c (t.val - 1) (Nat.lt_of_le_of_lt (Nat.sub_le _ _) t.isLt)).1 (heldAt m c (t.val - 1) (Nat.lt_of_le_of_lt (Nat.sub_le _ _) t.isLt)).2.2,
       closeSAt m c t h (heldAt m c (t.val - 1) (Nat.lt_of_le_of_lt (Nat.sub_le _ _) t.isLt)).1 (heldAt m c (t.val - 1) (Nat.lt_of_le_of_lt (Nat.sub_le _ _) t.isLt)).2.2) := by
  obtain ⟨n, hn⟩ := t
  cases n with
  | zero => exact absurd (Nat.zero_mod _) h
  | succ n => exact (dif_neg h).trans rfl

/-- What the region holds besides its windows before position `n`: at first the scratch at anything; afterwards the
    scratch at what the point before left in it; and the generator register. -/
def restAt (c : Dev nD) : (n : ℕ) → n ≤ cfg0.N → sProp 𝕄
  | 0, _ => Pipeline.ΦA spec0 c
  | n + 1, hn => iprop(iprop(owns (c : Thread nD τ) scratch fullShare ((heldAt m c n hn).2.2)) ∗ (∃ r, prngReg c r))

theorem restAt_zero (c : Dev nD) (n : ℕ) (h : n ≤ cfg0.N) (hz : n = 0) : restAt m c n h = Pipeline.ΦA spec0 c := by
  subst hz; rfl

theorem restAt_succ (c : Dev nD) (n : ℕ) (hn : n < cfg0.N) :
    restAt m c (n + 1) hn = iprop(iprop(owns (c : Thread nD τ) scratch fullShare ((heldAt m c n hn).2.2)) ∗ (∃ r, prngReg c r)) := rfl

theorem restAt_pos (c : Dev nD) (n : ℕ) (h : n ≤ cfg0.N) (hz : n ≠ 0) :
    restAt m c n h = iprop(iprop(owns (c : Thread nD τ) scratch fullShare ((heldAt m c (n - 1) (by omega)).2.2)) ∗ (∃ r, prngReg c r)) := by
  cases n with
  | zero => exact absurd rfl hz
  | succ n => rfl

/-! ## The proof data -/

/-- On core `c`: the arrays as the region finds them; after the body at point `t` each input's buffer at its block,
    the outputs' at `heldAt`; the region's rest as `restAt`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (heldAt m c t.val t.isLt).1
    | ⟨5, _⟩ => (heldAt m c t.val t.isLt).2.1
  Φ t := restAt m c t.val (Nat.le_of_lt_succ t.isLt)
  q _ := fullShare
  owed _ := 0

theorem A_eq (c : Dev nD) (w : Fin cfg0.W) : (dats m 0 c).A w = V m c (Pipeline.arrRef spec0 w) := by
  dsimp only [dats]

theorem rest_castSucc (c : Dev nD) (t : Fin cfg0.N) :
    (dats m 0 c).Φ t.castSucc = restAt m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = (heldAt m c t.val t.isLt).1 := by dsimp only [dats]
theorem after_5 (c : Dev nD) (t : Fin cfg0.N) : (dats m 0 c).after 5 t = (heldAt m c t.val t.isLt).2.1 := by dsimp only [dats]

/-- Each input's current buffer holds its block at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-- The first output is stored into whatever the coordinates: one of "i = 0", "i > 0" holds of every i. -/
theorem live4_all : ∀ i : grid0.Coords, cfg0.idle 4 i = false := by decide +kernel

/-- At a closing point the first output's current buffer holds what the starting point before it left: the point is
    not the first, the buffer was not written back in between, and the starting point stored into it. -/
theorem before_4_close (c : Dev nD) (t : Fin cfg0.N) (h : ¬t.val % 2 = 0) (d) :
    (dats m 0 c).before 4 t d = (heldAt m c (t.val - 1) (Nat.lt_of_le_of_lt (Nat.sub_le _ _) t.isLt)).1 := by
  have hN : t.val < 8 := lt_of_lt_of_eq t.isLt (show cfg0.N = 8 from N_0)
  rw [Dat.before_out_kept _ 4 rfl t (by omega) (Bool.eq_false_iff.mpr fun h' => by have := (flush0_4 _).mp h'; dsimp only at this; omega)
    live4_all (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (buf0 t) fullShare ((dats m 0 c).before 0 t d))
    ∗ (∃ d, owns (c : Thread nD τ) (buf1 t) fullShare ((dats m 0 c).before 1 t d))
    ∗ (∃ d, owns (c : Thread nD τ) (buf2 t) fullShare ((dats m 0 c).before 2 t d))
    ∗ (∃ d, owns (c : Thread nD τ) (buf3 t) fullShare ((dats m 0 c).before 3 t d))
    ∗ (∃ d, owns (c : Thread nD τ) (buf4 t) fullShare ((dats m 0 c).before 4 t d))
    ∗ (∃ d, owns (c : Thread nD τ) (buf5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 3200000 in
/-- The body at any point. The inputs' buffers hold their blocks; the parity of the position says which kind of
    point it is. At a starting point the scratch and the first output's buffer are stored into whatever they held,
    and the second output's buffer is handed back as found. At a closing point the first output's buffer holds
    what the starting point left, and so does the scratch. Either way the scratch goes back into the region's
    rest at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl]
  rw [show (dats m 0 c).Φ t.succ = restAt m c (t.val + 1) t.isLt from rfl, restAt_succ]
  have hN : t.val < 8 := lt_of_lt_of_eq t.isLt (show cfg0.N = 8 from N_0)
  rw [show (dats m 0 c).leavesExact 0 t = owns (c : Thread nD τ) (buf0 t) fullShare ((dats m 0 c).after 0 t) from by
    unfold Dat.leavesExact; rw [live0 t], after_0]
  rw [show (dats m 0 c).leavesExact 1 t = owns (c : Thread nD τ) (buf1 t) fullShare ((dats m 0 c).after 1 t) from by
    unfold Dat.leavesExact; rw [live1 t], after_1]
  rw [show (dats m 0 c).leavesExact 2 t = owns (c : Thread nD τ) (buf2 t) fullShare ((dats m 0 c).after 2 t) from by
    unfold Dat.leavesExact; rw [live2 t], after_2]
  rw [show (dats m 0 c).leavesExact 3 t = owns (c : Thread nD τ) (buf3 t) fullShare ((dats m 0 c).after 3 t) from by
    unfold Dat.leavesExact; rw [live3 t], after_3]
  rw [show (dats m 0 c).leavesExact 4 t = owns (c : Thread nD τ) (buf4 t) fullShare ((dats m 0 c).after 4 t) from by
    unfold Dat.leavesExact; rw [live4 t], after_4]
  by_cases h0 : t.val % 2 = 0
  · rw [(dats m 0 c).leavesExact_idle 5 t ((idle5_iff t).mpr h0)
      (Bool.eq_false_iff.mpr fun h' => by have := (flush0_5 t).mp h'; omega)]
    rw [heldAt_start m c t h0]
    dsimp only
    unfold startO1At startSAt startO1 startS
    by_cases hz : t.val = 0
    · rw [rest_castSucc m c t, restAt_zero m c _ _ hz, rest_eq]
      iintro ⟨⟨HS, Hg⟩, Ho, ⟨%d0, H0⟩, ⟨%d1, H1⟩, ⟨%d2, H2⟩, ⟨%d3, H3⟩, ⟨%d4, H4⟩, ⟨%d5, H5⟩⟩
      iapply ((runStart c (grid0.coords t) _ _ _ _ _ _ _ _ _ _ _ _ _ _ ((starts_iff t).mpr h0) (fun h' => not_one_of_even h0 ((continues_iff t).mp h')) (fun h' => not_one_of_even h0 ((closes_iff t).mp h')) (iblk m c 0 t) (iblk m c 1 t) (iblk m c 2 t) (iblk m c 3 t)).2.2 _ Set.univ _)
      isplitl [H0]; · iexact H0
      isplitl [H1]; · iexact H1
      isplitl [H2]; · iexact H2
      isplitl [H3]; · iexact H3
      isplitl [H4]; · iexists _; iexact H4
      isplitl [H5]; · iexact H5
      isplitl [HS]; · iexact HS
      iintro ⟨H0, H1, H2, H3, ⟨%e4, H4⟩, H5, ⟨%es, HS⟩⟩
      isplitl [HS Hg]
      · isplitl [HS]
        · unfold owns; iexists _; isplitr
          swap; · iexact HS
          ipureintro; exact View.read_writes_of_cover _ _ _ _ _ (coverStartS c _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (coverStart4 c _ _ _ _ _ _ _ _ _ _ _ _ _ _ _ _ _ _ _ _ _ _)
      iexists _; iexact H5
    · rw [rest_castSucc m c t, restAt_pos m c _ _ hz]
      iintro ⟨⟨HS, Hg⟩, Ho, ⟨%d0, H0⟩, ⟨%d1, H1⟩, ⟨%d2, H2⟩, ⟨%d3, H3⟩, ⟨%d4, H4⟩, ⟨%d5, H5⟩⟩
      iapply ((runStart c (grid0.coords t) _ _ _ _ _ _ _ _ _ _ _ _ _ _ ((starts_iff t).mpr h0) (fun h' => not_one_of_even h0 ((continues_iff t).mp h')) (fun h' => not_one_of_even h0 ((closes_iff t).mp h')) (iblk m c 0 t) (iblk m c 1 t) (iblk m c 2 t) (iblk m c 3 t)).2.2 _ Set.univ _)
      isplitl [H0]; · iexact H0
      isplitl [H1]; · iexact H1
      isplitl [H2]; · iexact H2
      isplitl [H3]; · iexact H3
      isplitl [H4]; · iexists _; iexact H4
      isplitl [H5]; · iexact H5
      isplitl [HS]; · iexists _; iexact HS
      iintro ⟨H0, H1, H2, H3, ⟨%e4, H4⟩, H5, ⟨%es, HS⟩⟩
      isplitl [HS Hg]
      · isplitl [HS]
        · unfold owns; iexists _; isplitr
          swap; · iexact HS
          ipureintro; exact View.read_writes_of_cover _ _ _ _ _ (coverStartS c _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (coverStart4 c _ _ _ _ _ _ _ _ _ _ _ _ _ _ _ _ _ _ _ _ _ _)
      iexists _; iexact H5
  · rw [show (dats m 0 c).leavesExact 5 t = owns (c : Thread nD τ) (buf5 t) fullShare ((dats m 0 c).after 5 t) from by
      unfold Dat.leavesExact; rw [Bool.eq_false_iff.mpr fun hi => h0 ((idle5_iff t).mp hi)], after_5]
    rw [heldAt_close m c t h0]
    dsimp only
    simp only [before_4_close m c t h0]
    have hz : t.val ≠ 0 := by omega
    rw [rest_castSucc m c t, restAt_pos m c _ _ hz]
    unfold closeO1At closeO2At closeSAt closeO1 closeO2 closeS
    iintro ⟨⟨HS, Hg⟩, Ho, ⟨%d0, H0⟩, ⟨%d1, H1⟩, ⟨%d2, H2⟩, ⟨%d3, H3⟩, ⟨%d4, H4⟩, ⟨%d5, H5⟩⟩
    iapply ((runClose c (grid0.coords t) _ _ _ _ _ _ _ _ _ _ _ _ _ _ (fun h' => h0 ((starts_iff t).mp h')) ((continues_iff t).mpr (one_of_not_even h0)) ((closes_iff t).mpr (one_of_not_even h0)) (iblk m c 0 t) (iblk m c 1 t) (iblk m c 2 t) (iblk m c 3 t) _ _).2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, ⟨%e4, H4⟩, ⟨%e5, H5⟩, ⟨%es, HS⟩⟩
    isplitl [HS Hg]
    · isplitl [HS]
      · unfold owns; iexists _; isplitr
        swap; · iexact HS
        ipureintro; exact View.read_writes_of_cover _ _ _ _ _ (coverCloseS c _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (coverClose4 c _ _ _ _ _ _ _ _ _ _ _ _ _ _ _ _ _ _ _ _ _ _ _ _)
    unfold owns; iexists _; isplitr
    swap; · iexact H5
    ipureintro; exact View.read_writes_of_cover _ _ _ _ _ (coverClose5 c _ _ _ _ _ _ _ _ _ _ _ _ _ _ _ _ _ _ _ _ _ _ _ _)

/-- The body obligation of the pipeline, at every point. -/
theorem body_obligation (c : Dev nD) : BodyObligation (dats (F := F) m 0 c) (defs₀ (F := F)) Variants.none () Set.univ := fun t => by
  rw [bigSep_W0, bigSep_W0]
  exact sound_body m c t

/-- What the launch hands the region is its rest before the first point. -/
theorem hin (c : Dev nD) : Pipeline.ΦA spec0 c ⊢ (dats m 0 c).Φ 0 := by
  rw [show (dats m 0 c).Φ 0 = restAt m c 0 (Nat.zero_le _) from rfl, restAt_zero m c 0 _ rfl]
  try exact Idealize.SL.BI.Entails.refl _

/-- After any point but the first the rest gives the scratch back at some contents. -/
theorem rest_out (c : Dev nD) (t : Fin (cfg0.N + 1)) (ht : t.val ≠ 0) : (dats m 0 c).Φ t ⊢ Pipeline.ΦA spec0 c := by
  rw [show (dats m 0 c).Φ t = restAt m c t.val (Nat.le_of_lt_succ t.isLt) from rfl, restAt_pos m c _ _ ht, rest_eq]
  iintro ⟨HS, Hg⟩
  isplitl [HS]
  · iexists _; iexact HS
  iexact Hg

theorem hout (c : Dev nD) : (dats m 0 c).Φ (Fin.last cfg0.N) ⊢ Pipeline.ΦA spec0 c :=
  rest_out m c _ (by rw [Fin.val_last]; have : cfg0.N = 8 := N_0; omega)

/-! ## The run and the frame -/

set_option backward.isDefEq.respectTransparency.types false in
/-- From any memory with zero counters every weakly fair execution of @main terminates, and every final state has
    each array of the pipeline at what the write-backs of the proof data compute and every other unscoped buffer at
    what the host lines after the region compute from those. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Body

end
-- ==== Proof.BodyIdeal.Shared.lean ====
/-
  What the two runs of the Chamfer block kernel share.

  The grid is 4 × 2: point t = 2·b + i handles batch entry b and the i-th half (2048 points) of the first cloud.
  The body has three conditionals on i alone: "i = 0" (start the batch entry: store the half's sum of row
  minima into the first output's buffer and the half's column minima into the scratch), "i > 0" (add to the
  first output's buffer, take the minimum into the scratch) and "i = 1" (close the batch entry: store the sum
  over the columns of scratch + |y|² into the second output's buffer). So the points fall into two kinds:
  even t (i = 0) and odd t (i = 1).
-/
import proofs.«120560_g4922032521243_cont_8to1_c_580_11_alg».proof.Proof.Gen.KernelIdeal.Frame
import proofs.«120560_g4922032521243_cont_8to1_c_580_11_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three conditions, decided over the grid -/

/-- "i = 0": the point starts its batch entry. -/
abbrev starts (i : grid0.Coords) : Prop := k0_cond1 i = 1#1
theorem starts_iff : ∀ t : Fin cfg0.N, starts (grid0.coords t) ↔ t.val % 2 = 0 :=
  (by decide +kernel : ∀ t : Fin grid0.N, starts (grid0.coords t) ↔ t.val % 2 = 0)

/-- "i > 0": the point continues its batch entry. -/
abbrev continues (i : grid0.Coords) : Prop := k0_cond2 i = 1#1
theorem continues_iff : ∀ t : Fin cfg0.N, continues (grid0.coords t) ↔ t.val % 2 = 1 :=
  (by decide +kernel : ∀ t : Fin grid0.N, continues (grid0.coords t) ↔ t.val % 2 = 1)

/-- "i = 1": the point closes its batch entry. -/
abbrev closes (i : grid0.Coords) : Prop := k0_cond3 i = 1#1
theorem closes_iff : ∀ t : Fin cfg0.N, closes (grid0.coords t) ↔ t.val % 2 = 1 :=
  (by decide +kernel : ∀ t : Fin grid0.N, closes (grid0.coords t) ↔ t.val % 2 = 1)

/-! ## Where the body stores into a window -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
/-- The first output is stored into at every point: one of "i = 0", "i > 0" holds. -/
theorem live4 : ∀ t : Fin cfg0.N, cfg0.idle 4 (grid0.coords t) = false := by decide +kernel
/-- The second output is stored into exactly at the closing points. -/
theorem idle5_iff : ∀ t : Fin cfg0.N, cfg0.idle 5 (grid0.coords t) = true ↔ t.val % 2 = 0 :=
  (by decide +kernel : ∀ t : Fin grid0.N, cfg0.idle 5 (grid0.coords t) = true ↔ t.val % 2 = 0)

/-! ## The staging buffers at a point, and the scratch -/

abbrev buf0 (t : Fin cfg0.N) : Memref sig .tc .vmem S1x2048x3 .f32 := win0_0.stage (cfg0.slots t 0)
abbrev whole0 (t : Fin cfg0.N) : (buf0 t).IsWhole := hstage0_0 ((cfg0.slots t 0).cast nbuf0_0)
abbrev buf1 (t : Fin cfg0.N) : Memref sig .tc .vmem S1x2048x1 .f32 := win0_1.stage (cfg0.slots t 1)
abbrev whole1 (t : Fin cfg0.N) : (buf1 t).IsWhole := hstage0_1 ((cfg0.slots t 1).cast nbuf0_1)
abbrev buf2 (t : Fin cfg0.N) : Memref sig .tc .vmem S1x3x4096 .f32 := win0_2.stage (cfg0.slots t 2)
abbrev whole2 (t : Fin cfg0.N) : (buf2 t).IsWhole := hstage0_2 ((cfg0.slots t 2).cast nbuf0_2)
abbrev buf3 (t : Fin cfg0.N) : Memref sig .tc .vmem S1x1x4096 .f32 := win0_3.stage (cfg0.slots t 3)
abbrev whole3 (t : Fin cfg0.N) : (buf3 t).IsWhole := hstage0_3 ((cfg0.slots t 3).cast nbuf0_3)
abbrev buf4 (t : Fin cfg0.N) : Memref sig .tc .vmem S1x1x1 .f32 := win0_4.stage (cfg0.slots t 4)
abbrev whole4 (t : Fin cfg0.N) : (buf4 t).IsWhole := hstage0_4 ((cfg0.slots t 4).cast nbuf0_4)
abbrev buf5 (t : Fin cfg0.N) : Memref sig .tc .vmem S1x1x1 .f32 := win0_5.stage (cfg0.slots t 5)
abbrev whole5 (t : Fin cfg0.N) : (buf5 t).IsWhole := hstage0_5 ((cfg0.slots t 5).cast nbuf0_5)
/-- The scratch row of running column minima: a whole buffer of the kernel's own. -/
abbrev scratch : Memref sig .tc .vmem S1x4096 .f32 := Memref.whole cc0_scratch0

/-- Views through which the contents of the outputs' buffers and of the scratch are stated. -/
abbrev viewO1 : View sig .tc .vmem S1x1x1 .f32 := (Memref.whole cc0_stg4_0 : Memref sig .tc .vmem S1x1x1 .f32).view
abbrev viewO2 : View sig .tc .vmem S1x1x1 .f32 := (Memref.whole cc0_stg5_0 : Memref sig .tc .vmem S1x1x1 .f32).view
abbrev viewS : View sig .tc .vmem S1x4096 .f32 := scratch.view

/-- What the region may use besides its windows: the scratch at some contents and the generator register. -/
theorem rest_eq (c : Dev nD) :
    (Pipeline.ΦA spec0 c : sProp 𝕄)
      = iprop(iprop((∃ d, owns (c : Thread nD τ) scratch fullShare d)) ∗ (∃ r, prngReg c r)) := by
  unfold Pipeline.ΦA; rw [scopedRest0_eq]; simp only [scratch, owns_whole]; try rfl

end Cert.KernelIdeal.Body

end
-- ==== Proof.BodyIdeal.RunStart.lean ====
/-
  The body at a point that STARTS a batch entry (i = 0), run once on any whole staging buffers.
  It reads the four input blocks, stores the half's sum of row minima into the first output's buffer and the
  half's column minima into the scratch, and leaves the second output's buffer as it found it.
-/
import proofs.«120560_g4922032521243_cont_8to1_c_580_11_alg».proof.Proof.BodyIdeal.Shared

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the first output's buffer and in the scratch at a starting point,
    with the proof that the body runs: from the input buffers at their contents, the first output's buffer and
    the scratch at anything, the second output's buffer at any contents `xi5`, to the continuation holding the
    inputs as they were, the pieces written, and the second output's buffer still at `xi5`. The pieces are the
    witness the symbolic run finds. -/
noncomputable def runStart (c : Dev nD) (i : grid0.Coords) (arg2 : Memref sig .tc .vmem S1x2048x3 .f32) (harg2 : arg2.IsWhole) (arg3 : Memref sig .tc .vmem S1x2048x1 .f32) (harg3 : arg3.IsWhole) (arg4 : Memref sig .tc .vmem S1x3x4096 .f32) (harg4 : arg4.IsWhole) (arg5 : Memref sig .tc .vmem S1x1x4096 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x4096 .f32) (harg8 : arg8.IsWhole) (hc0 : starts i) (hc1 : ¬continues i) (hc2 : ¬closes i)
    (x0 : Vec F S1x2048x3 .f32) (x1 : Vec F S1x2048x1 .f32) (x2 : Vec F S1x3x4096 .f32) (x3 : Vec F S1x1x4096 .f32) :
    Σ' (L4 : List (View.Piece (Elt F) S1x1x1 .f32)), { LS : List (View.Piece (Elt F) S1x4096 .f32) //
      ∀ (xi5 : Vec F S1x1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xi5 ∗ (∃ f, arg8.view.loc (c : Thread nD τ) ↦[arg8.view.set]{fullShare} arg8.view.writes (Elt F) f LS)) -∗ K ⟨⟩))
          ⊢ wp frame (wpE (defs₀ (F := F)) Variants.none c none) E (cc0__chamfer_block_kernel i arg2 harg2 arg3 harg3 arg4 harg4 arg5 harg5 arg6 harg6 arg7 harg7 arg8 harg8) K } := by
  refine ⟨?_, ?_, fun xi5 E K => ?run⟩
  case run =>
    simp only [cc0__chamfer_block_kernel_eq_skeleton]; unfold cc0__chamfer_block_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%ds, %fs, -, HS⟩, Hk⟩
    obtain rfl := harg2.eq_unread hf0; obtain rfl := harg3.eq_unread hf1; obtain rfl := harg4.eq_unread hf2; obtain rfl := harg5.eq_unread hf3
    obtain rfl := harg7.eq_unread hf5
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    isplitl [H5]
    · iexists _; isplitr; · ipureintro; exact harg7.read_unread _
      iexact H5
    iexists _; iexact HS

end Cert.KernelIdeal.Body

end
-- ==== Proof.BodyIdeal.RunClose.lean ====
/-
  The body at a point that CONTINUES and CLOSES a batch entry (i = 1), run once on any whole staging buffers.
  It reads the four input blocks, the first output's buffer (the running sum) and the scratch (the running
  column minima); it stores the updated sum, the updated minima, and into the second output's buffer the sum
  over the columns of (minimum + |y|²).
-/
import proofs.«120560_g4922032521243_cont_8to1_c_580_11_alg».proof.Proof.BodyIdeal.RunStart

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the two outputs' buffers and in the scratch at a closing point, with
    the proof that the body runs: from the input buffers at their contents, the first output's buffer at the
    running sum `xo4`, the scratch at the running minima `xs`, the second output's buffer at anything, to the
    continuation holding the inputs as they were and the pieces written. -/
noncomputable def runClose (c : Dev nD) (i : grid0.Coords) (arg2 : Memref sig .tc .vmem S1x2048x3 .f32) (harg2 : arg2.IsWhole) (arg3 : Memref sig .tc .vmem S1x2048x1 .f32) (harg3 : arg3.IsWhole) (arg4 : Memref sig .tc .vmem S1x3x4096 .f32) (harg4 : arg4.IsWhole) (arg5 : Memref sig .tc .vmem S1x1x4096 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x4096 .f32) (harg8 : arg8.IsWhole) (hc0 : ¬starts i) (hc1 : continues i) (hc2 : closes i)
    (x0 : Vec F S1x2048x3 .f32) (x1 : Vec F S1x2048x1 .f32) (x2 : Vec F S1x3x4096 .f32) (x3 : Vec F S1x1x4096 .f32) (xo4 : Vec F S1x1x1 .f32) (xs : Vec F S1x4096 .f32) :
    Σ' (L4 : List (View.Piece (Elt F) S1x1x1 .f32)) (L5 : List (View.Piece (Elt F) S1x1x1 .f32)), { LS : List (View.Piece (Elt F) S1x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo4 ∗ (∃ d, owns (c : Thread nD τ) arg7 fullShare d) ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS)) -∗ K ⟨⟩))
          ⊢ wp frame (wpE (defs₀ (F := F)) Variants.none c none) E (cc0__chamfer_block_kernel i arg2 harg2 arg3 harg3 arg4 harg4 arg5 harg5 arg6 harg6 arg7 harg7 arg8 harg8) K } := by
  refine ⟨?_, ?_, ?_, fun E K => ?run⟩
  case run =>
    simp only [cc0__chamfer_block_kernel_eq_skeleton]; unfold cc0__chamfer_block_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg2.eq_unread hf0; obtain rfl := harg3.eq_unread hf1; obtain rfl := harg4.eq_unread hf2; obtain rfl := harg5.eq_unread hf3
    obtain rfl := harg6.eq_unread hf4; obtain rfl := harg8.eq_unread hfs
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    isplitl [H5]
    · iexists _; iexact H5
    iexists _; iexact HS

end Cert.KernelIdeal.Body

end
-- ==== Proof.BodyIdeal.Frame.lean ====
/-
  The frame of the Chamfer block kernel's program, with the outputs' contents named.

  Per kind of point the body's stores cover the buffers they touch, so what a buffer holds afterwards is the
  stored pieces read back. Point by point (t = 2·b + i): after a starting point the first output's buffer holds
  that half's sum of row minima and the scratch that half's column minima; after a closing point the first
  output's buffer holds the sum of what the starting point left and the second half's sum, the scratch the
  minimum of the two halves' column minima, and the second output's buffer the sum over the columns of
  (minimum + |y|²). The first output's buffer is not written back between the two points of a batch entry, so the
  closing point finds what the starting point left.
-/
import proofs.«120560_g4922032521243_cont_8to1_c_580_11_alg».proof.Proof.BodyIdeal.RunClose

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- An even position is not an odd one. -/
theorem not_one_of_even {n : ℕ} (h : n % 2 = 0) (h' : n % 2 = 1) : False := by omega
theorem one_of_not_even {n : ℕ} (h : ¬ n % 2 = 0) : n % 2 = 1 := by omega

/-! ## The stores cover the buffers -/

theorem coverStart4 (c : Dev nD) (i : grid0.Coords) (arg2 : Memref sig .tc .vmem S1x2048x3 .f32) (harg2 : arg2.IsWhole) (arg3 : Memref sig .tc .vmem S1x2048x1 .f32) (harg3 : arg3.IsWhole) (arg4 : Memref sig .tc .vmem S1x3x4096 .f32) (harg4 : arg4.IsWhole) (arg5 : Memref sig .tc .vmem S1x1x4096 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x4096 .f32) (harg8 : arg8.IsWhole) (hc0 : starts i) (hc1 : ¬continues i) (hc2 : ¬closes i)
    (x0 : Vec F S1x2048x3 .f32) (x1 : Vec F S1x2048x1 .f32) (x2 : Vec F S1x3x4096 .f32) (x3 : Vec F S1x1x4096 .f32) (y : S1x1x1.Idx) : ∃ pc ∈ (runStart c i arg2 harg2 arg3 harg3 arg4 harg4 arg5 harg5 arg6 harg6 arg7 harg7 arg8 harg8 hc0 hc1 hc2 x0 x1 x2 x3).1, y ∈ pc.1.set :=
  View.cover_of_tiledL (runStart c i arg2 harg2 arg3 harg3 arg4 harg4 arg5 harg5 arg6 harg6 arg7 harg7 arg8 harg8 hc0 hc1 hc2 x0 x1 x2 x3).1 S1x1x1.size (by sl_kernel_rfl) y

theorem coverStartS (c : Dev nD) (i : grid0.Coords) (arg2 : Memref sig .tc .vmem S1x2048x3 .f32) (harg2 : arg2.IsWhole) (arg3 : Memref sig .tc .vmem S1x2048x1 .f32) (harg3 : arg3.IsWhole) (arg4 : Memref sig .tc .vmem S1x3x4096 .f32) (harg4 : arg4.IsWhole) (arg5 : Memref sig .tc .vmem S1x1x4096 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x4096 .f32) (harg8 : arg8.IsWhole) (hc0 : starts i) (hc1 : ¬continues i) (hc2 : ¬closes i)
    (x0 : Vec F S1x2048x3 .f32) (x1 : Vec F S1x2048x1 .f32) (x2 : Vec F S1x3x4096 .f32) (x3 : Vec F S1x1x4096 .f32) (y : S1x4096.Idx) : ∃ pc ∈ (runStart c i arg2 harg2 arg3 harg3 arg4 harg4 arg5 harg5 arg6 harg6 arg7 harg7 arg8 harg8 hc0 hc1 hc2 x0 x1 x2 x3).2.1, y ∈ pc.1.set :=
  View.cover_of_tiledL (runStart c i arg2 harg2 arg3 harg3 arg4 harg4 arg5 harg5 arg6 harg6 arg7 harg7 arg8 harg8 hc0 hc1 hc2 x0 x1 x2 x3).2.1 S1x4096.size (by sl_kernel_rfl) y

/-- What a starting point leaves in the first output's buffer. -/
def startO1 (c : Dev nD) (i : grid0.Coords) (arg2 : Memref sig .tc .vmem S1x2048x3 .f32) (harg2 : arg2.IsWhole) (arg3 : Memref sig .tc .vmem S1x2048x1 .f32) (harg3 : arg3.IsWhole) (arg4 : Memref sig .tc .vmem S1x3x4096 .f32) (harg4 : arg4.IsWhole) (arg5 : Memref sig .tc .vmem S1x1x4096 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x4096 .f32) (harg8 : arg8.IsWhole) (hc0 : starts i) (hc1 : ¬continues i) (hc2 : ¬closes i)
    (x0 : Vec F S1x2048x3 .f32) (x1 : Vec F S1x2048x1 .f32) (x2 : Vec F S1x3x4096 .f32) (x3 : Vec F S1x1x4096 .f32) : Vec F S1x1x1 .f32 :=
  viewO1.read (Elt F) (viewO1.writes (Elt F) viewO1.junk (runStart c i arg2 harg2 arg3 harg3 arg4 harg4 arg5 harg5 arg6 harg6 arg7 harg7 arg8 harg8 hc0 hc1 hc2 x0 x1 x2 x3).1)

/-- What a starting point leaves in the scratch. -/
def startS (c : Dev nD) (i : grid0.Coords) (arg2 : Memref sig .tc .vmem S1x2048x3 .f32) (harg2 : arg2.IsWhole) (arg3 : Memref sig .tc .vmem S1x2048x1 .f32) (harg3 : arg3.IsWhole) (arg4 : Memref sig .tc .vmem S1x3x4096 .f32) (harg4 : arg4.IsWhole) (arg5 : Memref sig .tc .vmem S1x1x4096 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x4096 .f32) (harg8 : arg8.IsWhole) (hc0 : starts i) (hc1 : ¬continues i) (hc2 : ¬closes i)
    (x0 : Vec F S1x2048x3 .f32) (x1 : Vec F S1x2048x1 .f32) (x2 : Vec F S1x3x4096 .f32) (x3 : Vec F S1x1x4096 .f32) : Vec F S1x4096 .f32 :=
  viewS.read (Elt F) (viewS.writes (Elt F) viewS.junk (runStart c i arg2 harg2 arg3 harg3 arg4 harg4 arg5 harg5 arg6 harg6 arg7 harg7 arg8 harg8 hc0 hc1 hc2 x0 x1 x2 x3).2.1)

theorem coverClose4 (c : Dev nD) (i : grid0.Coords) (arg2 : Memref sig .tc .vmem S1x2048x3 .f32) (harg2 : arg2.IsWhole) (arg3 : Memref sig .tc .vmem S1x2048x1 .f32) (harg3 : arg3.IsWhole) (arg4 : Memref sig .tc .vmem S1x3x4096 .f32) (harg4 : arg4.IsWhole) (arg5 : Memref sig .tc .vmem S1x1x4096 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x4096 .f32) (harg8 : arg8.IsWhole) (hc0 : ¬starts i) (hc1 : continues i) (hc2 : closes i)
    (x0 : Vec F S1x2048x3 .f32) (x1 : Vec F S1x2048x1 .f32) (x2 : Vec F S1x3x4096 .f32) (x3 : Vec F S1x1x4096 .f32) (xo4 : Vec F S1x1x1 .f32) (xs : Vec F S1x4096 .f32) (y : S1x1x1.Idx) : ∃ pc ∈ (runClose c i arg2 harg2 arg3 harg3 arg4 harg4 arg5 harg5 arg6 harg6 arg7 harg7 arg8 harg8 hc0 hc1 hc2 x0 x1 x2 x3 xo4 xs).1, y ∈ pc.1.set :=
  View.cover_of_tiledL (runClose c i arg2 harg2 arg3 harg3 arg4 harg4 arg5 harg5 arg6 harg6 arg7 harg7 arg8 harg8 hc0 hc1 hc2 x0 x1 x2 x3 xo4 xs).1 S1x1x1.size (by sl_kernel_rfl) y

theorem coverClose5 (c : Dev nD) (i : grid0.Coords) (arg2 : Memref sig .tc .vmem S1x2048x3 .f32) (harg2 : arg2.IsWhole) (arg3 : Memref sig .tc .vmem S1x2048x1 .f32) (harg3 : arg3.IsWhole) (arg4 : Memref sig .tc .vmem S1x3x4096 .f32) (harg4 : arg4.IsWhole) (arg5 : Memref sig .tc .vmem S1x1x4096 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x4096 .f32) (harg8 : arg8.IsWhole) (hc0 : ¬starts i) (hc1 : continues i) (hc2 : closes i)
    (x0 : Vec F S1x2048x3 .f32) (x1 : Vec F S1x2048x1 .f32) (x2 : Vec F S1x3x4096 .f32) (x3 : Vec F S1x1x4096 .f32) (xo4 : Vec F S1x1x1 .f32) (xs : Vec F S1x4096 .f32) (y : S1x1x1.Idx) : ∃ pc ∈ (runClose c i arg2 harg2 arg3 harg3 arg4 harg4 arg5 harg5 arg6 harg6 arg7 harg7 arg8 harg8 hc0 hc1 hc2 x0 x1 x2 x3 xo4 xs).2.1, y ∈ pc.1.set :=
  View.cover_of_tiledL (runClose c i arg2 harg2 arg3 harg3 arg4 harg4 arg5 harg5 arg6 harg6 arg7 harg7 arg8 harg8 hc0 hc1 hc2 x0 x1 x2 x3 xo4 xs).2.1 S1x1x1.size (by sl_kernel_rfl) y

theorem coverCloseS (c : Dev nD) (i : grid0.Coords) (arg2 : Memref sig .tc .vmem S1x2048x3 .f32) (harg2 : arg2.IsWhole) (arg3 : Memref sig .tc .vmem S1x2048x1 .f32) (harg3 : arg3.IsWhole) (arg4 : Memref sig .tc .vmem S1x3x4096 .f32) (harg4 : arg4.IsWhole) (arg5 : Memref sig .tc .vmem S1x1x4096 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x4096 .f32) (harg8 : arg8.IsWhole) (hc0 : ¬starts i) (hc1 : continues i) (hc2 : closes i)
    (x0 : Vec F S1x2048x3 .f32) (x1 : Vec F S1x2048x1 .f32) (x2 : Vec F S1x3x4096 .f32) (x3 : Vec F S1x1x4096 .f32) (xo4 : Vec F S1x1x1 .f32) (xs : Vec F S1x4096 .f32) (y : S1x4096.Idx) : ∃ pc ∈ (runClose c i arg2 harg2 arg3 harg3 arg4 harg4 arg5 harg5 arg6 harg6 arg7 harg7 arg8 harg8 hc0 hc1 hc2 x0 x1 x2 x3 xo4 xs).2.2.1, y ∈ pc.1.set :=
  View.cover_of_tiledL (runClose c i arg2 harg2 arg3 harg3 arg4 harg4 arg5 harg5 arg6 harg6 arg7 harg7 arg8 harg8 hc0 hc1 hc2 x0 x1 x2 x3 xo4 xs).2.2.1 S1x4096.size (by sl_kernel_rfl) y

/-- What a closing point leaves in the first output's buffer, over the running sum `xo4` and minima `xs`. -/
def closeO1 (c : Dev nD) (i : grid0.Coords) (arg2 : Memref sig .tc .vmem S1x2048x3 .f32) (harg2 : arg2.IsWhole) (arg3 : Memref sig .tc .vmem S1x2048x1 .f32) (harg3 : arg3.IsWhole) (arg4 : Memref sig .tc .vmem S1x3x4096 .f32) (harg4 : arg4.IsWhole) (arg5 : Memref sig .tc .vmem S1x1x4096 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x4096 .f32) (harg8 : arg8.IsWhole) (hc0 : ¬starts i) (hc1 : continues i) (hc2 : closes i)
    (x0 : Vec F S1x2048x3 .f32) (x1 : Vec F S1x2048x1 .f32) (x2 : Vec F S1x3x4096 .f32) (x3 : Vec F S1x1x4096 .f32) (xo4 : Vec F S1x1x1 .f32) (xs : Vec F S1x4096 .f32) : Vec F S1x1x1 .f32 :=
  viewO1.read (Elt F) (viewO1.writes (Elt F) viewO1.junk (runClose c i arg2 harg2 arg3 harg3 arg4 harg4 arg5 harg5 arg6 harg6 arg7 harg7 arg8 harg8 hc0 hc1 hc2 x0 x1 x2 x3 xo4 xs).1)

/-- What a closing point leaves in the second output's buffer. -/
def closeO2 (c : Dev nD) (i : grid0.Coords) (arg2 : Memref sig .tc .vmem S1x2048x3 .f32) (harg2 : arg2.IsWhole) (arg3 : Memref sig .tc .vmem S1x2048x1 .f32) (harg3 : arg3.IsWhole) (arg4 : Memref sig .tc .vmem S1x3x4096 .f32) (harg4 : arg4.IsWhole) (arg5 : Memref sig .tc .vmem S1x1x4096 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x4096 .f32) (harg8 : arg8.IsWhole) (hc0 : ¬starts i) (hc1 : continues i) (hc2 : closes i)
    (x0 : Vec F S1x2048x3 .f32) (x1 : Vec F S1x2048x1 .f32) (x2 : Vec F S1x3x4096 .f32) (x3 : Vec F S1x1x4096 .f32) (xo4 : Vec F S1x1x1 .f32) (xs : Vec F S1x4096 .f32) : Vec F S1x1x1 .f32 :=
  viewO2.read (Elt F) (viewO2.writes (Elt F) viewO2.junk (runClose c i arg2 harg2 arg3 harg3 arg4 harg4 arg5 harg5 arg6 harg6 arg7 harg7 arg8 harg8 hc0 hc1 hc2 x0 x1 x2 x3 xo4 xs).2.1)

/-- What a closing point leaves in the scratch. -/
def closeS (c : Dev nD) (i : grid0.Coords) (arg2 : Memref sig .tc .vmem S1x2048x3 .f32) (harg2 : arg2.IsWhole) (arg3 : Memref sig .tc .vmem S1x2048x1 .f32) (harg3 : arg3.IsWhole) (arg4 : Memref sig .tc .vmem S1x3x4096 .f32) (harg4 : arg4.IsWhole) (arg5 : Memref sig .tc .vmem S1x1x4096 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x4096 .f32) (harg8 : arg8.IsWhole) (hc0 : ¬starts i) (hc1 : continues i) (hc2 : closes i)
    (x0 : Vec F S1x2048x3 .f32) (x1 : Vec F S1x2048x1 .f32) (x2 : Vec F S1x3x4096 .f32) (x3 : Vec F S1x1x4096 .f32) (xo4 : Vec F S1x1x1 .f32) (xs : Vec F S1x4096 .f32) : Vec F S1x4096 .f32 :=
  viewS.read (Elt F) (viewS.writes (Elt F) viewS.junk (runClose c i arg2 harg2 arg3 harg3 arg4 harg4 arg5 harg5 arg6 harg6 arg7 harg7 arg8 harg8 hc0 hc1 hc2 x0 x1 x2 x3 xo4 xs).2.2.1)

/-! ## The same at a grid point, on the point's buffers and input blocks -/

def startO1At (c : Dev nD) (t : Fin cfg0.N) (h : t.val % 2 = 0) : Vec F S1x1x1 .f32 :=
  startO1 c (grid0.coords t) (buf0 t) (whole0 t) (buf1 t) (whole1 t) (buf2 t) (whole2 t) (buf3 t) (whole3 t) (buf4 t) (whole4 t) (buf5 t) (whole5 t) scratch (Memref.isWhole_whole _) ((starts_iff t).mpr h) (fun h' => not_one_of_even h ((continues_iff t).mp h')) (fun h' => not_one_of_even h ((closes_iff t).mp h')) (iblk m c 0 t) (iblk m c 1 t) (iblk m c 2 t) (iblk m c 3 t)

def startSAt (c : Dev nD) (t : Fin cfg0.N) (h : t.val % 2 = 0) : Vec F S1x4096 .f32 :=
  startS c (grid0.coords t) (buf0 t) (whole0 t) (buf1 t) (whole1 t) (buf2 t) (whole2 t) (buf3 t) (whole3 t) (buf4 t) (whole4 t) (buf5 t) (whole5 t) scratch (Memref.isWhole_whole _) ((starts_iff t).mpr h) (fun h' => not_one_of_even h ((continues_iff t).mp h')) (fun h' => not_one_of_even h ((closes_iff t).mp h')) (iblk m c 0 t) (iblk m c 1 t) (iblk m c 2 t) (iblk m c 3 t)

def closeO1At (c : Dev nD) (t : Fin cfg0.N) (h : ¬t.val % 2 = 0) (xo4 : Vec F S1x1x1 .f32) (xs : Vec F S1x4096 .f32) : Vec F S1x1x1 .f32 :=
  closeO1 c (grid0.coords t) (buf0 t) (whole0 t) (buf1 t) (whole1 t) (buf2 t) (whole2 t) (buf3 t) (whole3 t) (buf4 t) (whole4 t) (buf5 t) (whole5 t) scratch (Memref.isWhole_whole _) (fun h' => h ((starts_iff t).mp h')) ((continues_iff t).mpr (one_of_not_even h)) ((closes_iff t).mpr (one_of_not_even h)) (iblk m c 0 t) (iblk m c 1 t) (iblk m c 2 t) (iblk m c 3 t) xo4 xs

def closeO2At (c : Dev nD) (t : Fin cfg0.N) (h : ¬t.val % 2 = 0) (xo4 : Vec F S1x1x1 .f32) (xs : Vec F S1x4096 .f32) : Vec F S1x1x1 .f32 :=
  closeO2 c (grid0.coords t) (buf0 t) (whole0 t) (buf1 t) (whole1 t) (buf2 t) (whole2 t) (buf3 t) (whole3 t) (buf4 t) (whole4 t) (buf5 t) (whole5 t) scratch (Memref.isWhole_whole _) (fun h' => h ((starts_iff t).mp h')) ((continues_iff t).mpr (one_of_not_even h)) ((closes_iff t).mpr (one_of_not_even h)) (iblk m c 0 t) (iblk m c 1 t) (iblk m c 2 t) (iblk m c 3 t) xo4 xs

def closeSAt (c : Dev nD) (t : Fin cfg0.N) (h : ¬t.val % 2 = 0) (xo4 : Vec F S1x1x1 .f32) (xs : Vec F S1x4096 .f32) : Vec F S1x4096 .f32 :=
  closeS c (grid0.coords t) (buf0 t) (whole0 t) (buf1 t) (whole1 t) (buf2 t) (whole2 t) (buf3 t) (whole3 t) (buf4 t) (whole4 t) (buf5 t) (whole5 t) scratch (Memref.isWhole_whole _) (fun h' => h ((starts_iff t).mp h')) ((continues_iff t).mpr (one_of_not_even h)) ((closes_iff t).mpr (one_of_not_even h)) (iblk m c 0 t) (iblk m c 1 t) (iblk m c 2 t) (iblk m c 3 t) xo4 xs

/-! ## What the buffers hold after each point -/

/-- After the body at position `n`: the first output's buffer, the second output's buffer, the scratch. At a starting
    point the second output's buffer is not touched and nothing is said of it (a placeholder stands there). -/
def heldAt (c : Dev nD) : (n : ℕ) → n < cfg0.N → Vec F S1x1x1 .f32 × Vec F S1x1x1 .f32 × Vec F S1x4096 .f32
  | 0, hn => (startO1At m c ⟨0, hn⟩ (Nat.zero_mod _), viewO2.read (Elt F) viewO2.junk, startSAt m c ⟨0, hn⟩ (Nat.zero_mod _))
  | n + 1, hn =>
    if h : (n + 1) % 2 = 0 then
      (startO1At m c ⟨n + 1, hn⟩ h, viewO2.read (Elt F) viewO2.junk, startSAt m c ⟨n + 1, hn⟩ h)
    else
      (closeO1At m c ⟨n + 1, hn⟩ h (heldAt c n (Nat.lt_of_succ_lt hn)).1 (heldAt c n (Nat.lt_of_succ_lt hn)).2.2,
       closeO2At m c ⟨n + 1, hn⟩ h (heldAt c n (Nat.lt_of_succ_lt hn)).1 (heldAt c n (Nat.lt_of_succ_lt hn)).2.2,
       closeSAt m c ⟨n + 1, hn⟩ h (heldAt c n (Nat.lt_of_succ_lt hn)).1 (heldAt c n (Nat.lt_of_succ_lt hn)).2.2)

theorem heldAt_start (c : Dev nD) (t : Fin cfg0.N) (h : t.val % 2 = 0) :
    heldAt m c t.val t.isLt = (startO1At m c t h, viewO2.read (Elt F) viewO2.junk, startSAt m c t h) := by
  obtain ⟨n, hn⟩ := t
  cases n with
  | zero => exact rfl
  | succ n => exact (dif_pos h).trans rfl

theorem heldAt_close (c : Dev nD) (t : Fin cfg0.N) (h : ¬t.val % 2 = 0) :
    heldAt m c t.val t.isLt =
      (closeO1At m c t h (heldAt m c (t.val - 1) (Nat.lt_of_le_of_lt (Nat.sub_le _ _) t.isLt)).1 (heldAt m c (t.val - 1) (Nat.lt_of_le_of_lt (Nat.sub_le _ _) t.isLt)).2.2,
       closeO2At m c t h (heldAt m c (t.val - 1) (Nat.lt_of_le_of_lt (Nat.sub_le _ _) t.isLt)).1 (heldAt m c (t.val - 1) (Nat.lt_of_le_of_lt (Nat.sub_le _ _) t.isLt)).2.2,
       closeSAt m c t h (heldAt m c (t.val - 1) (Nat.lt_of_le_of_lt (Nat.sub_le _ _) t.isLt)).1 (heldAt m c (t.val - 1) (Nat.lt_of_le_of_lt (Nat.sub_le _ _) t.isLt)).2.2) := by
  obtain ⟨n, hn⟩ := t
  cases n with
  | zero => exact absurd (Nat.zero_mod _) h
  | succ n => exact (dif_neg h).trans rfl

/-- What the region holds besides its windows before position `n`: at first the scratch at anything; afterwards the
    scratch at what the point before left in it; and the generator register. -/
def restAt (c : Dev nD) : (n : ℕ) → n ≤ cfg0.N → sProp 𝕄
  | 0, _ => Pipeline.ΦA spec0 c
  | n + 1, hn => iprop(iprop(owns (c : Thread nD τ) scratch fullShare ((heldAt m c n hn).2.2)) ∗ (∃ r, prngReg c r))

theorem restAt_zero (c : Dev nD) (n : ℕ) (h : n ≤ cfg0.N) (hz : n = 0) : restAt m c n h = Pipeline.ΦA spec0 c := by
  subst hz; rfl

theorem restAt_succ (c : Dev nD) (n : ℕ) (hn : n < cfg0.N) :
    restAt m c (n + 1) hn = iprop(iprop(owns (c : Thread nD τ) scratch fullShare ((heldAt m c n hn).2.2)) ∗ (∃ r, prngReg c r)) := rfl

theorem restAt_pos (c : Dev nD) (n : ℕ) (h : n ≤ cfg0.N) (hz : n ≠ 0) :
    restAt m c n h = iprop(iprop(owns (c : Thread nD τ) scratch fullShare ((heldAt m c (n - 1) (by omega)).2.2)) ∗ (∃ r, prngReg c r)) := by
  cases n with
  | zero => exact absurd rfl hz
  | succ n => rfl

/-! ## The proof data -/

/-- On core `c`: the arrays as the region finds them; after the body at point `t` each input's buffer at its block,
    the outputs' at `heldAt`; the region's rest as `restAt`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (heldAt m c t.val t.isLt).1
    | ⟨5, _⟩ => (heldAt m c t.val t.isLt).2.1
  Φ t := restAt m c t.val (Nat.le_of_lt_succ t.isLt)
  q _ := fullShare
  owed _ := 0

theorem A_eq (c : Dev nD) (w : Fin cfg0.W) : (dats m 0 c).A w = V m c (Pipeline.arrRef spec0 w) := by
  dsimp only [dats]

theorem rest_castSucc (c : Dev nD) (t : Fin cfg0.N) :
    (dats m 0 c).Φ t.castSucc = restAt m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = (heldAt m c t.val t.isLt).1 := by dsimp only [dats]
theorem after_5 (c : Dev nD) (t : Fin cfg0.N) : (dats m 0 c).after 5 t = (heldAt m c t.val t.isLt).2.1 := by dsimp only [dats]

/-- Each input's current buffer holds its block at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-- The first output is stored into whatever the coordinates: one of "i = 0", "i > 0" holds of every i. -/
theorem live4_all : ∀ i : grid0.Coords, cfg0.idle 4 i = false := by decide +kernel

/-- At a closing point the first output's current buffer holds what the starting point before it left: the point is
    not the first, the buffer was not written back in between, and the starting point stored into it. -/
theorem before_4_close (c : Dev nD) (t : Fin cfg0.N) (h : ¬t.val % 2 = 0) (d) :
    (dats m 0 c).before 4 t d = (heldAt m c (t.val - 1) (Nat.lt_of_le_of_lt (Nat.sub_le _ _) t.isLt)).1 := by
  have hN : t.val < 8 := lt_of_lt_of_eq t.isLt (show cfg0.N = 8 from N_0)
  rw [Dat.before_out_kept _ 4 rfl t (by omega) (Bool.eq_false_iff.mpr fun h' => by have := (flush0_4 _).mp h'; dsimp only at this; omega)
    live4_all (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (buf0 t) fullShare ((dats m 0 c).before 0 t d))
    ∗ (∃ d, owns (c : Thread nD τ) (buf1 t) fullShare ((dats m 0 c).before 1 t d))
    ∗ (∃ d, owns (c : Thread nD τ) (buf2 t) fullShare ((dats m 0 c).before 2 t d))
    ∗ (∃ d, owns (c : Thread nD τ) (buf3 t) fullShare ((dats m 0 c).before 3 t d))
    ∗ (∃ d, owns (c : Thread nD τ) (buf4 t) fullShare ((dats m 0 c).before 4 t d))
    ∗ (∃ d, owns (c : Thread nD τ) (buf5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 3200000 in
/-- The body at any point. The inputs' buffers hold their blocks; the parity of the position says which kind of
    point it is. At a starting point the scratch and the first output's buffer are stored into whatever they held,
    and the second output's buffer is handed back as found. At a closing point the first output's buffer holds
    what the starting point left, and so does the scratch. Either way the scratch goes back into the region's
    rest at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl]
  rw [show (dats m 0 c).Φ t.succ = restAt m c (t.val + 1) t.isLt from rfl, restAt_succ]
  have hN : t.val < 8 := lt_of_lt_of_eq t.isLt (show cfg0.N = 8 from N_0)
  rw [show (dats m 0 c).leavesExact 0 t = owns (c : Thread nD τ) (buf0 t) fullShare ((dats m 0 c).after 0 t) from by
    unfold Dat.leavesExact; rw [live0 t], after_0]
  rw [show (dats m 0 c).leavesExact 1 t = owns (c : Thread nD τ) (buf1 t) fullShare ((dats m 0 c).after 1 t) from by
    unfold Dat.leavesExact; rw [live1 t], after_1]
  rw [show (dats m 0 c).leavesExact 2 t = owns (c : Thread nD τ) (buf2 t) fullShare ((dats m 0 c).after 2 t) from by
    unfold Dat.leavesExact; rw [live2 t], after_2]
  rw [show (dats m 0 c).leavesExact 3 t = owns (c : Thread nD τ) (buf3 t) fullShare ((dats m 0 c).after 3 t) from by
    unfold Dat.leavesExact; rw [live3 t], after_3]
  rw [show (dats m 0 c).leavesExact 4 t = owns (c : Thread nD τ) (buf4 t) fullShare ((dats m 0 c).after 4 t) from by
    unfold Dat.leavesExact; rw [live4 t], after_4]
  by_cases h0 : t.val % 2 = 0
  · rw [(dats m 0 c).leavesExact_idle 5 t ((idle5_iff t).mpr h0)
      (Bool.eq_false_iff.mpr fun h' => by have := (flush0_5 t).mp h'; omega)]
    rw [heldAt_start m c t h0]
    dsimp only
    unfold startO1At startSAt startO1 startS
    by_cases hz : t.val = 0
    · rw [rest_castSucc m c t, restAt_zero m c _ _ hz, rest_eq]
      iintro ⟨⟨HS, Hg⟩, Ho, ⟨%d0, H0⟩, ⟨%d1, H1⟩, ⟨%d2, H2⟩, ⟨%d3, H3⟩, ⟨%d4, H4⟩, ⟨%d5, H5⟩⟩
      iapply ((runStart c (grid0.coords t) _ _ _ _ _ _ _ _ _ _ _ _ _ _ ((starts_iff t).mpr h0) (fun h' => not_one_of_even h0 ((continues_iff t).mp h')) (fun h' => not_one_of_even h0 ((closes_iff t).mp h')) (iblk m c 0 t) (iblk m c 1 t) (iblk m c 2 t) (iblk m c 3 t)).2.2 _ Set.univ _)
      isplitl [H0]; · iexact H0
      isplitl [H1]; · iexact H1
      isplitl [H2]; · iexact H2
      isplitl [H3]; · iexact H3
      isplitl [H4]; · iexists _; iexact H4
      isplitl [H5]; · iexact H5
      isplitl [HS]; · iexact HS
      iintro ⟨H0, H1, H2, H3, ⟨%e4, H4⟩, H5, ⟨%es, HS⟩⟩
      isplitl [HS Hg]
      · isplitl [HS]
        · unfold owns; iexists _; isplitr
          swap; · iexact HS
          ipureintro; exact View.read_writes_of_cover _ _ _ _ _ (coverStartS c _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (coverStart4 c _ _ _ _ _ _ _ _ _ _ _ _ _ _ _ _ _ _ _ _ _ _)
      iexists _; iexact H5
    · rw [rest_castSucc m c t, restAt_pos m c _ _ hz]
      iintro ⟨⟨HS, Hg⟩, Ho, ⟨%d0, H0⟩, ⟨%d1, H1⟩, ⟨%d2, H2⟩, ⟨%d3, H3⟩, ⟨%d4, H4⟩, ⟨%d5, H5⟩⟩
      iapply ((runStart c (grid0.coords t) _ _ _ _ _ _ _ _ _ _ _ _ _ _ ((starts_iff t).mpr h0) (fun h' => not_one_of_even h0 ((continues_iff t).mp h')) (fun h' => not_one_of_even h0 ((closes_iff t).mp h')) (iblk m c 0 t) (iblk m c 1 t) (iblk m c 2 t) (iblk m c 3 t)).2.2 _ Set.univ _)
      isplitl [H0]; · iexact H0
      isplitl [H1]; · iexact H1
      isplitl [H2]; · iexact H2
      isplitl [H3]; · iexact H3
      isplitl [H4]; · iexists _; iexact H4
      isplitl [H5]; · iexact H5
      isplitl [HS]; · iexists _; iexact HS
      iintro ⟨H0, H1, H2, H3, ⟨%e4, H4⟩, H5, ⟨%es, HS⟩⟩
      isplitl [HS Hg]
      · isplitl [HS]
        · unfold owns; iexists _; isplitr
          swap; · iexact HS
          ipureintro; exact View.read_writes_of_cover _ _ _ _ _ (coverStartS c _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (coverStart4 c _ _ _ _ _ _ _ _ _ _ _ _ _ _ _ _ _ _ _ _ _ _)
      iexists _; iexact H5
  · rw [show (dats m 0 c).leavesExact 5 t = owns (c : Thread nD τ) (buf5 t) fullShare ((dats m 0 c).after 5 t) from by
      unfold Dat.leavesExact; rw [Bool.eq_false_iff.mpr fun hi => h0 ((idle5_iff t).mp hi)], after_5]
    rw [heldAt_close m c t h0]
    dsimp only
    simp only [before_4_close m c t h0]
    have hz : t.val ≠ 0 := by omega
    rw [rest_castSucc m c t, restAt_pos m c _ _ hz]
    unfold closeO1At closeO2At closeSAt closeO1 closeO2 closeS
    iintro ⟨⟨HS, Hg⟩, Ho, ⟨%d0, H0⟩, ⟨%d1, H1⟩, ⟨%d2, H2⟩, ⟨%d3, H3⟩, ⟨%d4, H4⟩, ⟨%d5, H5⟩⟩
    iapply ((runClose c (grid0.coords t) _ _ _ _ _ _ _ _ _ _ _ _ _ _ (fun h' => h0 ((starts_iff t).mp h')) ((continues_iff t).mpr (one_of_not_even h0)) ((closes_iff t).mpr (one_of_not_even h0)) (iblk m c 0 t) (iblk m c 1 t) (iblk m c 2 t) (iblk m c 3 t) _ _).2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, ⟨%e4, H4⟩, ⟨%e5, H5⟩, ⟨%es, HS⟩⟩
    isplitl [HS Hg]
    · isplitl [HS]
      · unfold owns; iexists _; isplitr
        swap; · iexact HS
        ipureintro; exact View.read_writes_of_cover _ _ _ _ _ (coverCloseS c _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (coverClose4 c _ _ _ _ _ _ _ _ _ _ _ _ _ _ _ _ _ _ _ _ _ _ _ _)
    unfold owns; iexists _; isplitr
    swap; · iexact H5
    ipureintro; exact View.read_writes_of_cover _ _ _ _ _ (coverClose5 c _ _ _ _ _ _ _ _ _ _ _ _ _ _ _ _ _ _ _ _ _ _ _ _)

/-- The body obligation of the pipeline, at every point. -/
theorem body_obligation (c : Dev nD) : BodyObligation (dats (F := F) m 0 c) (defs₀ (F := F)) Variants.none () Set.univ := fun t => by
  rw [bigSep_W0, bigSep_W0]
  exact sound_body m c t

/-- What the launch hands the region is its rest before the first point. -/
theorem hin (c : Dev nD) : Pipeline.ΦA spec0 c ⊢ (dats m 0 c).Φ 0 := by
  rw [show (dats m 0 c).Φ 0 = restAt m c 0 (Nat.zero_le _) from rfl, restAt_zero m c 0 _ rfl]
  try exact Idealize.SL.BI.Entails.refl _

/-- After any point but the first the rest gives the scratch back at some contents. -/
theorem rest_out (c : Dev nD) (t : Fin (cfg0.N + 1)) (ht : t.val ≠ 0) : (dats m 0 c).Φ t ⊢ Pipeline.ΦA spec0 c := by
  rw [show (dats m 0 c).Φ t = restAt m c t.val (Nat.le_of_lt_succ t.isLt) from rfl, restAt_pos m c _ _ ht, rest_eq]
  iintro ⟨HS, Hg⟩
  isplitl [HS]
  · iexists _; iexact HS
  iexact Hg

theorem hout (c : Dev nD) : (dats m 0 c).Φ (Fin.last cfg0.N) ⊢ Pipeline.ΦA spec0 c :=
  rest_out m c _ (by rw [Fin.val_last]; have : cfg0.N = 8 := N_0; omega)

/-! ## The run and the frame -/

set_option backward.isDefEq.respectTransparency.types false in
/-- From any memory with zero counters every weakly fair execution of @main terminates, and every final state has
    each array of the pipeline at what the write-backs of the proof data compute and every other unscoped buffer at
    what the host lines after the region compute from those. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Body

end
-- ==== Proof.BodyIdeal.Pieces.lean ====
/-
  The stored pieces read back are the body's arithmetic of what it loaded: at a starting point the first output's
  buffer holds the half's sum of row minima and the scratch the half's column minima; at a closing point the first
  output's buffer holds the running sum plus the half's sum, the scratch the minimum of the running minima and the
  half's, and the second output's buffer the sum over the columns of (that minimum + |y|²).
-/
import proofs.«120560_g4922032521243_cont_8to1_c_580_11_alg».proof.Proof.BodyIdeal.Frame
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a rank-3 store or load, as the constant function. -/
private theorem hz3 : (![0, 0, 0] : Fin 3 → Nat) = fun _ => 0 := funext fun a => by fin_cases a <;> rfl
/-- The zero offsets of a rank-2 store or load, as the constant function. -/
private theorem hz2 : (![0, 0] : Fin 2 → Nat) = fun _ => 0 := funext fun a => by fin_cases a <;> rfl

theorem startO1_eq (c : Dev nD) (i : grid0.Coords) (arg2 : Memref sig .tc .vmem S1x2048x3 .f32) (harg2 : arg2.IsWhole) (arg3 : Memref sig .tc .vmem S1x2048x1 .f32) (harg3 : arg3.IsWhole) (arg4 : Memref sig .tc .vmem S1x3x4096 .f32) (harg4 : arg4.IsWhole) (arg5 : Memref sig .tc .vmem S1x1x4096 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x4096 .f32) (harg8 : arg8.IsWhole) (hc0 : starts i) (hc1 : ¬continues i) (hc2 : ¬closes i)
    (x0 : Vec F S1x2048x3 .f32) (x1 : Vec F S1x2048x1 .f32) (x2 : Vec F S1x3x4096 .f32) (x3 : Vec F S1x1x4096 .f32) :
    startO1 c i arg2 harg2 arg3 harg3 arg4 harg4 arg5 harg5 arg6 harg6 arg7 harg7 arg8 harg8 hc0 hc1 hc2 x0 x1 x2 x3 = k0_pay3 (k0_pay11 x0 x1 x2 x3) := by
  unfold startO1
  rw [View.read_writes_eq_canon _ _ _ (coverStart4 c i arg2 harg2 arg3 harg3 arg4 harg4 arg5 harg5 arg6 harg6 arg7 harg7 arg8 harg8 hc0 hc1 hc2 x0 x1 x2 x3)]
  unfold runStart
  dsimp only
  sl_unfold_words
  rw [View.canon_unit_zero (S := S1x1x1) hz3]
  simp only [View.readAt_eq_ld, harg2.read_unread, harg3.read_unread, harg4.read_unread, harg5.read_unread, View.ld_unit_zero (S := S1x2048x3) hz3, View.ld_unit_zero (S := S1x2048x1) hz3, View.ld_unit_zero (S := S1x3x4096) hz3, View.ld_unit_zero (S := S1x1x4096) hz3]

theorem startS_eq (c : Dev nD) (i : grid0.Coords) (arg2 : Memref sig .tc .vmem S1x2048x3 .f32) (harg2 : arg2.IsWhole) (arg3 : Memref sig .tc .vmem S1x2048x1 .f32) (harg3 : arg3.IsWhole) (arg4 : Memref sig .tc .vmem S1x3x4096 .f32) (harg4 : arg4.IsWhole) (arg5 : Memref sig .tc .vmem S1x1x4096 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x4096 .f32) (harg8 : arg8.IsWhole) (hc0 : starts i) (hc1 : ¬continues i) (hc2 : ¬closes i)
    (x0 : Vec F S1x2048x3 .f32) (x1 : Vec F S1x2048x1 .f32) (x2 : Vec F S1x3x4096 .f32) (x3 : Vec F S1x1x4096 .f32) :
    startS c i arg2 harg2 arg3 harg3 arg4 harg4 arg5 harg5 arg6 harg6 arg7 harg7 arg8 harg8 hc0 hc1 hc2 x0 x1 x2 x3 = k0_pay4 (k0_pay8 x1) (k0_pay10 x0 x2) := by
  unfold startS
  rw [View.read_writes_eq_canon _ _ _ (coverStartS c i arg2 harg2 arg3 harg3 arg4 harg4 arg5 harg5 arg6 harg6 arg7 harg7 arg8 harg8 hc0 hc1 hc2 x0 x1 x2 x3)]
  unfold runStart
  dsimp only
  sl_unfold_words
  rw [View.canon_unit_zero (S := S1x4096) hz2]
  simp only [View.readAt_eq_ld, harg2.read_unread, harg3.read_unread, harg4.read_unread, View.ld_unit_zero (S := S1x2048x3) hz3, View.ld_unit_zero (S := S1x2048x1) hz3, View.ld_unit_zero (S := S1x3x4096) hz3, View.ld_unit_zero (S := S1x1x4096) hz3]

theorem closeO1_eq (c : Dev nD) (i : grid0.Coords) (arg2 : Memref sig .tc .vmem S1x2048x3 .f32) (harg2 : arg2.IsWhole) (arg3 : Memref sig .tc .vmem S1x2048x1 .f32) (harg3 : arg3.IsWhole) (arg4 : Memref sig .tc .vmem S1x3x4096 .f32) (harg4 : arg4.IsWhole) (arg5 : Memref sig .tc .vmem S1x1x4096 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x4096 .f32) (harg8 : arg8.IsWhole) (hc0 : ¬starts i) (hc1 : continues i) (hc2 : closes i)
    (x0 : Vec F S1x2048x3 .f32) (x1 : Vec F S1x2048x1 .f32) (x2 : Vec F S1x3x4096 .f32) (x3 : Vec F S1x1x4096 .f32) (xo4 : Vec F S1x1x1 .f32) (xs : Vec F S1x4096 .f32) :
    closeO1 c i arg2 harg2 arg3 harg3 arg4 harg4 arg5 harg5 arg6 harg6 arg7 harg7 arg8 harg8 hc0 hc1 hc2 x0 x1 x2 x3 xo4 xs = k0_pay5 (k0_pay11 x0 x1 x2 x3) xo4 := by
  unfold closeO1
  rw [View.read_writes_eq_canon _ _ _ (coverClose4 c i arg2 harg2 arg3 harg3 arg4 harg4 arg5 harg5 arg6 harg6 arg7 harg7 arg8 harg8 hc0 hc1 hc2 x0 x1 x2 x3 xo4 xs)]
  unfold runClose
  dsimp only
  sl_unfold_words
  rw [View.canon_unit_zero (S := S1x1x1) hz3]
  simp only [View.readAt_eq_ld, harg2.read_unread, harg3.read_unread, harg4.read_unread, harg5.read_unread, harg6.read_unread, View.ld_unit_zero (S := S1x2048x3) hz3, View.ld_unit_zero (S := S1x2048x1) hz3, View.ld_unit_zero (S := S1x3x4096) hz3, View.ld_unit_zero (S := S1x1x4096) hz3, View.ld_unit_zero (S := S1x1x1) hz3]

theorem closeS_eq (c : Dev nD) (i : grid0.Coords) (arg2 : Memref sig .tc .vmem S1x2048x3 .f32) (harg2 : arg2.IsWhole) (arg3 : Memref sig .tc .vmem S1x2048x1 .f32) (harg3 : arg3.IsWhole) (arg4 : Memref sig .tc .vmem S1x3x4096 .f32) (harg4 : arg4.IsWhole) (arg5 : Memref sig .tc .vmem S1x1x4096 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x4096 .f32) (harg8 : arg8.IsWhole) (hc0 : ¬starts i) (hc1 : continues i) (hc2 : closes i)
    (x0 : Vec F S1x2048x3 .f32) (x1 : Vec F S1x2048x1 .f32) (x2 : Vec F S1x3x4096 .f32) (x3 : Vec F S1x1x4096 .f32) (xo4 : Vec F S1x1x1 .f32) (xs : Vec F S1x4096 .f32) :
    closeS c i arg2 harg2 arg3 harg3 arg4 harg4 arg5 harg5 arg6 harg6 arg7 harg7 arg8 harg8 hc0 hc1 hc2 x0 x1 x2 x3 xo4 xs = k0_pay6 (k0_pay8 x1) (k0_pay10 x0 x2) xs := by
  unfold closeS
  rw [View.read_writes_eq_canon _ _ _ (coverCloseS c i arg2 harg2 arg3 harg3 arg4 harg4 arg5 harg5 arg6 harg6 arg7 harg7 arg8 harg8 hc0 hc1 hc2 x0 x1 x2 x3 xo4 xs)]
  unfold runClose
  dsimp only
  sl_unfold_words
  rw [View.canon_unit_zero (S := S1x4096) hz2]
  simp only [View.readAt_eq_ld, harg2.read_unread, harg3.read_unread, harg4.read_unread, harg8.read_unread, View.ld_unit_zero (S := S1x2048x3) hz3, View.ld_unit_zero (S := S1x2048x1) hz3, View.ld_unit_zero (S := S1x3x4096) hz3, View.ld_unit_zero (S := S1x1x4096) hz3, View.ld_unit_zero (S := S1x4096) hz2]

theorem closeO2_eq (c : Dev nD) (i : grid0.Coords) (arg2 : Memref sig .tc .vmem S1x2048x3 .f32) (harg2 : arg2.IsWhole) (arg3 : Memref sig .tc .vmem S1x2048x1 .f32) (harg3 : arg3.IsWhole) (arg4 : Memref sig .tc .vmem S1x3x4096 .f32) (harg4 : arg4.IsWhole) (arg5 : Memref sig .tc .vmem S1x1x4096 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x4096 .f32) (harg8 : arg8.IsWhole) (hc0 : ¬starts i) (hc1 : continues i) (hc2 : closes i)
    (x0 : Vec F S1x2048x3 .f32) (x1 : Vec F S1x2048x1 .f32) (x2 : Vec F S1x3x4096 .f32) (x3 : Vec F S1x1x4096 .f32) (xo4 : Vec F S1x1x1 .f32) (xs : Vec F S1x4096 .f32) :
    closeO2 c i arg2 harg2 arg3 harg3 arg4 harg4 arg5 harg5 arg6 harg6 arg7 harg7 arg8 harg8 hc0 hc1 hc2 x0 x1 x2 x3 xo4 xs = k0_pay7 (k0_pay9 x3) (k0_pay6 (k0_pay8 x1) (k0_pay10 x0 x2) xs) := by
  unfold closeO2
  rw [View.read_writes_eq_canon _ _ _ (coverClose5 c i arg2 harg2 arg3 harg3 arg4 harg4 arg5 harg5 arg6 harg6 arg7 harg7 arg8 harg8 hc0 hc1 hc2 x0 x1 x2 x3 xo4 xs)]
  unfold runClose
  dsimp only
  sl_unfold_words
  rw [View.canon_unit_zero (S := S1x1x1) hz3]
  simp only [View.readCov_unit_zero (S := S1x4096) _ hz2, View.readAt_eq_ld, harg2.read_unread, harg3.read_unread, harg4.read_unread, harg5.read_unread, harg8.read_unread, View.ld_unit_zero (S := S1x2048x3) hz3, View.ld_unit_zero (S := S1x2048x1) hz3, View.ld_unit_zero (S := S1x3x4096) hz3, View.ld_unit_zero (S := S1x1x4096) hz3, View.ld_unit_zero (S := S1x4096) hz2]

end Cert.KernelIdeal.Body

end
-- ==== Proof.LibRowOps.lean ====
/-
  General lemmas: a row-wise kernel's vector operations read at an index, at the ideal instance.

  * a plain matrix product `[M,K]·[K,N]` into a zero accumulator, at `(p, c)`, is `Σ k, lhs (p, k) · rhs (k, c)`;
  * a sum over the lanes of a `[a,b]` vector, at `p`, is `Σ k, src (p, k)`;
  * a column kept as `[a,1]` (a shape cast of `[a]`) and spread over `[a,b]` reads the entry of its row.
-/
import Idealize.ShloMosaic.PureOps.Ideal.Laws
import Idealize.ShloMosaic.Lib.ValueIdx
import Idealize.ShloMosaic.Lib.ValueLayout
import Idealize.ShloMosaic.Lib.Pipeline.Value

noncomputable section

namespace Cert.RowOps

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A sum over the lanes (axis 1) of an `[a, b]` vector, read at row `p`: the sum of that row. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  rw [Ideal.multiReduction_add_single]
  refine Finset.sum_congr rfl fun k _ => congrArg src (funext fun ax => Fin.ext ?_)
  match ax with
  | ⟨0, _⟩ => rfl
  | ⟨1, _⟩ => rfl

/-- A row's lane sum kept as a column and spread over `[a, c]`: at `(p, k)` it is the sum of row `p`. -/
theorem rowSum_spread_apply {a b c : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hs : (⟨1, ![a]⟩ : Shape).ShapeCasts ⟨2, ![a, 1]⟩) (hb : (⟨2, ![a, 1]⟩ : Shape).Broadcasts ⟨2, ![a, c]⟩) (p : Fin a) (k : Fin c) :
    broadcastTo ⟨2, ![a, c]⟩ (shapeCast ⟨2, ![a, 1]⟩ (multiReduction .add [1] ⟨1, ![a]⟩ src acc h hφ hacc) hs) hb (ix2 p k)
      = ∑ i : Fin b, src (ix2 p i) := by
  rw [broadcastTo_a1_ab_apply, shapeCast_a_a1_apply, laneSum_apply]

/-- A one-row parameter `[1, b]` (shape-cast to itself) spread over `[a, b]`: at `(p, k)` it is the row's entry `k`. -/
theorem rowParam_spread_apply {a b : ℕ} (v : (⟨2, ![1, b]⟩ : Shape).Idx → α) (hs : (⟨2, ![1, b]⟩ : Shape).ShapeCasts ⟨2, ![1, b]⟩)
    (hb : (⟨2, ![1, b]⟩ : Shape).Broadcasts ⟨2, ![a, b]⟩) (p : Fin a) (k : Fin b) :
    broadcastTo ⟨2, ![a, b]⟩ (shapeCast ⟨2, ![1, b]⟩ v hs) hb (ix2 p k) = v (ix2 (0 : Fin 1) k) := by
  rw [broadcastTo_1b_ab_apply, shapeCast_self]

/-- A plain matrix product `[M,K]·[K,N]` (contracting the left operand's columns with the right operand's rows) into
    the zero accumulator, read at `(p, c)`: the sum over `k` of `lhs (p, k) · rhs (k, c)`. -/
theorem matmul_apply {M K N : ℕ} {φ₁ φ₂ : FTy}
    (wf : DotDims.WF ⟨2, ![M, K]⟩ ⟨2, ![K, N]⟩ ⟨2, ![M, N]⟩ [1] [0] [0] [1] [] [])
    (prec : Option ContractPrecision) (lhs : FVec Ideal ⟨2, ![M, K]⟩ φ₁) (rhs : FVec Ideal ⟨2, ![K, N]⟩ φ₂)
    (p : Fin M) (c : Fin N) :
    FloatOps.matmul (⟨[1], [0], [0], [1], [], [], wf⟩ : DotDims ⟨2, ![M, K]⟩ ⟨2, ![K, N]⟩ ⟨2, ![M, N]⟩) prec lhs rhs
        (constant ⟨2, ![M, N]⟩ .f32 0x00000000#32) (ix2 p c)
      = ∑ k : Fin K, lhs (ix2 p k) * rhs (ix2 k c) := by
  set D : DotDims ⟨2, ![M, K]⟩ ⟨2, ![K, N]⟩ ⟨2, ![M, N]⟩ := ⟨[1], [0], [0], [1], [], [], wf⟩ with hD
  have l0 : ∀ (i : (⟨2, ![M, N]⟩ : Shape).Idx) (q : D.contr.Idx), (D.lhsIdx i q 0).val = (i 0).val := by
    intro i q
    unfold DotDims.lhsIdx
    rw [dif_neg (show ¬(0 : Fin 2) ∈ D.lhsBatch from List.not_mem_nil), dif_pos (show (0 : Fin 2) ∈ D.lhsNonContracting from List.mem_singleton.mpr rfl)]
    rfl
  have l1 : ∀ (i : (⟨2, ![M, N]⟩ : Shape).Idx) (q : D.contr.Idx), (D.lhsIdx i q 1).val = (q ⟨0, Nat.one_pos⟩).val :=
    fun i q => D.lhsIdx_val_of_single rfl i q
  have r0 : ∀ (i : (⟨2, ![M, N]⟩ : Shape).Idx) (q : D.contr.Idx), (D.rhsIdx i q 0).val = (q ⟨0, Nat.one_pos⟩).val :=
    fun i q => D.rhsIdx_val_of_single rfl i q
  have r1 : ∀ (i : (⟨2, ![M, N]⟩ : Shape).Idx) (q : D.contr.Idx), (D.rhsIdx i q 1).val = (i 1).val := by
    intro i q
    unfold DotDims.rhsIdx
    rw [dif_neg (show ¬(1 : Fin 2) ∈ D.rhsBatch from List.not_mem_nil), dif_pos (show (1 : Fin 2) ∈ D.rhsNonContracting from List.mem_singleton.mpr rfl)]
    rfl
  rw [Ideal.matmul_constant_zero_apply, ← Equiv.sum_comp (contrEquiv1 D K rfl rfl).symm]
  refine Finset.sum_congr rfl fun k _ => ?_
  have hk := contrEquiv1_symm_val D K rfl rfl k
  have el : D.lhsIdx (ix2 p c) ((contrEquiv1 D K rfl rfl).symm k) = ix2 p k := funext fun ax => Fin.ext (by
    match ax with
    | ⟨0, _⟩ => exact l0 _ _
    | ⟨1, _⟩ => exact (l1 _ _).trans hk)
  have er : D.rhsIdx (ix2 p c) ((contrEquiv1 D K rfl rfl).symm k) = ix2 k c := funext fun ax => Fin.ext (by
    match ax with
    | ⟨0, _⟩ => exact (r0 _ _).trans hk
    | ⟨1, _⟩ => exact r1 _ _)
  rw [el, er]

end Cert.RowOps

end
-- ==== Proof.Spec.lean ====
/-
  The Chamfer loss of two point clouds, as one function of the clouds.

  A cloud is 4 batch entries of 4096 points of ℝ³. With d b n m = Σ_k (x b n k − y b m k)² the loss is
      (Σ_{b,n} min_m d b n m) / 16384 + (Σ_{b,m} min_n d b n m) / 16384.
  The kernel arranges it otherwise: it expands d = |x|² + |y|² − 2 x·y, takes the row minima of (−2 x·y + |y|²)
  and adds |x|² afterwards, the column minima of (−2 x·y + |x|²) half a cloud at a time, joins the two halves by a
  minimum, adds |y|² afterwards, and multiplies the sums by 1/16384. Over the reals the two arrangements agree;
  over the extended reals they are stated here as the programs compute them, literal words included.
-/
import Idealize.ShloMosaic.PureOps.Ideal
import Mathlib.Algebra.BigOperators.Fin
import Mathlib.Data.Finset.Lattice.Fold
import Mathlib.Data.Finset.Fold
import Mathlib.Data.EReal.Operations

noncomputable section

namespace Chamfer

open Idealize.ShloMosaic

/-- A cloud: batch entry, point, coordinate. -/
abbrev Cloud (α : Type) := Fin 4 → Fin 4096 → Fin 3 → α

/-- Point `n'` of half `h` of a cloud's 4096 points. -/
def half (h : Fin 2) (n' : Fin 2048) : Fin 4096 := ⟨2048 * h.val + n'.val, by omega⟩

/-- A real cloud read in the extended reals. -/
def lift (X : Cloud ℝ) : Cloud EReal := fun b n k => ((X b n k : ℝ) : EReal)

/-! ## The literal words of the two programs, at the ideal instance -/

abbrev wNegTwo : EReal := Ideal.ofBits .f32 0xC0000000#32
abbrev wZero : EReal := Ideal.ofBits .f32 0x00000000#32
abbrev wInf : EReal := Ideal.ofBits .f32 0x7F800000#32
abbrev wScale : EReal := Ideal.ofBits .f32 0x38800000#32
abbrev wCount : EReal := Ideal.ofBits .f32 0x46800000#32

/-! ## The loss over the reals -/

section Real
variable (X Y : Cloud ℝ)

/-- The squared distance of point `n` of `X` to point `m` of `Y`, in batch entry `b`. -/
def sqdist (b : Fin 4) (n m : Fin 4096) : ℝ := ∑ k : Fin 3, (X b n k - Y b m k) * (X b n k - Y b m k)

/-- The Chamfer loss. -/
def loss : ℝ :=
  (∑ b : Fin 4, ∑ n : Fin 4096, (Finset.univ : Finset (Fin 4096)).inf' Finset.univ_nonempty (fun m => sqdist X Y b n m)) / 16384
  + (∑ b : Fin 4, ∑ m : Fin 4096, (Finset.univ : Finset (Fin 4096)).inf' Finset.univ_nonempty (fun n => sqdist X Y b n m)) / 16384

end Real

/-! ## The kernel's arrangement over the reals -/

namespace K
variable (X Y : Cloud ℝ)

def sq (X : Cloud ℝ) (b : Fin 4) (n : Fin 4096) : ℝ := ∑ k : Fin 3, X b n k * X b n k
def cross (b : Fin 4) (n m : Fin 4096) : ℝ :=
  ((-2 * X b n 0) * Y b m 0 + (-2 * X b n 1) * Y b m 1) + (-2 * X b n 2) * Y b m 2
def rowMin (b : Fin 4) (n : Fin 4096) : ℝ :=
  (Finset.univ : Finset (Fin 4096)).inf' Finset.univ_nonempty (fun m => cross X Y b n m + sq Y b m) + sq X b n
def colMin (b : Fin 4) (h : Fin 2) (m : Fin 4096) : ℝ :=
  (Finset.univ : Finset (Fin 2048)).inf' Finset.univ_nonempty (fun n' => cross X Y b (half h n') m + sq X b (half h n'))
def loss : ℝ :=
  (∑ b : Fin 4, ((∑ n' : Fin 2048, rowMin X Y b (half 0 n')) + (∑ n' : Fin 2048, rowMin X Y b (half 1 n')))) * (1 / 16384)
  + (∑ b : Fin 4, ∑ m : Fin 4096, (min (colMin X Y b 0 m) (colMin X Y b 1 m) + sq Y b m)) * (1 / 16384)

end K

/-! ## The kernel's arrangement over the extended reals, as the program computes it -/

namespace E
variable (x y : Cloud EReal)

/-- −2·x, the host's first product. -/
def dbl (b : Fin 4) (n : Fin 4096) (k : Fin 3) : EReal := wNegTwo * x b n k
/-- |x|², the host's sum from the zero word. -/
def sq (x : Cloud EReal) (b : Fin 4) (n : Fin 4096) : EReal := wZero + ∑ k : Fin 3, x b n k * x b n k
/-- −2 x·y, accumulated coordinate by coordinate. -/
def cross (b : Fin 4) (n m : Fin 4096) : EReal :=
  (dbl x b n 0 * y b m 0 + dbl x b n 1 * y b m 1) + dbl x b n 2 * y b m 2
/-- A point of x: the minimum over y of (−2 x·y + |y|²), from +∞, then + |x|². -/
def rowMin (b : Fin 4) (n : Fin 4096) : EReal :=
  (Finset.univ : Finset (Fin 4096)).fold min wInf (fun m => cross x y b n m + sq y b m) + sq x b n
/-- The sum of a half's row minima. -/
def halfSum (b : Fin 4) (h : Fin 2) : EReal := ∑ n' : Fin 2048, rowMin x y b (half h n')
/-- A point of y against one half of x: the minimum of (−2 x·y + |x|²), from +∞. -/
def colMin (b : Fin 4) (h : Fin 2) (m : Fin 4096) : EReal :=
  (Finset.univ : Finset (Fin 2048)).fold min wInf (fun n' => cross x y b (half h n') m + sq x b (half h n'))
/-- The first output of the region at batch entry b. -/
def o1 (b : Fin 4) : EReal := halfSum x y b 0 + halfSum x y b 1
/-- The second output of the region at batch entry b. -/
def o2 (b : Fin 4) : EReal := ∑ m : Fin 4096, (min (colMin x y b 0 m) (colMin x y b 1 m) + sq y b m)
/-- The program's result. -/
def loss : EReal := (wZero + ∑ b : Fin 4, o1 x y b) * wScale + (wZero + ∑ b : Fin 4, o2 x y b) * wScale

end E

/-! ## The reference's arrangement over the extended reals, as the program computes it -/

namespace R
variable (x y : Cloud EReal)

def dist (b : Fin 4) (n m : Fin 4096) : EReal := wZero + ∑ k : Fin 3, (x b n k - y b m k) * (x b n k - y b m k)
def near1 (b : Fin 4) (n : Fin 4096) : EReal := (Finset.univ : Finset (Fin 4096)).fold min wInf (fun m => dist x y b n m)
def near2 (b : Fin 4) (m : Fin 4096) : EReal := (Finset.univ : Finset (Fin 4096)).fold min wInf (fun n => dist x y b n m)
def loss : EReal :=
  Ideal.div (wZero + ∑ b : Fin 4, ∑ n : Fin 4096, near1 x y b n) wCount
  + Ideal.div (wZero + ∑ b : Fin 4, ∑ m : Fin 4096, near2 x y b m) wCount

end R

end Chamfer

end
-- ==== Proof.Val.Cross.lean ====
/-
  The body's shared arithmetic at an index: −2 x·y of a row of the x block against a column of the y block, built
  coordinate by coordinate from slices, casts and broadcasts; and the two keepdims casts of |x|² and |y|².
-/
import proofs.«120560_g4922032521243_cont_8to1_c_580_11_alg».proof.Proof.Gen.KernelIdeal.Skeleton
import proofs.«120560_g4922032521243_cont_8to1_c_580_11_alg».proof.Proof.LibRowOps
import proofs.«120560_g4922032521243_cont_8to1_c_580_11_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val

open Idealize.ShloMosaic Idealize.ShloMosaic.TcCoe Idealize.ShloMosaic.ValueIdx Idealize.SL.Sem
open Cert.KernelIdeal Cert.KernelIdeal.Gen

/-- −2 x·y of row `n'` of the (already doubled and negated) x block against column `m` of the transposed y block. -/
def blkCross (x0 : Vec Ideal S1x2048x3 .f32) (x2 : Vec Ideal S1x3x4096 .f32) (n' : Fin 2048) (m : Fin 4096) : EReal :=
  (x0 (ix3 0 n' 0) * x2 (ix3 0 0 m) + x0 (ix3 0 n' 1) * x2 (ix3 0 1 m)) + x0 (ix3 0 n' 2) * x2 (ix3 0 2 m)

/-- A column `[a, 1]` cast to `[a]` and back to `[a, 1]` is the column. -/
private theorem col_roundtrip {α : Type} {a : ℕ} (v : (⟨2, ![a, 1]⟩ : Shape).Idx → α)
    (h : (⟨2, ![a, 1]⟩ : Shape).ShapeCasts ⟨1, ![a]⟩) (h' : (⟨1, ![a]⟩ : Shape).ShapeCasts ⟨2, ![a, 1]⟩) :
    shapeCast ⟨2, ![a, 1]⟩ (shapeCast ⟨1, ![a]⟩ v h) h' = v :=
  shapeCast_shapeCast v h h'

/-- A row `[1, b]` cast to `[b]` and back to `[1, b]` is the row. -/
private theorem row_roundtrip {α : Type} {b : ℕ} (v : (⟨2, ![1, b]⟩ : Shape).Idx → α)
    (h : (⟨2, ![1, b]⟩ : Shape).ShapeCasts ⟨1, ![b]⟩) (h' : (⟨1, ![b]⟩ : Shape).ShapeCasts ⟨2, ![1, b]⟩) :
    shapeCast ⟨2, ![1, b]⟩ (shapeCast ⟨1, ![b]⟩ v h) h' = v :=
  shapeCast_shapeCast v h h'

/-- Coordinate `k` of the x block, cut out as a column, kept as a column and spread over the columns of the y block:
    at `(n', m)` it is `x (0, n', k)`. -/
private theorem xcol_apply (x0 : Vec Ideal S1x2048x3 .f32) (o : ℕ) (k : Fin 3) (hk : k.val = o + (0 : Fin 1).val)
    (h1 : S1x2048x3.ShapeCasts S2048x3) (hs : S2048x3.Slices ![0, o] S2048x1)
    (h2 : S2048x1.ShapeCasts S2048) (h3 : S2048.ShapeCasts S2048x1) (hb : S2048x1.Broadcasts S2048x4096)
    (n' : Fin 2048) (m : Fin 4096) :
    broadcastTo S2048x4096
        (shapeCast S2048x1 (shapeCast S2048 (extractStridedSlice S2048x1 ![0, o] (shapeCast S2048x3 x0 h1) hs) h2) h3) hb
        (ix2 n' m)
      = x0 (ix3 0 n' k) := by
  refine (Cert.RowOps.broadcastTo_a1_ab_apply _ hb n' m).trans ?_
  refine (congrFun (col_roundtrip _ h2 h3) _).trans ?_
  refine (slice2_axis1_apply o _ hs n' (0 : Fin 1) k hk).trans ?_
  exact shapeCast_1ab_ab_apply x0 h1 n' k

/-- Coordinate `k` of the transposed y block, cut out as a row, kept as a row and spread over the rows of the x block:
    at `(n', m)` it is `y (0, k, m)`. -/
private theorem yrow_apply (x2 : Vec Ideal S1x3x4096 .f32) (o : ℕ) (k : Fin 3) (hk : k.val = o + (0 : Fin 1).val)
    (h1 : S1x3x4096.ShapeCasts S3x4096) (hs : S3x4096.Slices ![o, 0] S1x4096)
    (h2 : S1x4096.ShapeCasts S4096) (h3 : S4096.ShapeCasts S1x4096) (hb : S1x4096.Broadcasts S2048x4096)
    (n' : Fin 2048) (m : Fin 4096) :
    broadcastTo S2048x4096
        (shapeCast S1x4096 (shapeCast S4096 (extractStridedSlice S1x4096 ![o, 0] (shapeCast S3x4096 x2 h1) hs) h2) h3) hb
        (ix2 n' m)
      = x2 (ix3 0 k m) := by
  refine (broadcastTo_1b_ab_apply _ hb n' m).trans ?_
  refine (congrFun (row_roundtrip _ h2 h3) _).trans ?_
  refine (slice2_axis0_apply o _ hs (0 : Fin 1) m k hk).trans ?_
  exact shapeCast_1ab_ab_apply x2 h1 k m

theorem pay10_apply (x0 : Vec Ideal S1x2048x3 .f32) (x2 : Vec Ideal S1x3x4096 .f32) (n' : Fin 2048) (m : Fin 4096) :
    k0_pay10 (F := Ideal) x0 x2 (ix2 n' m) = blkCross x0 x2 n' m := by
  unfold k0_pay10 blkCross
  refine (addf_apply _ _ _).trans ?_
  refine congrArg₂ (· + ·)
    ((addf_apply _ _ _).trans (congrArg₂ (· + ·)
      ((mulf_apply _ _ _).trans (congrArg₂ (· * ·) ?_ ?_))
      ((mulf_apply _ _ _).trans (congrArg₂ (· * ·) ?_ ?_))))
    ((mulf_apply _ _ _).trans (congrArg₂ (· * ·) ?_ ?_))
  · exact xcol_apply x0 0 0 rfl _ _ _ _ _ n' m
  · exact yrow_apply x2 0 0 rfl _ _ _ _ _ n' m
  · exact xcol_apply x0 1 1 rfl _ _ _ _ _ n' m
  · exact yrow_apply x2 1 1 rfl _ _ _ _ _ n' m
  · exact xcol_apply x0 2 2 rfl _ _ _ _ _ n' m
  · exact yrow_apply x2 2 2 rfl _ _ _ _ _ n' m

theorem pay8_apply (x1 : Vec Ideal S1x2048x1 .f32) (n' : Fin 2048) :
    k0_pay8 (F := Ideal) x1 (ix2 n' 0) = x1 (ix3 0 n' 0) := by
  unfold k0_pay8
  exact shapeCast_1ab_ab_apply x1 _ n' 0

theorem pay9_apply (x3 : Vec Ideal S1x1x4096 .f32) (m : Fin 4096) :
    k0_pay9 (F := Ideal) x3 (ix2 0 m) = x3 (ix3 0 0 m) := by
  unfold k0_pay9
  exact shapeCast_1ab_ab_apply x3 _ 0 m

end Cert.KernelIdeal.Val

end
-- ==== Proof.Val.Cols.lean ====
/-
  The column side of the body at an index: for each point of y the minimum, over the rows of the x block, of
  (−2 x·y + |x|²), from +∞; and its join with the running minima.
-/
import proofs.«120560_g4922032521243_cont_8to1_c_580_11_alg».proof.Proof.Val.Cross

noncomputable section

namespace Cert.KernelIdeal.Val

open Idealize.ShloMosaic Idealize.ShloMosaic.TcCoe Idealize.ShloMosaic.ValueIdx Idealize.SL.Sem
open Cert.KernelIdeal Cert.KernelIdeal.Gen

/-- The block's column minimum at column `m`. -/
def blkColMin (x0 : Vec Ideal S1x2048x3 .f32) (x1 : Vec Ideal S1x2048x1 .f32) (x2 : Vec Ideal S1x3x4096 .f32) (m : Fin 4096) : EReal :=
  (Finset.univ : Finset (Fin 2048)).fold min Chamfer.wInf (fun n' => blkCross x0 x2 n' m + x1 (ix3 0 n' 0))

/-- The minimum over the rows (axis 0) of a `[2048, 4096]` vector from +∞, read at column `m`: the fold of `min`
    from +∞ over the rows of the entries of that column. -/
private theorem colMin_apply (src : FVec Ideal S2048x4096 .f32) (h : S2048x4096.Reduces [0] S4096) (hφ : FKind.Formats .f32)
    (hacc : (0x7F800000#32 : BitVec 32) = FKind.minimumf.neutral .f32 hφ) (m : Fin 4096) :
    multiReduction (F := Ideal) .minimumf [0] S4096 src 0x7F800000#32 h hφ hacc (ix1 m)
      = (Finset.univ : Finset (Fin 2048)).fold min Chamfer.wInf (fun n' => src (ix2 n' m)) := by
  refine (multiReduction_minimumf_eq_fold src _ h hφ hacc (ix1 m)).trans ?_
  refine (h.fold_filter_drop_single _ _ src (ix1 m)).trans ?_
  show (Finset.univ : Finset (Fin 2048)).fold min Chamfer.wInf (src ∘ h.lift (ix1 m)) = _
  refine congrArg (fun f => (Finset.univ : Finset (Fin 2048)).fold min Chamfer.wInf f)
    (funext fun n' => congrArg src (funext fun ax => Fin.ext ?_))
  match ax with
  | ⟨0, _⟩ => rfl
  | ⟨1, _⟩ => rfl

theorem pay2_apply (x0 : Vec Ideal S1x2048x3 .f32) (x1 : Vec Ideal S1x2048x1 .f32) (x2 : Vec Ideal S1x3x4096 .f32) (m : Fin 4096) :
    k0_pay2 (F := Ideal) (k0_pay8 x1) (k0_pay10 x0 x2) (ix2 0 m) = blkColMin x0 x1 x2 m := by
  unfold k0_pay2 blkColMin
  refine (shapeCast_a_1a_apply _ _ 0 m).trans ?_
  refine (colMin_apply _ _ _ _ m).trans ?_
  refine congrArg (fun f => (Finset.univ : Finset (Fin 2048)).fold min Chamfer.wInf f) (funext fun n' => ?_)
  refine (addf_apply _ _ _).trans ?_
  exact congrArg₂ (· + ·) (pay10_apply x0 x2 n' m)
    ((Cert.RowOps.broadcastTo_a1_ab_apply _ _ n' m).trans (pay8_apply x1 n'))

theorem pay4_apply (x0 : Vec Ideal S1x2048x3 .f32) (x1 : Vec Ideal S1x2048x1 .f32) (x2 : Vec Ideal S1x3x4096 .f32) (m : Fin 4096) :
    k0_pay4 (F := Ideal) (k0_pay8 x1) (k0_pay10 x0 x2) (ix2 0 m) = blkColMin x0 x1 x2 m := by
  unfold k0_pay4
  refine (congrFun (shapeCast_self _ _) _).trans ?_
  exact pay2_apply x0 x1 x2 m

theorem pay6_apply (x0 : Vec Ideal S1x2048x3 .f32) (x1 : Vec Ideal S1x2048x1 .f32) (x2 : Vec Ideal S1x3x4096 .f32)
    (xs : Vec Ideal S1x4096 .f32) (m : Fin 4096) :
    k0_pay6 (F := Ideal) (k0_pay8 x1) (k0_pay10 x0 x2) xs (ix2 0 m) = min (xs (ix2 0 m)) (blkColMin x0 x1 x2 m) := by
  unfold k0_pay6
  refine (congrFun (shapeCast_self _ _) _).trans ?_
  refine (minimumf_apply _ _ _).trans ?_
  exact congrArg (min (xs (ix2 0 m))) (pay2_apply x0 x1 x2 m)

end Cert.KernelIdeal.Val

end
-- ==== Proof.Val.Rows.lean ====
/-
  The row side of the body at an index: the sum over the rows of the x block of (the minimum over y of
  (−2 x·y + |y|²), from +∞, plus |x|²); the casts that carry that one number into the first output's buffer, alone
  or added to the running sum; and the closing sum over the columns of (minimum + |y|²).
-/
import proofs.«120560_g4922032521243_cont_8to1_c_580_11_alg».proof.Proof.Val.Cross

noncomputable section

namespace Cert.KernelIdeal.Val

open Idealize.ShloMosaic Idealize.ShloMosaic.TcCoe Idealize.ShloMosaic.ValueIdx Idealize.SL.Sem
open Cert.KernelIdeal Cert.KernelIdeal.Gen

/-- The block's sum of row minima. -/
def blkRowSum (x0 : Vec Ideal S1x2048x3 .f32) (x1 : Vec Ideal S1x2048x1 .f32) (x2 : Vec Ideal S1x3x4096 .f32) (x3 : Vec Ideal S1x1x4096 .f32) : EReal :=
  ∑ n' : Fin 2048, ((Finset.univ : Finset (Fin 4096)).fold min Chamfer.wInf (fun m => blkCross x0 x2 n' m + x3 (ix3 0 0 m)) + x1 (ix3 0 n' 0))

/-! ## One-axis minimum, and the two total sums re-indexed by a coordinate -/

/-- A minimum reduction over ONE axis, at the ideal values: the fold of `min` from the accumulator's value over that
    axis's coordinates. -/
private theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The minimum over the 4096 columns of a `[2048, 4096]` vector, from +∞, read at row `n'`. -/
private theorem rowMin_apply (src : FVec Ideal S2048x4096 .f32) (n' : Fin 2048) :
    multiReduction (F := Ideal) .minimumf [1] S2048 src 0x7F800000#32 reduces_S2048x4096_S2048 (.inl rfl) rfl (ix1 n')
      = (Finset.univ : Finset (Fin 4096)).fold min Chamfer.wInf (fun m => src (ix2 n' m)) := by
  refine (multiReduction_minimumf_single src _ reduces_S2048x4096_S2048 _ _ (ix1 n')).trans ?_
  refine congrArg (fun f => Finset.fold min Chamfer.wInf f (Finset.univ : Finset (Fin 4096)))
    (funext fun m => congrArg src (funext fun ax => Fin.ext ?_))
  match ax with
  | ⟨0, _⟩ => rfl
  | ⟨1, _⟩ => rfl

/-- The indices of a `[1, 2048, 1]` block are its middle coordinates. -/
private def rowIdxEquiv : S1x2048x1.Idx ≃ Fin 2048 where
  toFun i := i 1
  invFun n := ix3 0 n 0
  left_inv i := funext fun a => Fin.ext (by
    match a with
    | ⟨0, _⟩ => have : (i 0).val < 1 := (i 0).isLt; show 0 = (i 0).val; omega
    | ⟨1, _⟩ => rfl
    | ⟨2, _⟩ => have : (i 2).val < 1 := (i 2).isLt; show 0 = (i 2).val; omega)
  right_inv _ := rfl

/-- So a sum over them is the sum over the 2048 rows. -/
private theorem sum_rowIdx (f : S1x2048x1.Idx → EReal) : ∑ i, f i = ∑ n' : Fin 2048, f (ix3 0 n' 0) :=
  (Equiv.sum_comp rowIdxEquiv.symm f).symm

/-- The indices of a `[1, 1, 4096]` block are its last coordinates. -/
private def colIdxEquiv : S1x1x4096.Idx ≃ Fin 4096 where
  toFun i := i 2
  invFun m := ix3 0 0 m
  left_inv i := funext fun a => Fin.ext (by
    match a with
    | ⟨0, _⟩ => have : (i 0).val < 1 := (i 0).isLt; show 0 = (i 0).val; omega
    | ⟨1, _⟩ => have : (i 1).val < 1 := (i 1).isLt; show 0 = (i 1).val; omega
    | ⟨2, _⟩ => rfl)
  right_inv _ := rfl

/-- So a sum over them is the sum over the 4096 columns. -/
private theorem sum_colIdx (f : S1x1x4096.Idx → EReal) : ∑ i, f i = ∑ m : Fin 4096, f (ix3 0 0 m) :=
  (Equiv.sum_comp colIdxEquiv.symm f).symm

/-- Every axis of the one-entry shape has size one. -/
private theorem size_S1 : ∀ b, S1.size b = 1 := fun b => by
  match b with
  | ⟨0, _⟩ => rfl

/-! ## One number carried to a `[1, 1, 1]` buffer -/

/-- A one-entry vector cast to `[1, 1, 1]`, its entry taken out, spread over `[1, 1]` and cast to `[1, 1, 1]`: the entry. -/
private theorem unitSpread_apply {α : Type} (s : S1.Idx → α) (j : S1x1x1.Idx) :
    shapeCast S1x1x1 (broadcast S1x1 (extractAt ![0, 0, 0] (shapeCast S1x1x1 s shapeCasts_S1_S1x1x1) inpos_S1x1x1_p0_0_0))
      shapeCasts_S1x1_S1x1x1 j = s (ix1 0) :=
  shapeCast_apply s shapeCasts_S1_S1x1x1 _ (ix1 0) (by
    rw [Shape.rowMajor_val_one, Shape.rowMajor_val_three]; rfl)

theorem pay11_apply (x0 : Vec Ideal S1x2048x3 .f32) (x1 : Vec Ideal S1x2048x1 .f32) (x2 : Vec Ideal S1x3x4096 .f32) (x3 : Vec Ideal S1x1x4096 .f32) :
    k0_pay11 (F := Ideal) x0 x1 x2 x3 (ix1 0) = blkRowSum x0 x1 x2 x3 := by
  unfold k0_pay11 blkRowSum
  refine (Ideal.multiReduction_add_total _ _ reduces_S1x2048x1_S1 size_S1 _ _ (ix1 0)).trans ?_
  refine (sum_rowIdx _).trans (Finset.sum_congr rfl fun n' _ => ?_)
  refine (shapeCast_ab_1ab_apply _ shapeCasts_S2048x1_S1x2048x1 0 n' 0).trans ?_
  refine (addf_apply _ _ _).trans ?_
  refine congrArg₂ (· + ·) ?_ (pay8_apply x1 n')
  refine (Cert.RowOps.shapeCast_a_a1_apply _ shapeCasts_S2048_S2048x1 n' 0).trans ?_
  refine (rowMin_apply _ n').trans ?_
  refine congrArg (fun f => Finset.fold min Chamfer.wInf f (Finset.univ : Finset (Fin 4096))) (funext fun m => ?_)
  refine (addf_apply _ _ _).trans ?_
  refine congrArg₂ (· + ·) (pay10_apply x0 x2 n' m) ?_
  refine (broadcastTo_1b_ab_apply _ broadcasts_S1x4096_S2048x4096 n' m).trans ?_
  exact pay9_apply x3 m

theorem pay3_apply (s : FVec Ideal S1 .f32) : k0_pay3 (F := Ideal) s (ix3 0 0 0) = s (ix1 0) := by
  unfold k0_pay3 k0_pay1
  exact unitSpread_apply s _

theorem pay5_apply (s : FVec Ideal S1 .f32) (xo4 : Vec Ideal S1x1x1 .f32) :
    k0_pay5 (F := Ideal) s xo4 (ix3 0 0 0) = xo4 (ix3 0 0 0) + s (ix1 0) := by
  unfold k0_pay5 k0_pay1
  refine (addf_apply _ _ _).trans ?_
  exact congrArg₂ (· + ·) (congrFun (shapeCast_self _ shapeCasts_S1x1x1_S1x1x1) (ix3 0 0 0)) (unitSpread_apply s _)

theorem pay7_apply (x3 : Vec Ideal S1x1x4096 .f32) (sc : Vec Ideal S1x4096 .f32) :
    k0_pay7 (F := Ideal) (k0_pay9 x3) sc (ix3 0 0 0) = ∑ m : Fin 4096, (sc (ix2 0 m) + x3 (ix3 0 0 m)) := by
  unfold k0_pay7
  refine (unitSpread_apply _ _).trans ?_
  refine (Ideal.multiReduction_add_total _ _ reduces_S1x1x4096_S1 size_S1 _ _ (ix1 0)).trans ?_
  refine (sum_colIdx _).trans (Finset.sum_congr rfl fun m _ => ?_)
  refine (shapeCast_ab_1ab_apply _ shapeCasts_S1x4096_S1x1x4096 0 0 m).trans ?_
  refine (addf_apply _ _ _).trans ?_
  exact congrArg (fun z => sc (ix2 0 m) + z) (pay9_apply x3 m)

end Cert.KernelIdeal.Val

end
-- ==== Proof.Val.Clouds.lean ====
/-
  The two argument clouds as launched on a core, the grid point of a batch entry and a half, and the four input
  blocks at a point as vectors of their literal shapes.
-/
import proofs.«120560_g4922032521243_cont_8to1_c_580_11_alg».proof.Proof.BodyIdeal.Frame
import proofs.«120560_g4922032521243_cont_8to1_c_580_11_alg».proof.Proof.Spec
import Idealize.ShloMosaic.Lib.ValueIdx

noncomputable section

namespace Cert.KernelIdeal.Val

open Idealize.ShloMosaic Idealize.ShloMosaic.TcCoe Idealize.ShloMosaic.ValueIdx Idealize.SL.Sem
open Cert.KernelIdeal Cert.KernelIdeal.Gen Cert.KernelIdeal.Body

variable (m : (ℓ : Loc nD τ sig) → Buf (Elt Ideal) ℓ)

/-- The first argument array as launched on core `c`. -/
def argX (c : Dev nD) : FVec Ideal S4x4096x3 .f32 := m ((c.tc : Thread nD τ).loc main_arg0)
/-- The second argument array as launched on core `c`. -/
def argY (c : Dev nD) : FVec Ideal S4x4096x3 .f32 := m ((c.tc : Thread nD τ).loc main_arg1)
/-- The first cloud on core `c`. -/
def xs (c : Dev nD) : Chamfer.Cloud EReal := fun b n k => argX m c (ix3 b n k)
/-- The second cloud on core `c`. -/
def ys (c : Dev nD) : Chamfer.Cloud EReal := fun b n k => argY m c (ix3 b n k)

/-- The grid point of batch entry `b` and half `h`: position 2·b + h. -/
def pt (b : Fin 4) (h : Fin 2) : Fin cfg0.N := ⟨2 * b.val + h.val, by have : cfg0.N = 8 := N_0; omega⟩

theorem pt_val (b : Fin 4) (h : Fin 2) : (pt b h).val = 2 * b.val + h.val := rfl

/-- The input blocks at a point, at their literal shapes. -/
abbrev blk0 (c : Dev nD) (t : Fin cfg0.N) : Vec Ideal S1x2048x3 .f32 := iblk m c 0 t
abbrev blk1 (c : Dev nD) (t : Fin cfg0.N) : Vec Ideal S1x2048x1 .f32 := iblk m c 1 t
abbrev blk2 (c : Dev nD) (t : Fin cfg0.N) : Vec Ideal S1x3x4096 .f32 := iblk m c 2 t
abbrev blk3 (c : Dev nD) (t : Fin cfg0.N) : Vec Ideal S1x1x4096 .f32 := iblk m c 3 t

end Cert.KernelIdeal.Val

end
-- ==== Proof.Val.BlocksX.lean ====
/-
  The blocks of the two arrays the host computes from the first cloud: −2·x, a half of the points at a time, and
  |x|² of the same half.
-/
import proofs.«120560_g4922032521243_cont_8to1_c_580_11_alg».proof.Proof.Val.Clouds
import Idealize.ShloMosaic.Lib.Pipeline.Value
import Idealize.ShloMosaic.Lib.StableHlo.Run
import Idealize.ShloMosaic.PureOps.Ideal.Laws

noncomputable section

namespace Cert.KernelIdeal.Val

open Idealize.ShloMosaic Idealize.ShloMosaic.TcCoe Idealize.ShloMosaic.ValueIdx Idealize.SL.Sem
open Cert.KernelIdeal Cert.KernelIdeal.Gen Cert.KernelIdeal.Body

variable (m : (ℓ : Loc nD τ sig) → Buf (Elt Ideal) ℓ)

/-- The host's first product, as a function of the first argument array. -/
private theorem v1_eq (c : Dev nD) :
    (V m c main_call0_v1 : S4x4096x3.Idx → EReal) =
      mulf (broadcastInDim S4x4096x3 ![] bcast_S_S4x4096x3 (constant (F := Ideal) S_ .f32 0xC0000000#32)) (argX m c) := by
  show StableHlo.after hostOps0 (fun b => m (c, b)) (Proc.devRef .tc main_call0_v1) = _
  after_results
  rfl

/-- The host's sum of squares, kept with a unit last axis, as a function of the first argument array. -/
private theorem v4_eq (c : Dev nD) :
    (V m c main_call0_v4 : S4x4096x1.Idx → EReal) =
      broadcastInDim S4x4096x1 ![0, 1] bcast_S4x4096_S4x4096x1_0_1
        (Host.reduceAdd (F := Ideal) (mulf (argX m c) (argX m c)) (constant (F := Ideal) S_ .f32 0x00000000#32) reducesTo_S4x4096x3_S4x4096_d2 h_S_) := by
  show StableHlo.after hostOps0 (fun b => m (c, b)) (Proc.devRef .tc main_call0_v4) = _
  after_results
  rfl

/-- −2·x at an index. -/
private theorem v1_apply (c : Dev nD) (b : Fin 4) (n : Fin 4096) (k : Fin 3) :
    (V m c main_call0_v1 : S4x4096x3.Idx → EReal) (ix3 b n k) = Chamfer.E.dbl (xs m c) b n k := by
  rw [v1_eq, mulf_apply,
    broadcastInDim_apply ![] bcast_S_S4x4096x3 (constant (F := Ideal) S_ .f32 0xC0000000#32) (ix3 b n k) ix0 (fun a => a.elim0),
    constant_apply]
  rfl

/-- |x|² at an index. -/
private theorem v4_apply (c : Dev nD) (b : Fin 4) (n : Fin 4096) :
    (V m c main_call0_v4 : S4x4096x1.Idx → EReal) (ix3 b n 0) = Chamfer.E.sq (xs m c) b n := by
  rw [v4_eq,
    broadcastInDim_apply ![0, 1] bcast_S4x4096_S4x4096x1_0_1 _ (ix3 b n 0) (ix2 b n) (fun a => match a with
      | ⟨0, _⟩ => by show b.val = if (4 : Nat) = 1 then 0 else b.val; rw [if_neg (by decide)]
      | ⟨1, _⟩ => by show n.val = if (4096 : Nat) = 1 then 0 else n.val; rw [if_neg (by decide)])]
  simp only [Host.reduceAdd, Ideal.hostReduceAdd_def]
  rw [Ideal.hostReduceAdd_single reducesTo_S4x4096x3_S4x4096_d2 (by decide)]
  unfold Chamfer.E.sq xs
  refine congrArg (_ + ·) (Finset.sum_congr rfl fun k _ => ?_)
  rw [mulf_apply]
  have hk : (Shape.Reduces.lift (s := S4x4096x3) (t := S4x4096) (a := 2) (by decide) (ix2 b n) k : S4x4096x3.Idx) = ix3 b n k :=
    funext fun a => Fin.ext (by match a with | ⟨0, _⟩ => rfl | ⟨1, _⟩ => rfl | ⟨2, _⟩ => rfl)
  exact congrArg (fun i => argX m c i * argX m c i) hk

/-- The index maps of windows 0 and 1, decided over the grid: batch entry, half, and 0 on the last axis. -/
private theorem idx_facts : ∀ t : Fin cfg0.N,
    win0_0.index t (0 : Fin 3) = t.val / 2 ∧ win0_0.index t (1 : Fin 3) = t.val % 2 ∧ win0_0.index t (2 : Fin 3) = 0
    ∧ win0_1.index t (0 : Fin 3) = t.val / 2 ∧ win0_1.index t (1 : Fin 3) = t.val % 2 ∧ win0_1.index t (2 : Fin 3) = 0 :=
  (by decide +kernel : ∀ t : Fin grid0.N, _)

theorem blk0_apply (c : Dev nD) (b : Fin 4) (h : Fin 2) (n' : Fin 2048) (k : Fin 3) :
    blk0 m c (pt b h) (ix3 0 n' k) = Chamfer.E.dbl (xs m c) b (Chamfer.half h n') k := by
  unfold blk0 iblk
  show V m c main_call0_v1 (((cfg0.win 0).blk (pt b h)).view.emb (ix3 0 n' k)) = _
  have hi : ((cfg0.win 0).blk (pt b h)).view.emb (ix3 0 n' k) = ix3 b (Chamfer.half h n') k := by
    obtain ⟨e0, e1, e2, -, -, -⟩ := idx_facts (pt b h)
    have hp := pt_val b h
    funext a; apply Fin.ext
    match a with
    | ⟨0, _⟩ => show win0_0.index (pt b h) (0 : Fin 3) * 1 + 1 * (0 : ℕ) = b.val; omega
    | ⟨1, _⟩ => show win0_0.index (pt b h) (1 : Fin 3) * 2048 + 1 * n'.val = 2048 * h.val + n'.val; omega
    | ⟨2, _⟩ => show win0_0.index (pt b h) (2 : Fin 3) * 3 + 1 * k.val = k.val; omega
  rw [hi]
  exact v1_apply m c b (Chamfer.half h n') k

theorem blk1_apply (c : Dev nD) (b : Fin 4) (h : Fin 2) (n' : Fin 2048) :
    blk1 m c (pt b h) (ix3 0 n' 0) = Chamfer.E.sq (xs m c) b (Chamfer.half h n') := by
  unfold blk1 iblk
  show V m c main_call0_v4 (((cfg0.win 1).blk (pt b h)).view.emb (ix3 0 n' 0)) = _
  have hi : ((cfg0.win 1).blk (pt b h)).view.emb (ix3 0 n' 0) = ix3 b (Chamfer.half h n') 0 := by
    obtain ⟨-, -, -, e0, e1, e2⟩ := idx_facts (pt b h)
    have hp := pt_val b h
    funext a; apply Fin.ext
    match a with
    | ⟨0, _⟩ => show win0_1.index (pt b h) (0 : Fin 3) * 1 + 1 * (0 : ℕ) = b.val; omega
    | ⟨1, _⟩ => show win0_1.index (pt b h) (1 : Fin 3) * 2048 + 1 * n'.val = 2048 * h.val + n'.val; omega
    | ⟨2, _⟩ => show win0_1.index (pt b h) (2 : Fin 3) * 1 + 1 * (0 : ℕ) = 0; omega
  rw [hi]
  exact v4_apply m c b (Chamfer.half h n')

end Cert.KernelIdeal.Val

end
-- ==== Proof.Val.BlocksY.lean ====
/-
  The blocks of the two arrays the host computes from the second cloud: its transpose, one batch entry whole, and
  |y|² of that batch entry.
-/
import proofs.«120560_g4922032521243_cont_8to1_c_580_11_alg».proof.Proof.Val.Clouds
import Idealize.ShloMosaic.Lib.Pipeline.Value
import Idealize.ShloMosaic.Lib.StableHlo.Run
import Idealize.ShloMosaic.PureOps.Ideal.Laws

noncomputable section

namespace Cert.KernelIdeal.Val

open Idealize.ShloMosaic Idealize.ShloMosaic.TcCoe Idealize.ShloMosaic.ValueIdx Idealize.SL.Sem
open Cert.KernelIdeal Cert.KernelIdeal.Gen Cert.KernelIdeal.Body

variable (m : (ℓ : Loc nD τ sig) → Buf (Elt Ideal) ℓ)

/-! ## The two host arrays when the region is entered -/

/-- Window 2's array is the transpose of the second argument array to [4, 3, 4096]. -/
private theorem V5_eq (c : Dev nD) :
    (V m c main_call0_v5 : S4x3x4096.Idx → EReal)
      = transpose S4x3x4096 [0, 2, 1] (argY m c) transposes_S4x4096x3_S4x3x4096_0_2_1 := by
  show StableHlo.after hostOps0 (fun b => m (c, b)) (Proc.devRef .tc main_call0_v5) = _
  after_results
  rfl

/-- Window 3's array is the sum over the coordinate axis, from the zero word, of the second argument array times
    itself, kept as [4, 1, 4096]. -/
private theorem V8_eq (c : Dev nD) :
    (V m c main_call0_v8 : S4x1x4096.Idx → EReal)
      = broadcastInDim S4x1x4096 ![0, 2] bcast_S4x4096_S4x1x4096_0_2
          (Host.reduceAdd (F := Ideal) (mulf (F := Ideal) (argY m c) (argY m c)) (constant (F := Ideal) S_ .f32 0x00000000#32)
            reducesTo_S4x4096x3_S4x4096_d2 h_S_) := by
  show StableHlo.after hostOps0 (fun b => m (c, b)) (Proc.devRef .tc main_call0_v8) = _
  after_results
  rfl

/-- The transposed array at (b, k, m) is coordinate k of point m of batch entry b of the second cloud. -/
private theorem V5_apply (c : Dev nD) (b : Fin 4) (k : Fin 3) (mm : Fin 4096) :
    V m c main_call0_v5 (ix3 b k mm) = ys m c b mm k := by
  rw [V5_eq]
  exact transpose_apply [0, 2, 1] (argY m c) transposes_S4x4096x3_S4x3x4096_0_2_1 (ix3 b k mm) (ix3 b mm k)
    (fun a => match a with
      | ⟨0, _⟩ => rfl
      | ⟨1, _⟩ => rfl
      | ⟨2, _⟩ => rfl)

/-- The [4, 1, 4096] array at (b, 0, m) is |y|² of point m of batch entry b: the zero word plus the sum over the three
    coordinates of the squares. -/
private theorem V8_apply (c : Dev nD) (b : Fin 4) (mm : Fin 4096) :
    V m c main_call0_v8 (ix3 b 0 mm) = Chamfer.E.sq (ys m c) b mm := by
  rw [V8_eq]
  refine (broadcastInDim_apply _ bcast_S4x4096_S4x1x4096_0_2 _ (ix3 b (0 : Fin 1) mm) (ix2 b mm) (fun a => match a with
    | ⟨0, _⟩ => by show b.val = if (4 : Nat) = 1 then 0 else b.val; rw [if_neg (by decide)]
    | ⟨1, _⟩ => by show mm.val = if (4096 : Nat) = 1 then 0 else mm.val; rw [if_neg (by decide)])).trans ?_
  generalize hy : mulf (F := Ideal) (argY m c) (argY m c) = y0
  simp only [Host.reduceAdd, Ideal.hostReduceAdd_def]
  rw [Ideal.hostReduceAdd_single reducesTo_S4x4096x3_S4x4096_d2 (by decide)]
  unfold Chamfer.E.sq
  refine congrArg₂ (· + ·) rfl (Finset.sum_congr rfl fun k _ => ?_)
  subst hy
  -- the index the sum inserts coordinate k into is (b, m, k)
  have e : (Shape.Reduces.lift (by decide : S4x4096x3.Reduces [2] S4x4096) (ix2 b mm) k) = ix3 b mm k :=
    funext fun a => Fin.ext (by match a with | ⟨0, _⟩ => rfl | ⟨1, _⟩ => rfl | ⟨2, _⟩ => rfl)
  exact congrArg (fun i => argY m c i * argY m c i) e

/-! ## The index maps of windows 2 and 3 over the grid -/

/-- Window 2's block index at point t is (t / 2, 0, 0): the batch entry, whatever the half. -/
private theorem idx_facts_w2 : ∀ t : Fin cfg0.N, win0_2.index t (0 : Fin 3) = t.val / 2 ∧ win0_2.index t (1 : Fin 3) = 0
    ∧ win0_2.index t (2 : Fin 3) = 0 :=
  (by decide +kernel : ∀ t : Fin grid0.N, win0_2.index t (0 : Fin 3) = t.val / 2 ∧ win0_2.index t (1 : Fin 3) = 0
    ∧ win0_2.index t (2 : Fin 3) = 0)

/-- Window 3's block index at point t is (t / 2, 0, 0) likewise. -/
private theorem idx_facts_w3 : ∀ t : Fin cfg0.N, win0_3.index t (0 : Fin 3) = t.val / 2 ∧ win0_3.index t (1 : Fin 3) = 0
    ∧ win0_3.index t (2 : Fin 3) = 0 :=
  (by decide +kernel : ∀ t : Fin grid0.N, win0_3.index t (0 : Fin 3) = t.val / 2 ∧ win0_3.index t (1 : Fin 3) = 0
    ∧ win0_3.index t (2 : Fin 3) = 0)

/-! ## The blocks -/

/-- Window 2's block at point 2·b + h is batch entry b of the transposed cloud: element (0, k, m) of the block is the
    array's element (b·1 + 0, 0·3 + k, 0·4096 + m). -/
theorem blk2_apply (c : Dev nD) (b : Fin 4) (h : Fin 2) (k : Fin 3) (mm : Fin 4096) :
    blk2 m c (pt b h) (ix3 0 k mm) = ys m c b mm k := by
  rw [← V5_apply m c b k mm]
  unfold blk2 iblk
  show V m c main_call0_v5 (((cfg0.win 2).blk (pt b h)).view.emb (ix3 0 k mm)) = V m c main_call0_v5 (ix3 b k mm)
  obtain ⟨e0, e1, e2⟩ := idx_facts_w2 (pt b h)
  have hp := pt_val b h
  have hh : h.val < 2 := h.isLt
  refine congrArg (V m c main_call0_v5) (funext fun a => Fin.ext ?_)
  match a with
  | ⟨0, _⟩ => show win0_2.index (pt b h) (0 : Fin 3) * 1 + 1 * 0 = b.val; omega
  | ⟨1, _⟩ => show win0_2.index (pt b h) (1 : Fin 3) * 3 + 1 * k.val = k.val; omega
  | ⟨2, _⟩ => show win0_2.index (pt b h) (2 : Fin 3) * 4096 + 1 * mm.val = mm.val; omega

/-- Window 3's block at point 2·b + h is batch entry b of |y|²: element (0, 0, m) of the block is the array's
    element (b·1 + 0, 0·1 + 0, 0·4096 + m). -/
theorem blk3_apply (c : Dev nD) (b : Fin 4) (h : Fin 2) (mm : Fin 4096) :
    blk3 m c (pt b h) (ix3 0 0 mm) = Chamfer.E.sq (ys m c) b mm := by
  rw [← V8_apply m c b mm]
  unfold blk3 iblk
  show V m c main_call0_v8 (((cfg0.win 3).blk (pt b h)).view.emb (ix3 0 0 mm)) = V m c main_call0_v8 (ix3 b 0 mm)
  obtain ⟨e0, e1, e2⟩ := idx_facts_w3 (pt b h)
  have hp := pt_val b h
  have hh : h.val < 2 := h.isLt
  refine congrArg (V m c main_call0_v8) (funext fun a => Fin.ext ?_)
  match a with
  | ⟨0, _⟩ => show win0_3.index (pt b h) (0 : Fin 3) * 1 + 1 * 0 = b.val; omega
  | ⟨1, _⟩ => show win0_3.index (pt b h) (1 : Fin 3) * 1 + 1 * 0 = 0; omega
  | ⟨2, _⟩ => show win0_3.index (pt b h) (2 : Fin 3) * 4096 + 1 * mm.val = mm.val; omega

end Cert.KernelIdeal.Val

end
-- ==== Proof.Val.Held.lean ====
/-
  What the outputs' buffers and the scratch hold after the two points of a batch entry, as the kernel's arrangement
  of the loss: after the starting point the first half's sum of row minima and column minima; after the closing point
  the batch entry's two outputs.
-/
import proofs.«120560_g4922032521243_cont_8to1_c_580_11_alg».proof.Proof.BodyIdeal.Pieces
import proofs.«120560_g4922032521243_cont_8to1_c_580_11_alg».proof.Proof.Val.Cols
import proofs.«120560_g4922032521243_cont_8to1_c_580_11_alg».proof.Proof.Val.Rows
import proofs.«120560_g4922032521243_cont_8to1_c_580_11_alg».proof.Proof.Val.BlocksX
import proofs.«120560_g4922032521243_cont_8to1_c_580_11_alg».proof.Proof.Val.BlocksY

noncomputable section

namespace Cert.KernelIdeal.Val

open Idealize.ShloMosaic Idealize.ShloMosaic.TcCoe Idealize.ShloMosaic.ValueIdx Idealize.SL.Sem
open Cert.KernelIdeal Cert.KernelIdeal.Gen Cert.KernelIdeal.Body

variable (m : (ℓ : Loc nD τ sig) → Buf (Elt Ideal) ℓ)

/-! ## The two points of a batch entry -/

theorem pt_start_even (b : Fin 4) : (pt b 0).val % 2 = 0 := by
  show (2 * b.val + 0) % 2 = 0
  omega

theorem pt_close_odd (b : Fin 4) : ¬(pt b 1).val % 2 = 0 := by
  show ¬(2 * b.val + 1) % 2 = 0
  omega

theorem pt_close_pred (b : Fin 4) : (pt b 1).val - 1 = (pt b 0).val := by
  show 2 * b.val + 1 - 1 = 2 * b.val + 0
  omega

theorem heldAt_congr (c : Dev nD) {n n' : ℕ} (e : n = n') (hn : n < cfg0.N) (hn' : n' < cfg0.N) :
    heldAt (F := Ideal) m c n hn = heldAt (F := Ideal) m c n' hn' := by
  subst e; rfl

/-! ## The blocks' arithmetic is the clouds' -/

/-- −2 x·y of a row of the x block against a column of the y block is −2 x·y of the two points. -/
theorem cross_blk (c : Dev nD) (b : Fin 4) (h : Fin 2) (n' : Fin 2048) (mm : Fin 4096) :
    blkCross (blk0 m c (pt b h)) (blk2 m c (pt b h)) n' mm
      = Chamfer.E.cross (xs m c) (ys m c) b (Chamfer.half h n') mm := by
  unfold blkCross Chamfer.E.cross
  rw [blk0_apply m c b h n' 0, blk0_apply m c b h n' 1, blk0_apply m c b h n' 2,
    blk2_apply m c b h 0 mm, blk2_apply m c b h 1 mm, blk2_apply m c b h 2 mm]

/-- The block's sum of row minima is the half's. -/
theorem rowSum_blk (c : Dev nD) (b : Fin 4) (h : Fin 2) :
    blkRowSum (blk0 m c (pt b h)) (blk1 m c (pt b h)) (blk2 m c (pt b h)) (blk3 m c (pt b h)) = Chamfer.E.halfSum (xs m c) (ys m c) b h := by
  unfold blkRowSum Chamfer.E.halfSum Chamfer.E.rowMin
  refine Finset.sum_congr rfl fun n' _ => ?_
  rw [blk1_apply m c b h n']
  refine congrArg (· + _) (Finset.fold_congr fun mm _ => ?_)
  rw [cross_blk m c b h n' mm, blk3_apply m c b h mm]

/-- The block's column minimum is the half's. -/
theorem colMin_blk (c : Dev nD) (b : Fin 4) (h : Fin 2) (mm : Fin 4096) :
    blkColMin (blk0 m c (pt b h)) (blk1 m c (pt b h)) (blk2 m c (pt b h)) mm = Chamfer.E.colMin (xs m c) (ys m c) b h mm := by
  unfold blkColMin Chamfer.E.colMin
  refine Finset.fold_congr fun n' _ => ?_
  rw [cross_blk m c b h n' mm, blk1_apply m c b h n']

/-! ## The stored pieces at a grid point, over the point's blocks -/

theorem startO1At_pay (c : Dev nD) (t : Fin cfg0.N) (h : t.val % 2 = 0) :
    startO1At (F := Ideal) m c t h = k0_pay3 (k0_pay11 (blk0 m c t) (blk1 m c t) (blk2 m c t) (blk3 m c t)) := by
  unfold startO1At
  exact startO1_eq c (grid0.coords t) (buf0 t) (whole0 t) (buf1 t) (whole1 t) (buf2 t) (whole2 t) (buf3 t) (whole3 t) (buf4 t) (whole4 t) (buf5 t) (whole5 t) scratch (Memref.isWhole_whole _) _ _ _ (iblk m c 0 t) (iblk m c 1 t) (iblk m c 2 t) (iblk m c 3 t)

theorem startSAt_pay (c : Dev nD) (t : Fin cfg0.N) (h : t.val % 2 = 0) :
    startSAt (F := Ideal) m c t h = k0_pay4 (k0_pay8 (blk1 m c t)) (k0_pay10 (blk0 m c t) (blk2 m c t)) := by
  unfold startSAt
  exact startS_eq c (grid0.coords t) (buf0 t) (whole0 t) (buf1 t) (whole1 t) (buf2 t) (whole2 t) (buf3 t) (whole3 t) (buf4 t) (whole4 t) (buf5 t) (whole5 t) scratch (Memref.isWhole_whole _) _ _ _ (iblk m c 0 t) (iblk m c 1 t) (iblk m c 2 t) (iblk m c 3 t)

theorem closeO1At_pay (c : Dev nD) (t : Fin cfg0.N) (h : ¬t.val % 2 = 0) (xo4 : Vec Ideal S1x1x1 .f32) (xs : Vec Ideal S1x4096 .f32) :
    closeO1At (F := Ideal) m c t h xo4 xs = k0_pay5 (k0_pay11 (blk0 m c t) (blk1 m c t) (blk2 m c t) (blk3 m c t)) xo4 := by
  unfold closeO1At
  exact closeO1_eq c (grid0.coords t) (buf0 t) (whole0 t) (buf1 t) (whole1 t) (buf2 t) (whole2 t) (buf3 t) (whole3 t) (buf4 t) (whole4 t) (buf5 t) (whole5 t) scratch (Memref.isWhole_whole _) _ _ _ (iblk m c 0 t) (iblk m c 1 t) (iblk m c 2 t) (iblk m c 3 t) xo4 xs

theorem closeO2At_pay (c : Dev nD) (t : Fin cfg0.N) (h : ¬t.val % 2 = 0) (xo4 : Vec Ideal S1x1x1 .f32) (xs : Vec Ideal S1x4096 .f32) :
    closeO2At (F := Ideal) m c t h xo4 xs
      = k0_pay7 (k0_pay9 (blk3 m c t)) (k0_pay6 (k0_pay8 (blk1 m c t)) (k0_pay10 (blk0 m c t) (blk2 m c t)) xs) := by
  unfold closeO2At
  exact closeO2_eq c (grid0.coords t) (buf0 t) (whole0 t) (buf1 t) (whole1 t) (buf2 t) (whole2 t) (buf3 t) (whole3 t) (buf4 t) (whole4 t) (buf5 t) (whole5 t) scratch (Memref.isWhole_whole _) _ _ _ (iblk m c 0 t) (iblk m c 1 t) (iblk m c 2 t) (iblk m c 3 t) xo4 xs

/-! ## After the starting point -/

theorem held_start (c : Dev nD) (b : Fin 4) :
    (heldAt (F := Ideal) m c (pt b 0).val (pt b 0).isLt).1 (ix3 0 0 0) = Chamfer.E.halfSum (xs m c) (ys m c) b 0 := by
  rw [heldAt_start m c (pt b 0) (pt_start_even b)]
  dsimp only
  rw [startO1At_pay m c (pt b 0) (pt_start_even b)]
  refine (pay3_apply (k0_pay11 (blk0 m c (pt b 0)) (blk1 m c (pt b 0)) (blk2 m c (pt b 0)) (blk3 m c (pt b 0)))).trans ?_
  refine (pay11_apply (blk0 m c (pt b 0)) (blk1 m c (pt b 0)) (blk2 m c (pt b 0)) (blk3 m c (pt b 0))).trans ?_
  exact rowSum_blk m c b 0

theorem held_start_scratch (c : Dev nD) (b : Fin 4) (mm : Fin 4096) :
    (heldAt (F := Ideal) m c (pt b 0).val (pt b 0).isLt).2.2 (ix2 0 mm) = Chamfer.E.colMin (xs m c) (ys m c) b 0 mm := by
  rw [heldAt_start m c (pt b 0) (pt_start_even b)]
  dsimp only
  rw [startSAt_pay m c (pt b 0) (pt_start_even b)]
  refine (pay4_apply (blk0 m c (pt b 0)) (blk1 m c (pt b 0)) (blk2 m c (pt b 0)) mm).trans ?_
  exact colMin_blk m c b 0 mm

/-! ## After the closing point -/

theorem held_close_o1 (c : Dev nD) (b : Fin 4) :
    (heldAt (F := Ideal) m c (pt b 1).val (pt b 1).isLt).1 (ix3 0 0 0) = Chamfer.E.o1 (xs m c) (ys m c) b := by
  rw [heldAt_close m c (pt b 1) (pt_close_odd b)]
  dsimp only
  rw [closeO1At_pay m c (pt b 1) (pt_close_odd b)]
  refine (pay5_apply (k0_pay11 (blk0 m c (pt b 1)) (blk1 m c (pt b 1)) (blk2 m c (pt b 1)) (blk3 m c (pt b 1))) _).trans ?_
  rw [heldAt_congr m c (pt_close_pred b) _ (pt b 0).isLt, held_start m c b]
  refine congrArg (_ + ·) ?_
  refine (pay11_apply (blk0 m c (pt b 1)) (blk1 m c (pt b 1)) (blk2 m c (pt b 1)) (blk3 m c (pt b 1))).trans ?_
  exact rowSum_blk m c b 1

theorem held_close_o2 (c : Dev nD) (b : Fin 4) :
    (heldAt (F := Ideal) m c (pt b 1).val (pt b 1).isLt).2.1 (ix3 0 0 0) = Chamfer.E.o2 (xs m c) (ys m c) b := by
  rw [heldAt_close m c (pt b 1) (pt_close_odd b)]
  dsimp only
  rw [closeO2At_pay m c (pt b 1) (pt_close_odd b)]
  refine (pay7_apply (blk3 m c (pt b 1)) _).trans ?_
  unfold Chamfer.E.o2
  refine Finset.sum_congr rfl fun mm _ => ?_
  rw [pay6_apply (blk0 m c (pt b 1)) (blk1 m c (pt b 1)) (blk2 m c (pt b 1)) _ mm,
    heldAt_congr m c (pt_close_pred b) _ (pt b 0).isLt, held_start_scratch m c b mm,
    colMin_blk m c b 1 mm, blk3_apply m c b 1 mm]

end Cert.KernelIdeal.Val

end
-- ==== Proof.Val.Arrays.lean ====
/-
  The two output arrays after the region: entry b of each is what the closing point of batch entry b wrote back.
-/
import proofs.«120560_g4922032521243_cont_8to1_c_580_11_alg».proof.Proof.Val.Held
import Idealize.ShloMosaic.Lib.Pipeline.Value

noncomputable section

namespace Cert.KernelIdeal.Val

open Idealize.ShloMosaic Idealize.ShloMosaic.TcCoe Idealize.ShloMosaic.ValueIdx Idealize.SL.Sem
open Cert.KernelIdeal Cert.KernelIdeal.Gen Cert.KernelIdeal.Body
open Idealize.ShloMosaic.Pipeline (Dat)

variable (m : (ℓ : Loc nD τ sig) → Buf (Elt Ideal) ℓ)

/-- The first output array after the region. -/
def out1 (c : Dev nD) : FVec Ideal S4x1x1 .f32 := (dats (F := Ideal) m 0 c).arrAt 4 cfg0.N
/-- The second output array after the region. -/
def out2 (c : Dev nD) : FVec Ideal S4x1x1 .f32 := (dats (F := Ideal) m 0 c).arrAt 5 cfg0.N

/-- A point at an odd position is the closing point of a batch entry: position 2·b + 1. -/
private theorem exists_pt_of_odd (t : Fin cfg0.N) (h : t.val % 2 = 1) : ∃ b : Fin 4, t = pt b 1 := by
  have hN : t.val < 8 := lt_of_lt_of_eq t.isLt (show cfg0.N = 8 from N_0)
  refine ⟨⟨t.val / 2, by omega⟩, Fin.ext ?_⟩
  rw [pt_val]
  show t.val = 2 * (t.val / 2) + 1
  omega

/-! ## The first output's window -/

/-- The first coordinate of window 4's block index at a point is the point's batch entry; the other two are zero. -/
private theorem idx4 : ∀ t : Fin cfg0.N, win0_4.index t (0 : Fin 3) = t.val / 2
    ∧ win0_4.index t (1 : Fin 3) = 0 ∧ win0_4.index t (2 : Fin 3) = 0 :=
  (by decide +kernel : ∀ t : Fin grid0.N, win0_4.index t (0 : Fin 3) = t.val / 2
    ∧ win0_4.index t (1 : Fin 3) = 0 ∧ win0_4.index t (2 : Fin 3) = 0)

/-- The whole array of window 4: entry b is the first output of batch entry b. -/
private def G1 (c : Dev nD) : FVec Ideal S4x1x1 .f32 := fun i => Chamfer.E.o1 (xs m c) (ys m c) (i 0)

/-- What a closing point writes back to window 4's array is its block of the whole array: the block is the
    one element at (b, 0, 0), and the buffer holds the batch entry's output there. -/
private theorem flushed4_eq (c : Dev nD) (t : Fin cfg0.N) (hf : (cfg0.win 4).flush t = true) :
    (dats (F := Ideal) m 0 c).flushed 4 t = ((cfg0.win 4).blk t).view.read (Elt Ideal) (G1 m c) := by
  show (cfg0.win 4).cut (grid0.coords t) ((dats m 0 c).after 4 t) = _
  rw [after_4]
  obtain ⟨b, rfl⟩ := exists_pt_of_odd t ((flush0_4 t).mp hf)
  funext j
  have h0 : (j 0).val < 1 := (j 0).isLt
  have hj : (cfg0.win 4).xinj (grid0.coords (pt b 1)) j = ix3 0 0 0 := by
    funext a; apply Fin.ext
    match a with
    | ⟨0, _⟩ => show (j 0).val = 0; omega
    | ⟨1, _⟩ => have h1 : (j 1).val < 1 := (j 1).isLt; show (j 1).val = 0; omega
    | ⟨2, _⟩ => have h2 : (j 2).val < 1 := (j 2).isLt; show (j 2).val = 0; omega
  show (heldAt m c (pt b 1).val (pt b 1).isLt).1 ((cfg0.win 4).xinj (grid0.coords (pt b 1)) j)
    = Chamfer.E.o1 (xs m c) (ys m c) ((((cfg0.win 4).blk (pt b 1)).view.emb j) 0)
  rw [hj, held_close_o1]
  congr 1
  apply Fin.ext
  show b.val = win0_4.index (pt b 1) (0 : Fin 3) * 1 + 1 * (j 0).val
  rw [(idx4 (pt b 1)).1, pt_val]
  show b.val = (2 * b.val + 1) / 2 * 1 + 1 * (j 0).val
  omega

/-- An index of window 4's array is in a point's block iff each coordinate is in the block's range on its axis. -/
private theorem mem_blk4 (t : Fin cfg0.N) (i : S4x1x1.Idx) :
    i ∈ ((cfg0.win 4).blk t).view.set ↔ ∀ a : Fin 3, win0_4.index t a * S1x1x1.size a ≤ (i a).val
      ∧ (i a).val < win0_4.index t a * S1x1x1.size a + S1x1x1.size a := by
  show i ∈ ((View.whole main_call0_v9_0).slice (win0_4.rect t)).set ↔ _
  rw [View.set_slice_whole, Rect.mem_set_unit]
  exact Iff.rfl

/-- Index (b, 0, 0) of window 4's array is in the block of batch entry b's closing point, which writes back. -/
private theorem cover4 (i : S4x1x1.Idx) :
    ∃ t : Fin cfg0.N, (cfg0.win 4).flush t = true ∧ i ∈ ((cfg0.win 4).blk t).view.set := by
  have hi0 : (i 0).val < 4 := (i 0).isLt
  have hi1 : (i 1).val < 1 := (i 1).isLt
  have hi2 : (i 2).val < 1 := (i 2).isLt
  refine ⟨pt ⟨(i 0).val, hi0⟩ 1, (flush0_4 _).mpr ?_, ?_⟩
  · rw [pt_val]; show (2 * (i 0).val + 1) % 2 = 1; omega
  · rw [mem_blk4]
    obtain ⟨e0, e1, e2⟩ := idx4 (pt ⟨(i 0).val, hi0⟩ 1)
    rw [pt_val] at e0
    have e0' : win0_4.index (pt ⟨(i 0).val, hi0⟩ 1) (0 : Fin 3) = (2 * (i 0).val + 1) / 2 := e0
    intro a
    match a with
    | ⟨0, _⟩ =>
      show win0_4.index (pt ⟨(i 0).val, hi0⟩ 1) (0 : Fin 3) * 1 ≤ (i 0).val
        ∧ (i 0).val < win0_4.index (pt ⟨(i 0).val, hi0⟩ 1) (0 : Fin 3) * 1 + 1
      omega
    | ⟨1, _⟩ =>
      show win0_4.index (pt ⟨(i 0).val, hi0⟩ 1) (1 : Fin 3) * 1 ≤ (i 1).val
        ∧ (i 1).val < win0_4.index (pt ⟨(i 0).val, hi0⟩ 1) (1 : Fin 3) * 1 + 1
      omega
    | ⟨2, _⟩ =>
      show win0_4.index (pt ⟨(i 0).val, hi0⟩ 1) (2 : Fin 3) * 1 ≤ (i 2).val
        ∧ (i 2).val < win0_4.index (pt ⟨(i 0).val, hi0⟩ 1) (2 : Fin 3) * 1 + 1
      omega

/-! ## The second output's window -/

/-- The first coordinate of window 5's block index at a point is the point's batch entry; the other two are zero. -/
private theorem idx5 : ∀ t : Fin cfg0.N, win0_5.index t (0 : Fin 3) = t.val / 2
    ∧ win0_5.index t (1 : Fin 3) = 0 ∧ win0_5.index t (2 : Fin 3) = 0 :=
  (by decide +kernel : ∀ t : Fin grid0.N, win0_5.index t (0 : Fin 3) = t.val / 2
    ∧ win0_5.index t (1 : Fin 3) = 0 ∧ win0_5.index t (2 : Fin 3) = 0)

/-- The whole array of window 5: entry b is the second output of batch entry b. -/
private def G2 (c : Dev nD) : FVec Ideal S4x1x1 .f32 := fun i => Chamfer.E.o2 (xs m c) (ys m c) (i 0)

/-- What a closing point writes back to window 5's array is its block of the whole array: the block is the
    one element at (b, 0, 0), and the buffer holds the batch entry's output there. -/
private theorem flushed5_eq (c : Dev nD) (t : Fin cfg0.N) (hf : (cfg0.win 5).flush t = true) :
    (dats (F := Ideal) m 0 c).flushed 5 t = ((cfg0.win 5).blk t).view.read (Elt Ideal) (G2 m c) := by
  show (cfg0.win 5).cut (grid0.coords t) ((dats m 0 c).after 5 t) = _
  rw [after_5]
  obtain ⟨b, rfl⟩ := exists_pt_of_odd t ((flush0_5 t).mp hf)
  funext j
  have h0 : (j 0).val < 1 := (j 0).isLt
  have hj : (cfg0.win 5).xinj (grid0.coords (pt b 1)) j = ix3 0 0 0 := by
    funext a; apply Fin.ext
    match a with
    | ⟨0, _⟩ => show (j 0).val = 0; omega
    | ⟨1, _⟩ => have h1 : (j 1).val < 1 := (j 1).isLt; show (j 1).val = 0; omega
    | ⟨2, _⟩ => have h2 : (j 2).val < 1 := (j 2).isLt; show (j 2).val = 0; omega
  show (heldAt m c (pt b 1).val (pt b 1).isLt).2.1 ((cfg0.win 5).xinj (grid0.coords (pt b 1)) j)
    = Chamfer.E.o2 (xs m c) (ys m c) ((((cfg0.win 5).blk (pt b 1)).view.emb j) 0)
  rw [hj, held_close_o2]
  congr 1
  apply Fin.ext
  show b.val = win0_5.index (pt b 1) (0 : Fin 3) * 1 + 1 * (j 0).val
  rw [(idx5 (pt b 1)).1, pt_val]
  show b.val = (2 * b.val + 1) / 2 * 1 + 1 * (j 0).val
  omega

/-- An index of window 5's array is in a point's block iff each coordinate is in the block's range on its axis. -/
private theorem mem_blk5 (t : Fin cfg0.N) (i : S4x1x1.Idx) :
    i ∈ ((cfg0.win 5).blk t).view.set ↔ ∀ a : Fin 3, win0_5.index t a * S1x1x1.size a ≤ (i a).val
      ∧ (i a).val < win0_5.index t a * S1x1x1.size a + S1x1x1.size a := by
  show i ∈ ((View.whole main_call0_v9_1).slice (win0_5.rect t)).set ↔ _
  rw [View.set_slice_whole, Rect.mem_set_unit]
  exact Iff.rfl

/-- Index (b, 0, 0) of window 5's array is in the block of batch entry b's closing point, which writes back. -/
private theorem cover5 (i : S4x1x1.Idx) :
    ∃ t : Fin cfg0.N, (cfg0.win 5).flush t = true ∧ i ∈ ((cfg0.win 5).blk t).view.set := by
  have hi0 : (i 0).val < 4 := (i 0).isLt
  have hi1 : (i 1).val < 1 := (i 1).isLt
  have hi2 : (i 2).val < 1 := (i 2).isLt
  refine ⟨pt ⟨(i 0).val, hi0⟩ 1, (flush0_5 _).mpr ?_, ?_⟩
  · rw [pt_val]; show (2 * (i 0).val + 1) % 2 = 1; omega
  · rw [mem_blk5]
    obtain ⟨e0, e1, e2⟩ := idx5 (pt ⟨(i 0).val, hi0⟩ 1)
    rw [pt_val] at e0
    have e0' : win0_5.index (pt ⟨(i 0).val, hi0⟩ 1) (0 : Fin 3) = (2 * (i 0).val + 1) / 2 := e0
    intro a
    match a with
    | ⟨0, _⟩ =>
      show win0_5.index (pt ⟨(i 0).val, hi0⟩ 1) (0 : Fin 3) * 1 ≤ (i 0).val
        ∧ (i 0).val < win0_5.index (pt ⟨(i 0).val, hi0⟩ 1) (0 : Fin 3) * 1 + 1
      omega
    | ⟨1, _⟩ =>
      show win0_5.index (pt ⟨(i 0).val, hi0⟩ 1) (1 : Fin 3) * 1 ≤ (i 1).val
        ∧ (i 1).val < win0_5.index (pt ⟨(i 0).val, hi0⟩ 1) (1 : Fin 3) * 1 + 1
      omega
    | ⟨2, _⟩ =>
      show win0_5.index (pt ⟨(i 0).val, hi0⟩ 1) (2 : Fin 3) * 1 ≤ (i 2).val
        ∧ (i 2).val < win0_5.index (pt ⟨(i 0).val, hi0⟩ 1) (2 : Fin 3) * 1 + 1
      omega

/-! ## The arrays -/

theorem out1_apply (c : Dev nD) (b : Fin 4) : out1 m c (ix3 b 0 0) = Chamfer.E.o1 (xs m c) (ys m c) b :=
  congrFun ((dats (F := Ideal) m 0 c).arrAt_eq_of_cover 4 (G1 m c) (flushed4_eq m c) cover4) (ix3 b 0 0)

theorem out2_apply (c : Dev nD) (b : Fin 4) : out2 m c (ix3 b 0 0) = Chamfer.E.o2 (xs m c) (ys m c) b :=
  congrFun ((dats (F := Ideal) m 0 c).arrAt_eq_of_cover 5 (G2 m c) (flushed5_eq m c) cover5) (ix3 b 0 0)

end Cert.KernelIdeal.Val

end
-- ==== Proof.Val.Tail.lean ====
/-
  The host lines after the region: each output array summed from the zero word, scaled by the word 2⁻¹⁴, and the two
  added — the kernel's arrangement of the loss.
-/
import proofs.«120560_g4922032521243_cont_8to1_c_580_11_alg».proof.Proof.Val.Arrays
import Idealize.ShloMosaic.Lib.StableHlo.Run
import Idealize.ShloMosaic.PureOps.Ideal.Laws

noncomputable section

namespace Cert.KernelIdeal.Val

open Idealize.ShloMosaic Idealize.ShloMosaic.TcCoe Idealize.ShloMosaic.ValueIdx Idealize.SL.Sem
open Cert.KernelIdeal Cert.KernelIdeal.Gen Cert.KernelIdeal.Body
open Idealize.ShloMosaic.Pipeline (Dat)

variable (m : (ℓ : Loc nD τ sig) → Buf (Elt Ideal) ℓ)

/-- The program's result buffer after the host lines that follow the region. -/
def result (c : Dev nD) : FVec Ideal S_ .f32 := Pipeline.afterTail₀ cfgs (dats (F := Ideal) m) 0 (V0 m) [hostOps1] c main_v0

/-- An index of a [4, 1, 1] array is its first coordinate. -/
private def idxFin4 : S4x1x1.Idx ≃ Fin 4 where
  toFun i := i 0
  invFun b := ix3 b 0 0
  left_inv i := by
    funext a
    match a with
    | ⟨0, _⟩ => rfl
    | ⟨1, _⟩ => exact Fin.ext (by have h : (i 1).val < 1 := (i 1).isLt; show 0 = (i 1).val; omega)
    | ⟨2, _⟩ => exact Fin.ext (by have h : (i 2).val < 1 := (i 2).isLt; show 0 = (i 2).val; omega)
  right_inv b := rfl

/-- The host's sum of a [4, 1, 1] array over all its axes from the zero word: the zero word plus the sum of its
    four entries. -/
private theorem sum_out (x : FVec Ideal S4x1x1 .f32) (i : S_.Idx) :
    Host.reduceAdd (F := Ideal) x (constant S_ .f32 0x00000000#32) reducesTo_S4x1x1_S_d0_1_2 h_S_ i
      = Chamfer.wZero + ∑ b : Fin 4, x (ix3 b 0 0) := by
  simp only [Host.reduceAdd, Ideal.hostReduceAdd_def]
  rw [Ideal.hostReduceAdd_total reducesTo_S4x1x1_S_d0_1_2 (fun b => b.elim0)]
  congr 1
  exact Fintype.sum_equiv idxFin4 _ _ (fun j => congrArg x (idxFin4.left_inv j).symm)

/-- The host lines at the one index of the result, over any two [4, 1, 1] arrays. -/
private theorem tail_apply (a1 a2 : FVec Ideal S4x1x1 .f32) (i : S_.Idx) :
    addf (mulf (Host.reduceAdd (F := Ideal) a1 (constant S_ .f32 0x00000000#32) reducesTo_S4x1x1_S_d0_1_2 h_S_)
            (constant S_ .f32 0x38800000#32))
         (mulf (Host.reduceAdd (F := Ideal) a2 (constant S_ .f32 0x00000000#32) reducesTo_S4x1x1_S_d0_1_2 h_S_)
            (constant S_ .f32 0x38800000#32)) i
      = (Chamfer.wZero + ∑ b : Fin 4, a1 (ix3 b 0 0)) * Chamfer.wScale
        + (Chamfer.wZero + ∑ b : Fin 4, a2 (ix3 b 0 0)) * Chamfer.wScale := by
  show Host.reduceAdd (F := Ideal) a1 (constant S_ .f32 0x00000000#32) reducesTo_S4x1x1_S_d0_1_2 h_S_ i * Chamfer.wScale
      + Host.reduceAdd (F := Ideal) a2 (constant S_ .f32 0x00000000#32) reducesTo_S4x1x1_S_d0_1_2 h_S_ i * Chamfer.wScale = _
  rw [sum_out, sum_out]

theorem result_eq (c : Dev nD) : result m c = fun _ => Chamfer.E.loss (xs m c) (ys m c) := by
  unfold result Pipeline.afterTail₀
  show StableHlo.after hostOps1 _ (Proc.devRef .tc main_v0) = _
  after_results
  have h4 : Pipeline.withArrays (cfgs 0).spec c (V0 m c) (fun w => (dats (F := Ideal) m 0 c).arrAt w (cfgs 0).N)
      (Proc.devRef .tc main_call0_v9_0) = out1 m c := Pipeline.withArrays_arr spec0 launch0.win.arr_inj c _ _ 4
  have h5 : Pipeline.withArrays (cfgs 0).spec c (V0 m c) (fun w => (dats (F := Ideal) m 0 c).arrAt w (cfgs 0).N)
      (Proc.devRef .tc main_call0_v9_1) = out2 m c := Pipeline.withArrays_arr spec0 launch0.win.arr_inj c _ _ 5
  funext i
  refine (tail_apply _ _ i).trans ?_
  rw [h4, h5]
  unfold Chamfer.E.loss
  show (Chamfer.wZero + ∑ b : Fin 4, out1 m c (ix3 b 0 0)) * Chamfer.wScale
      + (Chamfer.wZero + ∑ b : Fin 4, out2 m c (ix3 b 0 0)) * Chamfer.wScale = _
  simp only [out1_apply, out2_apply]

end Cert.KernelIdeal.Val

end
-- ==== Proof.Finite.lean ====
/-
  Under the precondition every entry of the two argument arrays is a real number.
-/
import proofs.«120560_g4922032521243_cont_8to1_c_580_11_alg».proof.Proof.Val.Clouds
import proofs.«120560_g4922032521243_cont_8to1_c_580_11_alg».proof.Proof.Gen.Pre_finite_inputs
import proofs.«120560_g4922032521243_cont_8to1_c_580_11_alg».proof.Defs
import Idealize.ShloMosaic.Lib.ReduceAll

noncomputable section

namespace Cert.KernelIdeal.Val

open Idealize.ShloMosaic Idealize.ShloMosaic.TcCoe Idealize.ShloMosaic.ValueIdx Idealize.SL.Sem
open Cert.KernelIdeal Cert.KernelIdeal.Gen Cert.KernelIdeal.Body

variable (m : (ℓ : Loc nD τ sig) → Buf (Elt Ideal) ℓ)

/-- The rank-0 shape has one index. -/
private instance : Subsingleton Cert.Pre_finite_inputs.S_.Idx := ⟨fun a b => funext fun d => d.elim0⟩

/-- An extended real whose absolute value max x (−x) is strictly below +∞ is the coercion of a real:
    −∞ and +∞ both have absolute value +∞. -/
private theorem real_of_abs_lt (x : EReal)
    (hx : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  have htop : Ideal.ofBits .f32 0x7F800000#32 = ⊤ := by simp [Ideal.ofBits, Ideal.ieee]
  change Ideal.cmp .olt (max (x : EReal) (-(x : EReal))) (Ideal.ofBits .f32 0x7F800000#32) = 1#1 at hx
  rw [htop] at hx
  induction x using EReal.rec with
  | bot => simp [Ideal.cmp] at hx
  | top => simp [Ideal.cmp] at hx
  | coe r => exact ⟨r, rfl⟩

theorem real_of_pre [hP : Cert.Pre_finite_inputs.Facts] (h : Cert.Pre_KernelIdeal m) (c : Dev nD) :
    ∃ X Y : Chamfer.Cloud ℝ, xs m c = Chamfer.lift X ∧ ys m c = Chamfer.lift Y := by
  -- the precondition at core c: the conjunction of the two "all entries have |·| < +∞" is 1
  have h0 := congrFun (h c) ValueIdx.ix0
  dsimp only [Cert.Pre_finite_inputs.fn] at h0
  obtain ⟨hx, hy⟩ := IntOp.andi_eq_one.1 h0
  -- so every entry of either array is a real
  have ex : ∀ i, ∃ r : ℝ, argX m c i = (r : EReal) := fun i =>
    real_of_abs_lt _ (Host.reduce_andi_all _ _ _ _ _ hx i)
  have ey : ∀ i, ∃ r : ℝ, argY m c i = (r : EReal) := fun i =>
    real_of_abs_lt _ (Host.reduce_andi_all _ _ _ _ _ hy i)
  choose X hX using ex
  choose Y hY using ey
  exact ⟨fun b n k => X (ix3 b n k), fun b n k => Y (ix3 b n k),
    funext fun b => funext fun n => funext fun k => hX _,
    funext fun b => funext fun n => funext fun k => hY _⟩

end Cert.KernelIdeal.Val

end
-- ==== Proof.RefValue.lean ====
/-
  The reference program's result as a function of the two clouds: the reference's arrangement of the Chamfer loss.
-/
import proofs.«120560_g4922032521243_cont_8to1_c_580_11_alg».proof.Proof.Gen.ReferenceIdeal.Run
import proofs.«120560_g4922032521243_cont_8to1_c_580_11_alg».proof.Proof.Gen.ReferenceIdeal.Read
import proofs.«120560_g4922032521243_cont_8to1_c_580_11_alg».proof.Proof.Spec
import Idealize.ShloMosaic.Lib.ValueIdx

noncomputable section

namespace Cert.ReferenceIdeal.RefValue

open Cert.ReferenceIdeal Cert.ReferenceIdeal.Gen Idealize.ShloMosaic Idealize.ShloMosaic.TcCoe Idealize.ShloMosaic.ValueIdx Idealize.SL.Sem

/-- The first cloud's broadcast to the pairwise grid reads point n, coordinate k. -/
private theorem v2_at (x0 : FVec Ideal S4x4096x3 .f32) (b : Fin 4) (n m : Fin 4096) (k : Fin 3) :
    Cert.ReferenceIdeal.Read.val_main_v2 (F := Ideal) x0 (Cert.ReferenceIdeal.Read.idx_main_v6 (ix3 b n m) k) = x0 (ix3 b n k) := by
  rw [Cert.ReferenceIdeal.Read.val_main_v2_apply, Cert.ReferenceIdeal.Read.val_main_v0_apply]
  refine congrArg x0 (funext fun a => ?_)
  match a with
  | ⟨0, _⟩ => rfl
  | ⟨1, _⟩ => rfl
  | ⟨2, _⟩ => rfl

/-- The second cloud's broadcast to the pairwise grid reads point m, coordinate k. -/
private theorem v3_at (x1 : FVec Ideal S4x4096x3 .f32) (b : Fin 4) (n m : Fin 4096) (k : Fin 3) :
    Cert.ReferenceIdeal.Read.val_main_v3 (F := Ideal) x1 (Cert.ReferenceIdeal.Read.idx_main_v6 (ix3 b n m) k) = x1 (ix3 b m k) := by
  rw [Cert.ReferenceIdeal.Read.val_main_v3_apply, Cert.ReferenceIdeal.Read.val_main_v1_apply]
  refine congrArg x1 (funext fun a => ?_)
  match a with
  | ⟨0, _⟩ => rfl
  | ⟨1, _⟩ => rfl
  | ⟨2, _⟩ => rfl

/-- The sum of squared coordinate differences at (b, n, m) is the reference's distance. -/
private theorem v6_at (x0 x1 : FVec Ideal S4x4096x3 .f32) (b : Fin 4) (n m : Fin 4096) :
    Cert.ReferenceIdeal.Read.val_main_v6 (F := Ideal) x0 x1 (ix3 b n m)
      = Chamfer.R.dist (fun b n k => x0 (ix3 b n k)) (fun b n k => x1 (ix3 b n k)) b n m := by
  rw [Cert.ReferenceIdeal.Read.val_main_v6_apply]
  unfold Chamfer.R.dist
  refine congrArg₂ (· + ·) rfl (Finset.sum_congr rfl fun k _ => ?_)
  rw [Cert.ReferenceIdeal.Read.val_main_v5_apply, Cert.ReferenceIdeal.Read.val_main_v4_apply, v2_at, v3_at]
  rfl

private theorem red2 : S4x4096x4096.Reduces [2] S4x4096 := by decide
private theorem red1 : S4x4096x4096.Reduces [1] S4x4096 := by decide

/-- Over (b, n), the index with m inserted on the last axis is (b, n, m). -/
private theorem lift2_eq (b : Fin 4) (n : Fin 4096) (m : Fin 4096) :
    red2.lift (ix2 b n) m = ix3 b n m := by
  funext c; apply Fin.ext
  match c with
  | ⟨0, _⟩ => rfl
  | ⟨1, _⟩ => rfl
  | ⟨2, _⟩ => rfl

/-- Over (b, m), the index with n inserted on the middle axis is (b, n, m). -/
private theorem lift1_eq (b : Fin 4) (m : Fin 4096) (n : Fin 4096) :
    red1.lift (ix2 b m) n = ix3 b n m := by
  funext c; apply Fin.ext
  match c with
  | ⟨0, _⟩ => rfl
  | ⟨1, _⟩ => rfl
  | ⟨2, _⟩ => rfl

/-- The minimum over the second cloud's points, from the +∞ word, at (b, n). -/
private theorem v7_at (x0 x1 : FVec Ideal S4x4096x3 .f32) (b : Fin 4) (n : Fin 4096) :
    Cert.ReferenceIdeal.Read.val_main_v7 (F := Ideal) x0 x1 (ix2 b n)
      = Chamfer.R.near1 (fun b n k => x0 (ix3 b n k)) (fun b n k => x1 (ix3 b n k)) b n := by
  unfold Cert.ReferenceIdeal.Read.val_main_v7
  rw [Host.reduce_eq_fold_single FloatOps.minimumf _ _ reducesTo_S4x4096x4096_S4x4096_d2 red2 h_S_]
  unfold Chamfer.R.near1
  have hf : (Cert.ReferenceIdeal.Read.val_main_v6 (F := Ideal) x0 x1 ∘ red2.lift (ix2 b n))
      = fun m : Fin 4096 => Chamfer.R.dist (fun b n k => x0 (ix3 b n k)) (fun b n k => x1 (ix3 b n k)) b n m :=
    funext fun (m : Fin 4096) =>
      (congrArg (Cert.ReferenceIdeal.Read.val_main_v6 (F := Ideal) x0 x1) (lift2_eq b n m)).trans (v6_at x0 x1 b n m)
  rw [hf]
  rfl

/-- The minimum over the first cloud's points, from the +∞ word, at (b, m). -/
private theorem v8_at (x0 x1 : FVec Ideal S4x4096x3 .f32) (b : Fin 4) (m : Fin 4096) :
    Cert.ReferenceIdeal.Read.val_main_v8 (F := Ideal) x0 x1 (ix2 b m)
      = Chamfer.R.near2 (fun b n k => x0 (ix3 b n k)) (fun b n k => x1 (ix3 b n k)) b m := by
  unfold Cert.ReferenceIdeal.Read.val_main_v8
  rw [Host.reduce_eq_fold_single FloatOps.minimumf _ _ reducesTo_S4x4096x4096_S4x4096_d1 red1 h_S_]
  unfold Chamfer.R.near2
  have hf : (Cert.ReferenceIdeal.Read.val_main_v6 (F := Ideal) x0 x1 ∘ red1.lift (ix2 b m))
      = fun n : Fin 4096 => Chamfer.R.dist (fun b n k => x0 (ix3 b n k)) (fun b n k => x1 (ix3 b n k)) b n m :=
    funext fun (n : Fin 4096) =>
      (congrArg (Cert.ReferenceIdeal.Read.val_main_v6 (F := Ideal) x0 x1) (lift1_eq b m n)).trans (v6_at x0 x1 b n m)
  rw [hf]
  rfl

/-- The reference's last stage, at its one index, is the reference's arrangement of the loss of the two argument clouds. -/
theorem ref_eq (x0 x1 : FVec Ideal S4x4096x3 .f32) :
    Cert.ReferenceIdeal.Read.val_main_v13 (F := Ideal) x0 x1
      = fun _ => Chamfer.R.loss (fun b n k => x0 (ix3 b n k)) (fun b n k => x1 (ix3 b n k)) := by
  funext i
  rw [Cert.ReferenceIdeal.Read.val_main_v13_apply, Cert.ReferenceIdeal.Read.val_main_v10_apply,
    Cert.ReferenceIdeal.Read.val_main_v12_apply, Cert.ReferenceIdeal.Read.val_main_v9_apply,
    Cert.ReferenceIdeal.Read.val_main_v11_apply]
  rw [sum_idx2 (Cert.ReferenceIdeal.Read.val_main_v7 (F := Ideal) x0 x1),
    sum_idx2 (Cert.ReferenceIdeal.Read.val_main_v8 (F := Ideal) x0 x1)]
  simp only [v7_at, v8_at]
  rfl

end Cert.ReferenceIdeal.RefValue

end
-- ==== Proof.SpecLiterals.lean ====
/-
  The literal words of the two programs as extended reals: −2, 0, +∞, 2⁻¹⁴ = 1/16384 and 2¹⁴ = 16384.
-/
import proofs.«120560_g4922032521243_cont_8to1_c_580_11_alg».proof.Proof.Spec

noncomputable section

namespace Chamfer

open Idealize.ShloMosaic

/-- Sign 1, exponent 128, fraction 0: −2²³ · 2^(128 − 127 − 23) = −2. -/
theorem wNegTwo_eq : wNegTwo = ((-2 : ℝ) : EReal) := by
  simp [Ideal.ofBits, Ideal.ieee, -EReal.coe_mul]; norm_num
/-- Exponent 0, fraction 0: the zero. -/
theorem wZero_eq : wZero = 0 := by
  simp [Ideal.ofBits, Ideal.ieee]
/-- Sign 0, exponent all ones, fraction 0: +∞. -/
theorem wInf_eq : wInf = ⊤ := by
  simp [Ideal.ofBits, Ideal.ieee]
/-- Sign 0, exponent 113, fraction 0: 2²³ · 2^(113 − 127 − 23) = 2⁻¹⁴. -/
theorem wScale_eq : wScale = ((1 / 16384 : ℝ) : EReal) := by
  simp [Ideal.ofBits, Ideal.ieee, -EReal.coe_mul]; norm_num
/-- Sign 0, exponent 141, fraction 0: 2²³ · 2^(141 − 127 − 23) = 2¹⁴. -/
theorem wCount_eq : wCount = ((16384 : ℝ) : EReal) := by
  simp [Ideal.ofBits, Ideal.ieee, -EReal.coe_mul]; norm_num

end Chamfer

end
-- ==== Proof.SpecRef.lean ====
/-
  On real clouds the reference's arrangement over the extended reals is the real loss.
-/
import proofs.«120560_g4922032521243_cont_8to1_c_580_11_alg».proof.Proof.SpecLiterals

noncomputable section

namespace Chamfer

open Idealize.ShloMosaic

/-- A finite sum of reals read in the extended reals is the sum read there. -/
private theorem coe_sum {ι : Type} (s : Finset ι) (f : ι → ℝ) :
    ∑ i ∈ s, ((f i : ℝ) : EReal) = ((∑ i ∈ s, f i : ℝ) : EReal) := by
  induction s using Finset.cons_induction with
  | empty => simp
  | cons a s ha ih => rw [Finset.sum_cons, Finset.sum_cons, ih, EReal.coe_add]

/-- The minimum from +∞ of finitely many reals read in the extended reals, over a nonempty set, is their
    minimum read there: it lies below each of them and below +∞, and it is one of them. -/
private theorem fold_min_coe {ι : Type} (s : Finset ι) (hs : s.Nonempty) (f : ι → ℝ) :
    s.fold min (⊤ : EReal) (fun i => ((f i : ℝ) : EReal)) = ((s.inf' hs f : ℝ) : EReal) := by
  apply le_antisymm
  · rw [Finset.fold_min_le]
    right
    obtain ⟨i, hi, h⟩ := Finset.exists_mem_eq_inf' hs f
    exact ⟨i, hi, by rw [h]⟩
  · rw [Finset.le_fold_min]
    exact ⟨le_top, fun i hi => EReal.coe_le_coe_iff.mpr (Finset.inf'_le f hi)⟩

/-- The reference's squared distance on real clouds is the real squared distance. -/
private theorem R.dist_lift (X Y : Cloud ℝ) (b : Fin 4) (n m : Fin 4096) :
    R.dist (lift X) (lift Y) b n m = ((sqdist X Y b n m : ℝ) : EReal) := by
  unfold R.dist lift sqdist
  rw [wZero_eq, zero_add, ← coe_sum]
  refine Finset.sum_congr rfl fun k _ => ?_
  rw [EReal.coe_mul, EReal.coe_sub]

/-- The nearest point of Y to a point of X. -/
private theorem R.near1_lift (X Y : Cloud ℝ) (b : Fin 4) (n : Fin 4096) :
    R.near1 (lift X) (lift Y) b n
      = (((Finset.univ : Finset (Fin 4096)).inf' Finset.univ_nonempty (fun m => sqdist X Y b n m) : ℝ) : EReal) := by
  unfold R.near1
  rw [wInf_eq, ← fold_min_coe]
  congr 1
  funext m
  exact R.dist_lift X Y b n m

/-- The nearest point of X to a point of Y. -/
private theorem R.near2_lift (X Y : Cloud ℝ) (b : Fin 4) (m : Fin 4096) :
    R.near2 (lift X) (lift Y) b m
      = (((Finset.univ : Finset (Fin 4096)).inf' Finset.univ_nonempty (fun n => sqdist X Y b n m) : ℝ) : EReal) := by
  unfold R.near2
  rw [wInf_eq, ← fold_min_coe]
  congr 1
  funext n
  exact R.dist_lift X Y b n m

theorem R.loss_lift (X Y : Cloud ℝ) : R.loss (lift X) (lift Y) = ((_root_.Chamfer.loss X Y : ℝ) : EReal) := by
  unfold R.loss _root_.Chamfer.loss
  have h16 : (16384 : ℝ) ≠ 0 := by norm_num
  rw [wZero_eq, zero_add, zero_add, wCount_eq, Ideal.div_coe h16, Ideal.div_coe h16]
  simp only [R.near1_lift, R.near2_lift, coe_sum]
  rw [← EReal.coe_mul, ← EReal.coe_mul, ← EReal.coe_add, mul_one_div, mul_one_div]

end Chamfer

end
-- ==== Proof.SpecKernel.lean ====
/-
  On real clouds the kernel's arrangement over the extended reals is the kernel's arrangement over the reals.
-/
import proofs.«120560_g4922032521243_cont_8to1_c_580_11_alg».proof.Proof.SpecLiterals

noncomputable section

namespace Chamfer

open Idealize.ShloMosaic

/-- The coercion of a minimum of reals is the minimum of the coercions. -/
private lemma coe_min' (a b : ℝ) : ((min a b : ℝ) : EReal) = min (a : EReal) (b : EReal) :=
  EReal.coe_strictMono.monotone.map_min

/-- A finite sum of coerced reals is the coercion of the sum. -/
private lemma coe_sum' {ι : Type} (s : Finset ι) (f : ι → ℝ) :
    ∑ i ∈ s, ((f i : ℝ) : EReal) = ((∑ i ∈ s, f i : ℝ) : EReal) := by
  induction s using Finset.cons_induction with
  | empty => simp
  | cons a s ha ih => rw [Finset.sum_cons, Finset.sum_cons, ih, EReal.coe_add]

/-- A minimum from +∞ of coerced reals over a nonempty set is the coercion of the infimum. -/
private lemma fold_min_coe {ι : Type} (s : Finset ι) (hs : s.Nonempty) (f : ι → ℝ) :
    s.fold min (⊤ : EReal) (fun i => ((f i : ℝ) : EReal)) = ((s.inf' hs f : ℝ) : EReal) := by
  induction hs using Finset.Nonempty.cons_induction with
  | singleton a => simp
  | cons a s ha hs ih => rw [Finset.fold_cons, ih, Finset.inf'_cons hs, coe_min']

/-- |x|² of a lifted cloud. -/
private lemma sq_lift (X : Cloud ℝ) (b : Fin 4) (n : Fin 4096) :
    E.sq (lift X) b n = ((K.sq X b n : ℝ) : EReal) := by
  unfold E.sq K.sq lift
  rw [wZero_eq, zero_add, ← coe_sum']
  simp only [EReal.coe_mul]

/-- −2 x·y of lifted clouds. -/
private lemma cross_lift (X Y : Cloud ℝ) (b : Fin 4) (n m : Fin 4096) :
    E.cross (lift X) (lift Y) b n m = ((K.cross X Y b n m : ℝ) : EReal) := by
  unfold E.cross K.cross E.dbl lift
  rw [wNegTwo_eq]
  simp only [EReal.coe_mul, EReal.coe_add]

/-- The row minimum of lifted clouds. -/
private lemma rowMin_lift (X Y : Cloud ℝ) (b : Fin 4) (n : Fin 4096) :
    E.rowMin (lift X) (lift Y) b n = ((K.rowMin X Y b n : ℝ) : EReal) := by
  have h : (fun m => E.cross (lift X) (lift Y) b n m + E.sq (lift Y) b m)
      = fun m => ((K.cross X Y b n m + K.sq Y b m : ℝ) : EReal) := by
    funext m; rw [cross_lift, sq_lift, EReal.coe_add]
  unfold E.rowMin K.rowMin
  rw [h, wInf_eq, fold_min_coe _ Finset.univ_nonempty, sq_lift, ← EReal.coe_add]

/-- The column minimum over one half, of lifted clouds. -/
private lemma colMin_lift (X Y : Cloud ℝ) (b : Fin 4) (h : Fin 2) (m : Fin 4096) :
    E.colMin (lift X) (lift Y) b h m = ((K.colMin X Y b h m : ℝ) : EReal) := by
  have hf : (fun n' => E.cross (lift X) (lift Y) b (half h n') m + E.sq (lift X) b (half h n'))
      = fun n' => ((K.cross X Y b (half h n') m + K.sq X b (half h n') : ℝ) : EReal) := by
    funext n'; rw [cross_lift, sq_lift, EReal.coe_add]
  unfold E.colMin K.colMin
  rw [hf, wInf_eq, fold_min_coe _ Finset.univ_nonempty]

/-- The sum of a half's row minima, of lifted clouds. -/
private lemma halfSum_lift (X Y : Cloud ℝ) (b : Fin 4) (h : Fin 2) :
    E.halfSum (lift X) (lift Y) b h = ((∑ n' : Fin 2048, K.rowMin X Y b (half h n') : ℝ) : EReal) := by
  unfold E.halfSum
  simp only [rowMin_lift]
  exact coe_sum' _ _

/-- The first output, of lifted clouds. -/
private lemma o1_lift (X Y : Cloud ℝ) (b : Fin 4) :
    E.o1 (lift X) (lift Y) b
      = (((∑ n' : Fin 2048, K.rowMin X Y b (half 0 n')) + (∑ n' : Fin 2048, K.rowMin X Y b (half 1 n')) : ℝ) : EReal) := by
  unfold E.o1
  rw [halfSum_lift, halfSum_lift, EReal.coe_add]

/-- The second output, of lifted clouds. -/
private lemma o2_lift (X Y : Cloud ℝ) (b : Fin 4) :
    E.o2 (lift X) (lift Y) b
      = ((∑ m : Fin 4096, (min (K.colMin X Y b 0 m) (K.colMin X Y b 1 m) + K.sq Y b m) : ℝ) : EReal) := by
  have hf : (fun m => min (E.colMin (lift X) (lift Y) b 0 m) (E.colMin (lift X) (lift Y) b 1 m) + E.sq (lift Y) b m)
      = fun m => ((min (K.colMin X Y b 0 m) (K.colMin X Y b 1 m) + K.sq Y b m : ℝ) : EReal) := by
    funext m; rw [colMin_lift, colMin_lift, sq_lift, EReal.coe_add, coe_min']
  unfold E.o2
  rw [hf]
  exact coe_sum' _ _

theorem E.loss_lift (X Y : Cloud ℝ) : E.loss (lift X) (lift Y) = ((K.loss X Y : ℝ) : EReal) := by
  have h1 : (fun b => E.o1 (lift X) (lift Y) b)
      = fun b => (((∑ n' : Fin 2048, K.rowMin X Y b (half 0 n')) + (∑ n' : Fin 2048, K.rowMin X Y b (half 1 n')) : ℝ) : EReal) := by
    funext b; exact o1_lift X Y b
  have h2 : (fun b => E.o2 (lift X) (lift Y) b)
      = fun b => ((∑ m : Fin 4096, (min (K.colMin X Y b 0 m) (K.colMin X Y b 1 m) + K.sq Y b m) : ℝ) : EReal) := by
    funext b; exact o2_lift X Y b
  unfold E.loss K.loss
  rw [h1, h2, wZero_eq, wScale_eq, zero_add, zero_add, coe_sum', coe_sum', ← EReal.coe_mul, ← EReal.coe_mul,
    ← EReal.coe_add]

end Chamfer

end
-- ==== Proof.SpecAlgebra.lean ====
/-
  Over the reals the kernel's arrangement is the Chamfer loss: |x − y|² = −2 x·y + |y|² + |x|², a minimum commutes
  with adding a constant, a minimum over 4096 points is the minimum of the minima over the two halves, a sum over
  4096 points is the sum of the sums over the two halves, and dividing by 16384 is multiplying by 1/16384.
-/
import proofs.«120560_g4922032521243_cont_8to1_c_580_11_alg».proof.Proof.Spec
import Mathlib.Tactic.Ring
import Mathlib.Tactic.Linarith
import Mathlib.Data.Fintype.BigOperators

noncomputable section

namespace Chamfer

/-- |x − y|² = −2 x·y + |y|² + |x|². -/
private theorem cross_add_sq (X Y : Cloud ℝ) (b : Fin 4) (n m : Fin 4096) :
    K.cross X Y b n m + K.sq Y b m + K.sq X b n = sqdist X Y b n m := by
  unfold K.cross K.sq sqdist
  rw [Fin.sum_univ_three, Fin.sum_univ_three, Fin.sum_univ_three]
  ring

/-- A minimum over 4096 points commutes with adding a constant. -/
private theorem inf'_add_const_4096 (f : Fin 4096 → ℝ) (c : ℝ) :
    (Finset.univ : Finset (Fin 4096)).inf' Finset.univ_nonempty (fun m => f m + c)
      = (Finset.univ : Finset (Fin 4096)).inf' Finset.univ_nonempty f + c := by
  apply le_antisymm
  · rw [← sub_le_iff_le_add]
    apply Finset.le_inf'
    intro m hm
    have h := Finset.inf'_le (fun m => f m + c) hm
    linarith
  · apply Finset.le_inf'
    intro m hm
    have h := Finset.inf'_le f hm
    linarith

/-- A minimum over 2048 points commutes with adding a constant. -/
private theorem inf'_add_const_2048 (f : Fin 2048 → ℝ) (c : ℝ) :
    (Finset.univ : Finset (Fin 2048)).inf' Finset.univ_nonempty (fun m => f m + c)
      = (Finset.univ : Finset (Fin 2048)).inf' Finset.univ_nonempty f + c := by
  apply le_antisymm
  · rw [← sub_le_iff_le_add]
    apply Finset.le_inf'
    intro m hm
    have h := Finset.inf'_le (fun m => f m + c) hm
    linarith
  · apply Finset.le_inf'
    intro m hm
    have h := Finset.inf'_le f hm
    linarith

/-- The two halves of 2048 points make up the 4096 points, each once. -/
private def halfEquiv : Fin 2 × Fin 2048 ≃ Fin 4096 where
  toFun p := half p.1 p.2
  invFun n := (⟨n.val / 2048, by omega⟩, ⟨n.val % 2048, by omega⟩)
  left_inv := by
    rintro ⟨⟨h, hh⟩, ⟨n', hn'⟩⟩
    simp only [half]
    refine Prod.ext (Fin.ext ?_) (Fin.ext ?_)
    · show (2048 * h + n') / 2048 = h
      omega
    · show (2048 * h + n') % 2048 = n'
      omega
  right_inv := by
    rintro ⟨n, hn⟩
    simp only [half]
    apply Fin.ext
    show 2048 * (n / 2048) + n % 2048 = n
    omega

/-- Every one of the 4096 points is a point of one of the halves. -/
private theorem exists_half (n : Fin 4096) : ∃ h n', n = half h n' := by
  refine ⟨(halfEquiv.symm n).1, (halfEquiv.symm n).2, ?_⟩
  exact (halfEquiv.apply_symm_apply n).symm

/-- A sum over 4096 points is the sum of the sums over the two halves. -/
private theorem sum_halves (f : Fin 4096 → ℝ) :
    ∑ n : Fin 4096, f n = (∑ n' : Fin 2048, f (half 0 n')) + (∑ n' : Fin 2048, f (half 1 n')) := by
  rw [← Fintype.sum_equiv halfEquiv (fun p => f (half p.1 p.2)) f (fun _ => rfl)]
  rw [Fintype.sum_prod_type, Fin.sum_univ_two]

/-- A minimum over 4096 points is the minimum of the minima over the two halves. -/
private theorem inf'_halves (f : Fin 4096 → ℝ) :
    (Finset.univ : Finset (Fin 4096)).inf' Finset.univ_nonempty f
      = min ((Finset.univ : Finset (Fin 2048)).inf' Finset.univ_nonempty (fun n' => f (half 0 n')))
            ((Finset.univ : Finset (Fin 2048)).inf' Finset.univ_nonempty (fun n' => f (half 1 n'))) := by
  apply le_antisymm
  · apply le_min
    · apply Finset.le_inf'
      intro n' _
      exact Finset.inf'_le f (Finset.mem_univ (half 0 n'))
    · apply Finset.le_inf'
      intro n' _
      exact Finset.inf'_le f (Finset.mem_univ (half 1 n'))
  · apply Finset.le_inf'
    intro n _
    obtain ⟨h, n', rfl⟩ := exists_half n
    fin_cases h
    · exact (min_le_left _ _).trans
        (Finset.inf'_le (fun n' => f (half 0 n')) (Finset.mem_univ n'))
    · exact (min_le_right _ _).trans
        (Finset.inf'_le (fun n' => f (half 1 n')) (Finset.mem_univ n'))

/-- The minimum of two numbers commutes with adding a constant. -/
private theorem min_add_const (a b c : ℝ) : min (a + c) (b + c) = min a b + c := by
  rcases le_total a b with h | h
  · rw [min_eq_left h, min_eq_left (by linarith)]
  · rw [min_eq_right h, min_eq_right (by linarith)]

/-- A row minimum of the kernel is the minimum of the squared distances of the row. -/
private theorem rowMin_eq (X Y : Cloud ℝ) (b : Fin 4) (n : Fin 4096) :
    K.rowMin X Y b n
      = (Finset.univ : Finset (Fin 4096)).inf' Finset.univ_nonempty (fun m => sqdist X Y b n m) := by
  unfold K.rowMin
  rw [← inf'_add_const_4096]
  congr 1
  funext m
  exact cross_add_sq X Y b n m

/-- A half column minimum of the kernel, |y|² added, is the minimum of the squared distances over the half. -/
private theorem colMin_add_sq (X Y : Cloud ℝ) (b : Fin 4) (h : Fin 2) (m : Fin 4096) :
    K.colMin X Y b h m + K.sq Y b m
      = (Finset.univ : Finset (Fin 2048)).inf' Finset.univ_nonempty (fun n' => sqdist X Y b (half h n') m) := by
  unfold K.colMin
  rw [← inf'_add_const_2048]
  congr 1
  funext n'
  have := cross_add_sq X Y b (half h n') m
  linarith

/-- The joined column minimum of the kernel, |y|² added, is the minimum of the squared distances of the column. -/
private theorem colMin_eq (X Y : Cloud ℝ) (b : Fin 4) (m : Fin 4096) :
    min (K.colMin X Y b 0 m) (K.colMin X Y b 1 m) + K.sq Y b m
      = (Finset.univ : Finset (Fin 4096)).inf' Finset.univ_nonempty (fun n => sqdist X Y b n m) := by
  rw [← min_add_const, colMin_add_sq, colMin_add_sq]
  exact (inf'_halves (fun n => sqdist X Y b n m)).symm

theorem K.loss_eq (X Y : Cloud ℝ) : K.loss X Y = _root_.Chamfer.loss X Y := by
  unfold K.loss _root_.Chamfer.loss
  have h1 : ∀ b : Fin 4,
      (∑ n' : Fin 2048, K.rowMin X Y b (half 0 n')) + (∑ n' : Fin 2048, K.rowMin X Y b (half 1 n'))
        = ∑ n : Fin 4096, (Finset.univ : Finset (Fin 4096)).inf' Finset.univ_nonempty
            (fun m => sqdist X Y b n m) := by
    intro b
    rw [sum_halves (fun n => (Finset.univ : Finset (Fin 4096)).inf' Finset.univ_nonempty
      (fun m => sqdist X Y b n m))]
    simp only [rowMin_eq]
  have h2 : ∀ (b : Fin 4) (m : Fin 4096),
      min (K.colMin X Y b 0 m) (K.colMin X Y b 1 m) + K.sq Y b m
        = (Finset.univ : Finset (Fin 4096)).inf' Finset.univ_nonempty (fun n => sqdist X Y b n m) :=
    fun b m => colMin_eq X Y b m
  simp only [h1, h2]
  ring

end Chamfer

end
-- ==== Proof.lean ====
/-
  The Chamfer distance kernel against its jnp reference.

  Both programs compute, for two clouds x, y of 4 × 4096 points of ℝ³,
      (Σ_{b,n} min_m |x_bn − y_bm|²) / 16384 + (Σ_{b,m} min_n |x_bn − y_bm|²) / 16384.
  The reference forms every squared distance and reduces. The kernel expands |x − y|² = −2 x·y + |y|² + |x|²,
  walks each batch entry in two halves of 2048 points of x, keeps per batch entry a running sum of row minima and
  a running row of column minima, and scales the two sums by the word 2⁻¹⁴ = 1/16384.

  The three frames: the word-level and the idealized kernel program by the same body run, the reference by its
  run. The ideal pass rewrote nothing, so there is nothing to preserve. The equivalence: under the precondition
  the clouds are real, the kernel's result is its arrangement of the loss (read off the region's write-backs and
  the host lines around it), the reference's result is its own arrangement, and over the reals the two agree.
-/
import proofs.«120560_g4922032521243_cont_8to1_c_580_11_alg».proof.Defs
import proofs.«120560_g4922032521243_cont_8to1_c_580_11_alg».proof.Proof.Gen.Kernel
import proofs.«120560_g4922032521243_cont_8to1_c_580_11_alg».proof.Proof.Gen.KernelIdeal
import proofs.«120560_g4922032521243_cont_8to1_c_580_11_alg».proof.Proof.Gen.ReferenceIdeal
import proofs.«120560_g4922032521243_cont_8to1_c_580_11_alg».proof.Proof.Gen.Pre_finite_inputs
import proofs.«120560_g4922032521243_cont_8to1_c_580_11_alg».proof.Proof.Gen.ReferenceIdeal.Run
import proofs.«120560_g4922032521243_cont_8to1_c_580_11_alg».proof.Proof.Gen.ReferenceIdeal.Read
import proofs.«120560_g4922032521243_cont_8to1_c_580_11_alg».proof.Proof.BodyBits.Frame
import proofs.«120560_g4922032521243_cont_8to1_c_580_11_alg».proof.Proof.BodyIdeal.Frame
import proofs.«120560_g4922032521243_cont_8to1_c_580_11_alg».proof.Proof.Val.Tail
import proofs.«120560_g4922032521243_cont_8to1_c_580_11_alg».proof.Proof.Finite
import proofs.«120560_g4922032521243_cont_8to1_c_580_11_alg».proof.Proof.RefValue
import proofs.«120560_g4922032521243_cont_8to1_c_580_11_alg».proof.Proof.SpecRef
import proofs.«120560_g4922032521243_cont_8to1_c_580_11_alg».proof.Proof.SpecKernel
import proofs.«120560_g4922032521243_cont_8to1_c_580_11_alg».proof.Proof.SpecAlgebra
import Idealize.ShloMosaic.Adequacy
import Idealize.ShloMosaic.Init

noncomputable section

namespace Cert.Proof

open Idealize.ShloMosaic Idealize.ShloMosaic.TcCoe Idealize.ShloMosaic.ValueIdx Idealize.SL.Sem

section Claims

variable [hKernel : Cert.Kernel.Facts] [hKernelIdeal : Cert.KernelIdeal.Facts] [hReferenceIdeal : Cert.ReferenceIdeal.Facts]
  [hPre : Cert.Pre_finite_inputs.Facts]

theorem frame_kernel : Cert.frame_Kernel := fun m ρ _ => Cert.Kernel.Body.frame m ρ

theorem frame_kernelIdeal : Cert.frame_KernelIdeal := fun m ρ _ => Cert.KernelIdeal.Body.frame m ρ

theorem frame_reference : Cert.frame_ReferenceIdeal := fun m ρ _ =>
  (θ_run Cert.ReferenceIdeal.defs _ _).mono (fun _ h c => (h c).2) (Cert.ReferenceIdeal.Value.run (F := Ideal) m ρ)

open Cert.KernelIdeal Cert.KernelIdeal.Gen Cert.KernelIdeal.Body Cert.KernelIdeal.Val in
/-- The idealized kernel program's run with its result named: the kernel's arrangement of the loss of the two
    argument clouds. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v0) = (fun _ => Chamfer.E.loss (xs m c) (ys m c))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v0 (Pipeline.mem_restRefs_of main_v0 (by decide) (by decide))).trans (result_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main (F := Ideal) m ρ)

open Cert.KernelIdeal.Val in
theorem algebraic : Cert.algebraic_KernelIdeal_ReferenceIdeal := by
  intro m ρ m' ρ' hpre hagree
  refine ⟨fun c => (fun _ => Chamfer.E.loss (xs m c) (ys m c)), kernel_run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  refine (Cert.ReferenceIdeal.Read.val_main_v13_eq _ _).trans ((Cert.ReferenceIdeal.RefValue.ref_eq _ _).trans ?_)
  obtain ⟨X, Y, hX, hY⟩ := real_of_pre m hpre c
  funext _
  show Chamfer.R.loss (xs m c) (ys m c) = Chamfer.E.loss (xs m c) (ys m c)
  rw [hX, hY, Chamfer.R.loss_lift, Chamfer.E.loss_lift, Chamfer.K.loss_eq]

end Claims

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
